-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S2048x100000 : Shape := ⟨2, ![2048, 100000]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x100000 : S_.BroadcastsInDim S2048x100000 (![] : Fin 0 → Fin S2048x100000.rank)
  reducesTo_S2048x100000_S_d0_1 : S2048x100000.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg2 : IVec S256 32) (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  let main_c_6 : IVec S_ 32 := constantI S_ 32 100000#32
  let main_v18 : IVec S256 32 := broadcastInDim S256 ![] bcast_S_S256 main_c_6
  let main_v19 : IVec S256 1 := cmpi .slt main_arg2 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v17 main_v20
  main_v21

def fn {F : FTy → Type} [FloatOps F] (main_arg0 : FVec F S256x2048 .f32) (main_arg1 : FVec F S256x2048 .f32) (main_arg2 : IVec S256 32) (main_arg3 : FVec F S2048x100000 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048x100000 .f32 := Host.absf main_arg3
  let main_cst_2 : FVec F S_ .f32 := constant S_ .f32 0x7F800000#32
  let main_v10 : FVec F S2048x100000 .f32 := broadcastInDim S2048x100000 ![] bcast_S_S2048x100000 main_cst_2
  let main_v11 : IVec S2048x100000 1 := cmpf .olt main_v9 main_v10
  let main_c_3 : IVec S_ 1 := constantI S_ 1 1#1
  let main_v12 : IVec S_ 1 := (fun x v => Host.reduce IntOp.andi x v reducesTo_S2048x100000_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg2 main_v14
  let main_c_5 : IVec S_ 1 := constantI S_ 1 1#1
  fn_part1 (F := F) main_arg2 main_v13 main_v15 main_c_5
-- ==== Kernel.lean ====
abbrev S256x2048 : Shape := ⟨2, ![256, 2048]⟩
abbrev S256 : Shape := ⟨1, ![256]⟩
abbrev S2048x100000 : Shape := ⟨2, ![2048, 100000]⟩
abbrev S256x1 : Shape := ⟨2, ![256, 1]⟩
abbrev S2x256x1 : Shape := ⟨3, ![2, 256, 1]⟩
abbrev S2048x1408 : Shape := ⟨2, ![2048, 1408]⟩
abbrev S1x256x1 : Shape := ⟨3, ![1, 256, 1]⟩
abbrev S256x1408 : Shape := ⟨2, ![256, 1408]⟩
abbrev S_ : Shape := ⟨0, ![]⟩

abbrev nBuf : Space → Nat
  | .hbm => 40
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256, .i32⟩
  | .hbm, ⟨3, _⟩ => ⟨S2048x100000, .f32⟩
  | .hbm, ⟨4, _⟩ => ⟨S256x1, .i32⟩
  | .hbm, ⟨5, _⟩ => ⟨S2x256x1, .f32⟩
  | .hbm, ⟨6, _⟩ => ⟨S2x256x1, .f32⟩
  | .hbm, ⟨7, _⟩ => ⟨S2x256x1, .f32⟩
  | .hbm, ⟨8, _⟩ => ⟨S1x256x1, .f32⟩
  | .hbm, ⟨9, _⟩ => ⟨S256x1, .f32⟩
  | .hbm, ⟨10, _⟩ => ⟨S1x256x1, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S1x256x1, .f32⟩
  | .hbm, ⟨15, _⟩ => ⟨S256x1, .f32⟩
  | .hbm, ⟨16, _⟩ => ⟨S1x256x1, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1, .i1⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S1x256x1, .f32⟩
  | .hbm, ⟨31, _⟩ => ⟨S256x1, .f32⟩
  | .hbm, ⟨32, _⟩ => ⟨S1x256x1, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S256x2048, .f32⟩
  | .local _ .vmem, ⟨1, _⟩ => ⟨S2048x1408, .f32⟩
  | .local _ .vmem, ⟨2, _⟩ => ⟨S2048x1408, .f32⟩
  | .local _ .vmem, ⟨3, _⟩ => ⟨S256x1, .i32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x256x1, .f32⟩
  | .local _ .vmem, ⟨9, _⟩ => ⟨S1x256x1, .f32⟩
  | .local _ .vmem, ⟨10, _⟩ => ⟨S256x2048, .bf16⟩
  | .local _ .vmem, ⟨11, _⟩ => ⟨S256x1, .f32⟩
  | .local _ .vmem, ⟨12, _⟩ => ⟨S256x1, .f32⟩
  | .local _ .vmem, ⟨13, _⟩ => ⟨S256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 36], ![false, false]⟩

def k0_cond4 (i : grid0.Coords) : BitVec 1 :=
  let arg1 : BitVec 32 := BitVec.ofNat 32 (i 1).val
  let c35_i32 : BitVec 32 := 35#32
  let v25 : BitVec 1 := Scalar.cmpi .eq arg1 c35_i32
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.muli arg0 c36_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  broadcasts_S256x1_S256x2048 : S256x1.Broadcasts S256x2048
  bitsLt_bf16_f32 : FTy.bits .bf16 < FTy.bits .f32
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S2048x1408_S2048x1408_0_0 : ∀ a, (![0, 0] : Fin 2 → Nat) a + S2048x1408.size a ≤ S2048x1408.size a
  h_S2048x1408 : 0 < S2048x1408.numel
  iota_S256x1408_d1_w32 : S256x1408.Iotas .tc 32 [1]
  broadcasts_S256x1_S256x1408 : S256x1.Broadcasts S256x1408
  reduces_S256x1408_S256 : S256x1408.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S2x256x1_S1x256x1_0_0_0 : S2x256x1.Slices ![0, 0, 0] S1x256x1
  slices_S2x256x1_S1x256x1_1_0_0 : S2x256x1.Slices ![1, 0, 0] S1x256x1
  reducesTo_S256x1_S_d0_1 : S256x1.ReducesTo [0, 1] S_
  h_S_ : 0 < S_.numel
  dot_S256x2048_S2048x1408_S256x1408_1_0_0_1_n_n_wf : DotDims.WF S256x2048 S2048x1408 S256x1408 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1408.size a < S2048x100000.size a
  hwx0_1 : ∀ i : grid0.Coords, EltTy.bits .f32 = 32 ∨ (Rect.unit (s := S2048x100000) (fun a => cc0_transform_1 i a * S2048x1408.size a) (fun a => (Pipeline.Clip.of (cc0_transform_1 i a) (S2048x1408.size a) (S2048x100000.size a)).extent (S2048x1408.size a)) fun a => Pipeline.Clip.inb (Pipeline.Clip.ok_of (hstart0_1 i a))).WholeWords (EltTy.packing .f32)
  hwxs0_1 : ∀ i : grid0.Coords, EltTy.bits .f32 = 32 ∨ (Rect.unit (s := S2048x1408) (fun _ => 0) (fun a => (Pipeline.Clip.of (cc0_transform_1 i a) (S2048x1408.size a) (S2048x100000.size a)).extent (S2048x1408.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S2x256x1.size a
  hwx0_3 : ∀ i : grid0.Coords, EltTy.bits .f32 = 32 ∨ (Rect.block (s := S2x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x256x1.size a
  hwx0_4 : ∀ i : grid0.Coords, EltTy.bits .f32 = 32 ∨ (Rect.block (s := S2x256x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1.size a ≤ S2x256x1.size a
  hwx0_5 : ∀ i : grid0.Coords, EltTy.bits .f32 = 32 ∨ (Rect.block (s := S2x256x1) S1x256x1.size (cc0_transform_5 i) (hinb0_5 i)).WholeWords (EltTy.packing .f32)

variable [Facts₀]

def dot_S256x2048_S2048x1408_S256x1408_1_0_0_1_n_n : DotDims S256x2048 S2048x1408 S256x1408 where
  lhsContracting := [1]
  rhsContracting := [0]
  lhsNonContracting := [0]
  rhsNonContracting := [1]
  lhsBatch := []
  rhsBatch := []
  wf := dot_S256x2048_S2048x1408_S256x1408_1_0_0_1_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S2048x1408.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond4 i == 1#1) | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S256x2048 : Shape := ⟨2, ![256, 2048]⟩
abbrev S256 : Shape := ⟨1, ![256]⟩
abbrev S2048x100000 : Shape := ⟨2, ![2048, 100000]⟩
abbrev S_ : Shape := ⟨0, ![]⟩
abbrev S256x1 : Shape := ⟨2, ![256, 1]⟩
abbrev S256x100000 : Shape := ⟨2, ![256, 100000]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256, .i32⟩
  | .hbm, ⟨3, _⟩ => ⟨S2048x100000, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x2048, .f32⟩
  | .hbm, ⟨13, _⟩ => ⟨S256x2048, .f32⟩
  | .hbm, ⟨14, _⟩ => ⟨S256x100000, .f32⟩
  | .hbm, ⟨15, _⟩ => ⟨S_, .f32⟩
  | .hbm, ⟨16, _⟩ => ⟨S256x100000, .f32⟩
  | .hbm, ⟨17, _⟩ => ⟨S256x100000, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256x1, .f32⟩
  | .hbm, ⟨24, _⟩ => ⟨S256x100000, .f32⟩
  | .hbm, ⟨25, _⟩ => ⟨S256x100000, .f32⟩
  | .hbm, ⟨26, _⟩ => ⟨S256x100000, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x1, .f32⟩
  | .hbm, ⟨31, _⟩ => ⟨S256x100000, .f32⟩
  | .hbm, ⟨32, _⟩ => ⟨S256x100000, .f32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S256x1x1, .i32⟩
  | .hbm, ⟨42, _⟩ => ⟨S1, .i32⟩
  | .hbm, ⟨43, _⟩ => ⟨S_, .i32⟩
  | .hbm, ⟨44, _⟩ => ⟨S256x1x1, .i32⟩
  | .hbm, ⟨45, _⟩ => ⟨S256x1x1, .i1⟩
  | .hbm, ⟨46, _⟩ => ⟨S1x1x1, .i32⟩
  | .hbm, ⟨47, _⟩ => ⟨S256x1x1, .i32⟩
  | .hbm, ⟨48, _⟩ => ⟨S256x1x1, .i1⟩
  | .hbm, ⟨49, _⟩ => ⟨S256x1x1, .i1⟩
  | .hbm, ⟨50, _⟩ => ⟨S_, .i1⟩
  | .hbm, ⟨51, _⟩ => ⟨S256x1, .i1⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v8 : Ref sig .tc := ⟨.hbm, 32, rfl⟩
abbrev main_v9 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_v13 : Ref sig .tc := ⟨.hbm, 60, rfl⟩

abbrev nD : Nat := 1
abbrev τ : Topo := Topo.v7x

variable {F : FTy → Type} [FloatOps F]

class Facts₀ : Prop where
  reducesTo_S256x2048_S256_d1 : S256x2048.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x2048_0_1 : S256x1.BroadcastsInDim S256x2048 (![0, 1] : Fin 2 → Fin S256x2048.rank)
  bcast_S_S256x100000 : S_.BroadcastsInDim S256x100000 (![] : Fin 0 → Fin S256x100000.rank)
  reducesTo_S256x100000_S256_d1 : S256x100000.ReducesTo [1] S256
  bcast_S_S256 : S_.BroadcastsInDim S256 (![] : Fin 0 → Fin S256.rank)
  bcast_S256x1_S256x100000_0_1 : S256x1.BroadcastsInDim S256x100000 (![0, 1] : Fin 2 → Fin S256x100000.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S256x2048_S2048x100000_S256x100000_1_0_0_1_n_n_wf : DotDims.WF S256x2048 S2048x100000 S256x100000 [1] [0] [0] [1] [] []
  gather_S256x100000_S256x1x1_S256x1_n_1_0_0_1_2_11_wf : GatherDims.WF S256x100000 S256x1x1 S256x1 [] [1] [0] [1] [0] 2 ![1, 1]

variable [Facts₀]

def dot_S256x2048_S2048x100000_S256x100000_1_0_0_1_n_n : DotDims S256x2048 S2048x100000 S256x100000 where
  lhsContracting := [1]
  rhsContracting := [0]
  lhsNonContracting := [0]
  rhsNonContracting := [1]
  lhsBatch := []
  rhsBatch := []
  wf := dot_S256x2048_S2048x100000_S256x100000_1_0_0_1_n_n_wf
def gather_S256x100000_S256x1x1_S256x1_n_1_0_0_1_2_11 : GatherDims S256x100000 S256x1x1 S256x1 where
  offsetDims := []
  collapsedSliceDims := [1]
  operandBatchingDims := [0]
  startIndicesBatchingDims := [0]
  startIndexMap := [1]
  indexVectorDim := 2
  sliceSizes := ![1, 1]
  wf := gather_S256x100000_S256x1x1_S256x1_n_1_0_0_1_2_11_wf

class Facts : Prop extends Facts₀ where

variable [Facts]
-- ==== Proof.LibWholeBuffer.lean ====
/-
  Two facts about a buffer that is loaded and stored WHOLE (through the rectangle that starts at offset zero
  on every axis and has the buffer's own extents): such a load reads the contents, and after one such store the
  buffer reads as the stored value, whatever it held before.
-/
import Idealize.ShloMosaic.Lib.Pipeline.FrameBody
import Idealize.ShloMosaic.Lib.Pipeline.Value

noncomputable section

namespace Idealize.ShloMosaic.View

variable {Val : EltTy → Type} [∀ e, Nonempty (Val e)] {sig : RefSig} {κ : Kind} {sp : Space} {S : Shape} {e : EltTy}

/-- One whole store into a view leaves the stored value there: every index lies under the store's rectangle. -/
theorem read_writes_unitZero (v : View sig κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h]

/-- The LAST of several stores, when it is whole, decides what the view reads. -/
theorem read_writes_cons_unitZero (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  rw [View.read_writes_eq_canon v f _ (fun y => ⟨_, List.mem_cons_self, View.mem_set_unit_zero h inb y⟩),
    View.canon_cons_unit_zero h]

/-- A whole load after several stores of which the last was whole reads that store's value. -/
theorem readCov_cons_unitZero (v : View sig κ sp S e) {off : Fin S.rank → Nat}
    (h : off = fun _ => 0) (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A whole load of contents that read `X` reads `X`. -/
theorem readAt_unitZero (v : View sig κ sp S e) (f : v.ty.Contents Val) {off : Fin S.rank → Nat}
    (h : off = fun _ => 0) (inb : ∀ a, off a + S.size a ≤ S.size a) (X : S.Idx → Val e) (hX : v.read Val f = X) :
    v.readAt Val (Rect.unit off S.size inb).toLoadRect f = X := by
  rw [View.readAt_eq_ld, hX, View.ld_unit_zero h]

end Idealize.ShloMosaic.View

end
-- ==== Proof.BConds.lean ====
import proofs.«404700_j7164005449845_3_alg».proof.Proof.Gen.Kernel.Frame
import proofs.«404700_j7164005449845_3_alg».proof.Proof.Gen.Kernel.Skeleton
import proofs.«404700_j7164005449845_3_alg».proof.Proof.LibWholeBuffer

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-! The four branch conditions of the kernel body, as it computes them from the grid point `(core, step)`, and
    where over the 2 × 36 grid each holds: the reset at a core's first step, the unmasked update at every tile but
    the globally last (tile 71), the masked update at that tile, the write-out at a core's last step. -/

/-- `step = 0`: the accumulators are reset and the normalised rows stored. -/
abbrev cFirst (i : grid0.Coords) : Prop :=
  Scalar.cmpi .ne (Scalar.extui (Scalar.cmpi .eq (BitVec.ofNat 32 (i 1).val) 0#32)) 0#32 = 1#1
/-- `36 * core + step ≠ 71`: the unmasked update. -/
abbrev cNotLast (i : grid0.Coords) : Prop :=
  Scalar.cmpi .ne (Scalar.extui (Scalar.xori (Scalar.cmpi .eq (Scalar.addi (Scalar.muli (BitVec.ofNat 32 (i 0).val) 36#32) (BitVec.ofNat 32 (i 1).val)) 71#32) 1#1)) 0#32 = 1#1
/-- `36 * core + step = 71`: the masked update. -/
abbrev cLast (i : grid0.Coords) : Prop :=
  Scalar.cmpi .ne (Scalar.extui (Scalar.cmpi .eq (Scalar.addi (Scalar.muli (BitVec.ofNat 32 (i 0).val) 36#32) (BitVec.ofNat 32 (i 1).val)) 71#32)) 0#32 = 1#1
/-- `step = 35`: the accumulators are written to the outputs' blocks. -/
abbrev cOut (i : grid0.Coords) : Prop := k0_cond4 i = 1#1

theorem hFirst : ∀ t : Fin cfg0.N, cFirst (grid0.coords t) ↔ t.val % 36 = 0 :=
  (by decide +kernel : ∀ t : Fin grid0.N, cFirst (grid0.coords t) ↔ t.val % 36 = 0)
theorem hNotLast : ∀ t : Fin cfg0.N, cNotLast (grid0.coords t) ↔ t.val ≠ 71 :=
  (by decide +kernel : ∀ t : Fin grid0.N, cNotLast (grid0.coords t) ↔ t.val ≠ 71)
theorem hLast : ∀ t : Fin cfg0.N, cLast (grid0.coords t) ↔ t.val = 71 :=
  (by decide +kernel : ∀ t : Fin grid0.N, cLast (grid0.coords t) ↔ t.val = 71)
theorem hOut : ∀ t : Fin cfg0.N, cOut (grid0.coords t) ↔ t.val % 36 = 35 :=
  (by decide +kernel : ∀ t : Fin grid0.N, cOut (grid0.coords t) ↔ t.val % 36 = 35)

/-- The first column of the point's tile, as the body computes it: `(36 * core + step) * 1408`. -/
abbrev tileStart (i : grid0.Coords) : BitVec 32 :=
  Scalar.muli (Scalar.addi (Scalar.muli (BitVec.ofNat 32 (i 0).val) 36#32) (BitVec.ofNat 32 (i 1).val)) 1408#32
/-- The column number inside the tile, at every entry of a 256 × 1408 block. -/
abbrev colIota : IVec S256x1408 32 := iota .tc S256x1408 32 [1] iota_S256x1408_d1_w32

theorem zero2 : (![0, 0] : Fin 2 → Nat) = fun _ => 0 := funext fun a => by fin_cases a <;> rfl
theorem zero3 : (![0, 0, 0] : Fin 3 → Nat) = fun _ => 0 := funext fun a => by fin_cases a <;> rfl

end Cert.Kernel.Body

end
-- ==== Proof.BRunFirst.lean ====
import proofs.«404700_j7164005449845_3_alg».proof.Proof.BConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 4000000 in
/-- A core's first step: the accumulators are reset, the rows normalised and stored, then the tile's logits
    enter the fresh accumulators; the outputs' blocks are handed back as found. -/
theorem runFirst (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : cFirst i) (h2 : cNotLast i) (h3 : ¬cLast i) (h4 : ¬cOut i)
    (x0 : Vec F S256x2048 .f32) (x1 : Vec F S2048x1408 .f32) (x2 : Vec F S256x1 .i32)
    (o3 o4 o5 : Vec F S1x256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4 ∗ owns (c : Thread nD τ) arg7 fullShare o5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4 ∗ owns (c : Thread nD τ) arg7 fullShare o5
            ∗ owns (c : Thread nD τ) arg8 fullShare (k0_pay4 x0) ∗ owns (c : Thread nD τ) arg9 fullShare (k0_pay10 (k0_pay4 x0) x1 k0_pay1)
            ∗ owns (c : Thread nD τ) arg10 fullShare (k0_pay9 (k0_pay4 x0) x1 k0_pay1 k0_pay1 k0_pay2) ∗ owns (c : Thread nD τ) arg11 fullShare (k0_pay7 i (k0_pay4 x0) x1 x2 k0_pay3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e0, %g0, -, S0⟩, ⟨%e1, %g1, -, S1⟩, ⟨%e2, %g2, -, S2⟩, ⟨%e3, %g3, -, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact h1 | exact h2 | exact h3 | exact h4)
  sl_step
  iapply Hk
  try sl_unfold_run_names
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [S0]
  · iexists _; isplitr
    swap; · iexact S0
    ipureintro; exact View.read_writes_cons_unitZero _ _ zero2 _ _ _
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.Kernel.Body

end
-- ==== Proof.BRunMid.lean ====
import proofs.«404700_j7164005449845_3_alg».proof.Proof.BConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 2000000 in
/-- A middle step (not a core's first, not its last, not tile 71): the three accumulators are updated from the
    tile's logits, everything else is handed back as found. -/
theorem runMid (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : ¬cFirst i) (h2 : cNotLast i) (h3 : ¬cLast i) (h4 : ¬cOut i)
    (x0 : Vec F S256x2048 .f32) (x1 : Vec F S2048x1408 .f32) (x2 : Vec F S256x1 .i32)
    (o3 o4 o5 : Vec F S1x256x1 .f32)
    (s0 : Vec F S256x2048 .bf16) (s1 s2 s3 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4 ∗ owns (c : Thread nD τ) arg7 fullShare o5
        ∗ owns (c : Thread nD τ) arg8 fullShare s0 ∗ owns (c : Thread nD τ) arg9 fullShare s1 ∗ owns (c : Thread nD τ) arg10 fullShare s2 ∗ owns (c : Thread nD τ) arg11 fullShare s3
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4 ∗ owns (c : Thread nD τ) arg7 fullShare o5
            ∗ owns (c : Thread nD τ) arg8 fullShare s0 ∗ owns (c : Thread nD τ) arg9 fullShare (k0_pay10 s0 x1 s1)
            ∗ owns (c : Thread nD τ) arg10 fullShare (k0_pay9 s0 x1 s1 s1 s2) ∗ owns (c : Thread nD τ) arg11 fullShare (k0_pay7 i s0 x1 x2 s3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hg0; obtain rfl := harg9.eq_unread hg1; obtain rfl := harg10.eq_unread hg2; obtain rfl := harg11.eq_unread hg3
  sl_exec (disch := first | exact h1 | exact h2 | exact h3 | exact h4)
  sl_step
  iapply Hk
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [S0]
  · iexists _; isplitr
    swap; · iexact S0
    ipureintro; exact hg0
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.Kernel.Body

end
-- ==== Proof.BRunOut.lean ====
import proofs.«404700_j7164005449845_3_alg».proof.Proof.BConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 4000000 in
/-- A core's last step when it is not tile 71: the unmasked update, then the three accumulators are copied to
    the outputs' blocks. -/
theorem runOut (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : ¬cFirst i) (h2 : cNotLast i) (h3 : ¬cLast i) (h4 : cOut i)
    (x0 : Vec F S256x2048 .f32) (x1 : Vec F S2048x1408 .f32) (x2 : Vec F S256x1 .i32)
    (s0 : Vec F S256x2048 .bf16) (s1 s2 s3 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2 ∗ owns (c : Thread nD τ) arg11 fullShare s3
        ∗ (iprop(owns (c : Thread nD τ) arg2 fullShare x0 ∗ owns (c : Thread nD τ) arg3 fullShare x1 ∗ owns (c : Thread nD τ) arg4 fullShare x2
            ∗ owns (c : Thread nD τ) arg5 fullShare (k0_pay12 (k0_pay10 s0 x1 s1)) ∗ owns (c : Thread nD τ) arg6 fullShare (k0_pay13 (k0_pay9 s0 x1 s1 s1 s2)) ∗ owns (c : Thread nD τ) arg7 fullShare (k0_pay14 (k0_pay7 i s0 x1 x2 s3))
            ∗ owns (c : Thread nD τ) arg8 fullShare s0 ∗ owns (c : Thread nD τ) arg9 fullShare (k0_pay10 s0 x1 s1)
            ∗ owns (c : Thread nD τ) arg10 fullShare (k0_pay9 s0 x1 s1 s1 s2) ∗ owns (c : Thread nD τ) arg11 fullShare (k0_pay7 i s0 x1 x2 s3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg8.eq_unread hg0; obtain rfl := harg9.eq_unread hg1; obtain rfl := harg10.eq_unread hg2; obtain rfl := harg11.eq_unread hg3
  sl_exec (disch := first | exact h1 | exact h2 | exact h3 | exact h4)
  sl_step
  iapply Hk
  try sl_unfold_run_names
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact View.read_writes_cons_unitZero _ _ zero3 _ _ _
  isplitl [H4]
  · iexists _; isplitr
    swap; · iexact H4
    ipureintro; exact View.read_writes_cons_unitZero _ _ zero3 _ _ _
  isplitl [H5]
  · iexists _; isplitr
    swap; · iexact H5
    ipureintro; exact View.read_writes_cons_unitZero _ _ zero3 _ _ _
  isplitl [S0]
  · iexists _; isplitr
    swap; · iexact S0
    ipureintro; exact hg0
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.Kernel.Body

end
-- ==== Proof.BRunLast.lean ====
import proofs.«404700_j7164005449845_3_alg».proof.Proof.BConds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxHeartbeats 4000000 in
/-- Tile 71, the globally last (core 1's last step): the masked update — columns at or past 100000 replaced by
    a large negative constant in the maximum and the target pick, and by zero in the sum of exponentials —, then the
    three accumulators are copied to the outputs' blocks. -/
theorem runLast (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : ¬cFirst i) (h2 : ¬cNotLast i) (h3 : cLast i) (h4 : cOut i)
    (x0 : Vec F S256x2048 .f32) (x1 : Vec F S2048x1408 .f32) (x2 : Vec F S256x1 .i32)
    (s0 : Vec F S256x2048 .bf16) (s1 s2 s3 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2 ∗ owns (c : Thread nD τ) arg11 fullShare s3
        ∗ (iprop(owns (c : Thread nD τ) arg2 fullShare x0 ∗ owns (c : Thread nD τ) arg3 fullShare x1 ∗ owns (c : Thread nD τ) arg4 fullShare x2
            ∗ owns (c : Thread nD τ) arg5 fullShare (k0_pay12 (k0_pay11 (k0_pay18 (tileStart i) (k0_pay5 s0 x1) colIota s1))) ∗ owns (c : Thread nD τ) arg6 fullShare (k0_pay13 (k0_pay19 (tileStart i) (k0_pay5 s0 x1) colIota s1 s1 s2)) ∗ owns (c : Thread nD τ) arg7 fullShare (k0_pay14 (k0_pay17 (tileStart i) (k0_pay5 s0 x1) colIota (k0_pay6 i x2) s3))
            ∗ owns (c : Thread nD τ) arg8 fullShare s0 ∗ owns (c : Thread nD τ) arg9 fullShare (k0_pay11 (k0_pay18 (tileStart i) (k0_pay5 s0 x1) colIota s1))
            ∗ owns (c : Thread nD τ) arg10 fullShare (k0_pay19 (tileStart i) (k0_pay5 s0 x1) colIota s1 s1 s2) ∗ owns (c : Thread nD τ) arg11 fullShare (k0_pay17 (tileStart i) (k0_pay5 s0 x1) colIota (k0_pay6 i x2) s3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg8.eq_unread hg0; obtain rfl := harg9.eq_unread hg1; obtain rfl := harg10.eq_unread hg2; obtain rfl := harg11.eq_unread hg3
  sl_exec (disch := first | exact h1 | exact h2 | exact h3 | exact h4)
  sl_step
  iapply Hk
  try sl_unfold_run_names
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact View.read_writes_cons_unitZero _ _ zero3 _ _ _
  isplitl [H4]
  · iexists _; isplitr
    swap; · iexact H4
    ipureintro; exact View.read_writes_cons_unitZero _ _ zero3 _ _ _
  isplitl [H5]
  · iexists _; isplitr
    swap; · iexact H5
    ipureintro; exact View.read_writes_cons_unitZero _ _ zero3 _ _ _
  isplitl [S0]
  · iexists _; isplitr
    swap; · iexact S0
    ipureintro; exact hg0
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.Kernel.Body

end
-- ==== Proof.BData.lean ====
import proofs.«404700_j7164005449845_3_alg».proof.Proof.BRunFirst
import proofs.«404700_j7164005449845_3_alg».proof.Proof.BRunMid
import proofs.«404700_j7164005449845_3_alg».proof.Proof.BRunOut
import proofs.«404700_j7164005449845_3_alg».proof.Proof.BRunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body is handed, at their literal types -/

/-- The rows `x`: window 0's block is the whole 256 × 2048 array at every point. -/
abbrev xblk (c : Dev nD) (t : Fin cfg0.N) : Vec F S256x2048 .f32 := iblk m c 0 t
/-- The targets, as a 256 × 1 column: window 2's block at every point. -/
abbrev tblk (c : Dev nD) (t : Fin cfg0.N) : Vec F S256x1 .i32 := iblk m c 2 t
/-- Tile `t` of the table as its staging buffer holds it after the fetch: the tile's columns inside the table,
    and `d` on the columns past the table's end (tile 71 only; elsewhere the fetch fills the whole buffer). -/
abbrev fblk (c : Dev nD) (t : Fin cfg0.N) (d : Vec F S2048x1408 .f32) : Vec F S2048x1408 .f32 :=
  win0_1.fill (grid0.coords t) d (iblk m c 1 t)
/-- A filler for the columns past the table's end, which nothing reads: zero. -/
def zfill : Vec F S2048x1408 .f32 := fun _ => Scalar.ofBits .f32 0#32
/-- The tile with that filler. -/
abbrev fblk0 (c : Dev nD) (t : Fin cfg0.N) : Vec F S2048x1408 .f32 := fblk m c t zfill

/-! ## The accumulators carried in scratch from point to point -/

/-- What the four scratch buffers hold: the normalised rows, and per row the running maximum, the running sum of
    exponentials and the picked target logit. -/
structure Acc (F : FTy → Type) [FloatOps F] where
  xs : Vec F S256x2048 .bf16
  ms : Vec F S256x1 .f32
  ls : Vec F S256x1 .f32
  ts : Vec F S256x1 .f32

/-- The reset at a core's first step. -/
def Acc.reset (x0 : Vec F S256x2048 .f32) : Acc F := ⟨k0_pay4 x0, k0_pay1, k0_pay2, k0_pay3⟩
/-- The unmasked update by a tile. -/
def Acc.fast (i : grid0.Coords) (x1 : Vec F S2048x1408 .f32) (x2 : Vec F S256x1 .i32) (a : Acc F) : Acc F :=
  ⟨a.xs, k0_pay10 a.xs x1 a.ms, k0_pay9 a.xs x1 a.ms a.ms a.ls, k0_pay7 i a.xs x1 x2 a.ts⟩
/-- The masked update by tile 71. -/
def Acc.masked (i : grid0.Coords) (x1 : Vec F S2048x1408 .f32) (x2 : Vec F S256x1 .i32) (a : Acc F) : Acc F :=
  ⟨a.xs, k0_pay11 (k0_pay18 (tileStart i) (k0_pay5 a.xs x1) colIota a.ms),
    k0_pay19 (tileStart i) (k0_pay5 a.xs x1) colIota a.ms a.ms a.ls,
    k0_pay17 (tileStart i) (k0_pay5 a.xs x1) colIota (k0_pay6 i x2) a.ts⟩

/-- One point of the grid: reset first at a core's first step, then the update by the point's tile. -/
def stepAt (c : Dev nD) (t : Fin cfg0.N) (a : Acc F) : Acc F :=
  let a' := if t.val % 36 = 0 then Acc.reset (xblk m c t) else a
  if t.val = 71 then a'.masked (grid0.coords t) (fblk0 m c t) (tblk m c t)
  else a'.fast (grid0.coords t) (fblk0 m c t) (tblk m c t)

/-- What the scratch holds before point `n` (after point `n - 1`); before point 0 nothing is known, and the value
    given here is never read: point 0 resets. -/
def accAt (c : Dev nD) : ℕ → Acc F
  | 0 => ⟨fun _ => Scalar.ofBits .bf16 0#16, fun _ => Scalar.ofBits .f32 0#32, fun _ => Scalar.ofBits .f32 0#32, fun _ => Scalar.ofBits .f32 0#32⟩
  | n + 1 => if h : n < cfg0.N then stepAt m c ⟨n, h⟩ (accAt c n) else accAt c n

theorem accAt_succ (c : Dev nD) (t : Fin cfg0.N) : accAt m c (t.val + 1) = stepAt m c t (accAt m c t.val) := by
  show (if h : t.val < cfg0.N then stepAt m c ⟨t.val, h⟩ (accAt m c t.val) else accAt m c t.val) = _
  rw [dif_pos t.isLt]

/-! ## The invariant and the proof data -/

abbrev scM0 : Memref sig .tc .vmem S256x2048 .bf16 := Memref.whole cc0_scratch0
abbrev scM1 : Memref sig .tc .vmem S256x1 .f32 := Memref.whole cc0_scratch1
abbrev scM2 : Memref sig .tc .vmem S256x1 .f32 := Memref.whole cc0_scratch2
abbrev scM3 : Memref sig .tc .vmem S256x1 .f32 := Memref.whole cc0_scratch3

/-- The class invariant with the four scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The scratch at the accumulators `a`, and the generator register at some state. -/
def PhiAcc (c : Dev nD) (a : Acc F) : sProp 𝕄 :=
  iprop(iprop(owns (c : Thread nD τ) scM0 fullShare a.xs ∗ owns (c : Thread nD τ) scM1 fullShare a.ms
    ∗ owns (c : Thread nD τ) scM2 fullShare a.ls ∗ owns (c : Thread nD τ) scM3 fullShare a.ts) ∗ (∃ r, prngReg c r))

/-- Before point 0 the scratch holds anything; before a later point, the accumulators; after the last point (tile 71,
    whose staging buffer holds unnamed words past the table's end, so that what the masked update stores is not named
    here) it again holds anything. -/
def PhiAt (c : Dev nD) (n : ℕ) : sProp 𝕄 :=
  if n = 0 ∨ n = 72 then Pipeline.ΦA spec0 c else PhiAcc c (accAt m c n)

theorem PhiAt_zero (c : Dev nD) : PhiAt m c 0 = Pipeline.ΦA spec0 c := by
  unfold PhiAt; rw [if_pos (Or.inl rfl)]

theorem PhiAt_last (c : Dev nD) : PhiAt m c 72 = Pipeline.ΦA spec0 c := by
  unfold PhiAt; rw [if_pos (Or.inr rfl)]

theorem PhiAt_mid (c : Dev nD) (n : ℕ) (hn : n ≠ 0) (hn' : n ≠ 72) : PhiAt m c n = PhiAcc c (accAt m c n) := by
  unfold PhiAt; rw [if_neg (by rintro (h | h); exacts [hn h, hn' h])]

/-- The output windows, whose contents this frame does not name: the claim reads none of their arrays. -/
def forgets : Fin 6 → Bool := fun w => decide (3 ≤ w.val)

/-- The proof data of the pipeline on core `c`: the arrays as the call finds them; after the body the inputs'
    buffers at their blocks, the outputs' not named; the invariant `PhiAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fblk0 m c t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = fblk0 m c t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = xblk m c t :=
  before0_0_of m (dats m 0 c) (A_eq m c 0) (after_0 m c) t d
theorem before_2 (c : Dev nD) (t : Fin cfg0.N) (d) : (dats m 0 c).before 2 t d = tblk m c t :=
  before0_2_of m (dats m 0 c) (A_eq m c 2) (after_2 m c) t d
/-- The tile's buffer is fetched at every point: the tile inside the table, `d` past its end. -/
theorem before_1 (c : Dev nD) (t : Fin cfg0.N) (d) : (dats m 0 c).before 1 t d = fblk m c t d := by
  unfold Dat.before; rw [if_pos (fetch0_1 t)]
  unfold Dat.fetched Dat.blockOf; rw [A_eq]; rfl

end Cert.Kernel.Body

end
-- ==== Proof.BFrame.lean ====
import proofs.«404700_j7164005449845_3_alg».proof.Proof.BData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every tile but the last lies inside the table: the fetch fills its whole buffer. -/
theorem xsize_uncut : ∀ t : Fin cfg0.N, t.val ≠ 71 → ∀ a, win0_1.xsize (grid0.coords t) a = win0_1.size a :=
  (by decide +kernel : ∀ t : Fin grid0.N, t.val ≠ 71 → ∀ a, win0_1.xsize (grid0.coords t) a = win0_1.size a)

theorem fblk_uncut (c : Dev nD) (t : Fin cfg0.N) (ht : t.val ≠ 71) (d : Vec F S2048x1408 .f32) :
    fblk m c t d = fblk0 m c t := by
  funext j
  have hm : win0_1.moved (grid0.coords t) j = true :=
    (win0_1.moved_iff _ j).mpr fun a => by rw [xsize_uncut t ht a]; exact (j a).isLt
  show win0_1.fill _ d _ j = win0_1.fill _ zfill _ j
  unfold Window.fill; rw [dif_pos hm, dif_pos hm]

/-! ## What the body obligation asks of each input window's buffer after the body -/

theorem leaves_0 (c : Dev nD) (t : Fin cfg0.N) :
    (dats m 0 c).leaves 0 t = owns (c : Thread nD τ) (st0_0 t) fullShare (xblk m c t) := by
  unfold Dat.leaves; rw [after_0]
theorem leaves_2 (c : Dev nD) (t : Fin cfg0.N) :
    (dats m 0 c).leaves 2 t = owns (c : Thread nD τ) (st0_2 t) fullShare (tblk m c t) := by
  unfold Dat.leaves; rw [after_2]
theorem leaves_1 (c : Dev nD) (t : Fin cfg0.N) :
    (dats m 0 c).leaves 1 t = iprop(∃ d, owns (c : Thread nD τ) (st0_1 t) fullShare (fblk m c t d)) := by
  unfold Dat.leaves; rw [after_1]
  show iprop(∃ d, owns (c : Thread nD τ) (st0_1 t) fullShare (win0_1.fill (grid0.coords t) d (win0_1.cut (grid0.coords t) (fblk0 m c t)))) = _
  rw [show win0_1.cut (grid0.coords t) (fblk0 m c t) = iblk m c 1 t from win0_1.cut_fill _ _ _]
  rfl

/-! ## The body at a point -/

/-- What the body is handed at point `t`: the invariant, what the core owes, the three inputs' buffers at their
    blocks and the three outputs' buffers at any contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X))

/-- What it hands back: the inputs' buffers as they were, the outputs' at any contents. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (∃ X, owns (c : Thread nD τ) (st0_3 t) fullShare X)
    ∗ (∃ X, owns (c : Thread nD τ) (st0_4 t) fullShare X)
    ∗ (∃ X, owns (c : Thread nD τ) (st0_5 t) fullShare X))

theorem Phi_castSucc (c : Dev nD) (t : Fin cfg0.N) : (dats m 0 c).Φ t.castSucc = PhiAt m c t.val := by
  dsimp only [dats]; simp only [Fin.coe_castSucc]
theorem Phi_succ (c : Dev nD) (t : Fin cfg0.N) : (dats m 0 c).Φ t.succ = PhiAt m c (t.val + 1) := by
  dsimp only [dats]; simp only [Fin.val_succ]

/-- The accumulators at some point weaken to the scratch at any contents. -/
theorem PhiAcc_forget (c : Dev nD) (a : Acc F) : PhiAcc c a ⊢ (Pipeline.ΦA spec0 c : sProp 𝕄) := by
  rw [PhiA_eq]; unfold PhiAcc
  iintro ⟨⟨A0, A1, A2, A3⟩, Hg⟩
  isplitr [Hg]
  · isplitl [A0]; · iexists _; iexact A0
    isplitl [A1]; · iexists _; iexact A1
    isplitl [A2]; · iexists _; iexact A2
    iexists _; iexact A3
  iexact Hg

/-- Before any point the invariant gives the scratch at some contents. -/
theorem PhiAt_forget (c : Dev nD) (n : ℕ) : PhiAt m c n ⊢ (Pipeline.ΦA spec0 c : sProp 𝕄) := by
  unfold PhiAt; split
  · exact Idealize.SL.BI.Entails.refl _
  · exact PhiAcc_forget c _

/-- Before any point the invariant gives the four scratch buffers, each at some contents, and the generator register. -/
theorem PhiAt_open (c : Dev nD) (n : ℕ) :
    PhiAt m c n ⊢ iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) :=
  (PhiAt_forget m c n).trans (by rw [PhiA_eq])

set_option maxHeartbeats 4000000 in
/-- The body at any point of the grid: by the point's place in its core's sweep one of the four runs applies. The
    outputs' buffers are handed over and taken back at any contents; at tile 71 the tile's buffer is taken as it
    is, unnamed words past the table's end included, and what the masked update leaves in the scratch is not named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl, Phi_castSucc, Phi_succ]
  have hN : t.val < 72 := lt_of_lt_of_eq t.isLt (show cfg0.N = 72 from N_0)
  by_cases hF : t.val % 36 = 0
  · -- a core's first step
    have hL : t.val ≠ 71 := by omega
    have hO : t.val % 36 ≠ 35 := by omega
    rw [PhiAt_mid m c (t.val + 1) (by omega) (by omega), accAt_succ]
    have hs : stepAt m c t (accAt m c t.val) = (Acc.reset (xblk m c t)).fast (grid0.coords t) (fblk0 m c t) (tblk m c t) := by
      unfold stepAt; simp only [hF, hL, ↓reduceIte]
    rw [hs]; unfold PhiAcc Acc.fast Acc.reset; dsimp only
    iintro ⟨HΦ, Ho, ⟨%d0, H0⟩, ⟨%d1, H1⟩, ⟨%d2, H2⟩, ⟨%X3, H3⟩, ⟨%X4, H4⟩, ⟨%X5, H5⟩⟩
    rw [fblk_uncut m c t hL d1]
    ihave HΦ' := (PhiAt_open m c t.val) $$ HΦ
    icases HΦ' with ⟨⟨A0, A1, A2, A3⟩, Hg⟩
    iapply (runFirst c (grid0.coords t) _ _ _ _ _ _ _ _ _ _ _ _ _ _ _ _ _ _ _ _ ((hFirst t).mpr hF) ((hNotLast t).mpr hL) (fun h => hL ((hLast t).mp h)) (fun h => hO ((hOut t).mp h))
      (xblk m c t) (fblk0 m c t) (tblk m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [A0]; · iexact A0
    isplitl [A1]; · iexact A1
    isplitl [A2]; · iexact A2
    isplitl [A3]; · iexact A3
    iintro ⟨H0, H1, H2, H3, H4, H5, A0, A1, A2, A3⟩
    isplitl [A0 A1 A2 A3 Hg]
    · isplitr [Hg]
      · isplitl [A0]; · iexact A0
        isplitl [A1]; · iexact A1
        isplitl [A2]; · iexact A2
        iexact A3
      iexact Hg
    isplitl [Ho]; · iexact Ho
    isplitl [H0]; · iexact H0
    isplitl [H1]; · iexists _; iexact H1
    isplitl [H2]; · iexact H2
    isplitl [H3]; · iexists _; iexact H3
    isplitl [H4]; · iexists _; iexact H4
    iexists _; iexact H5
  · have hz : t.val ≠ 0 := fun h => hF (by rw [h])
    rw [PhiAt_mid m c t.val hz (by omega)]
    by_cases hL : t.val = 71
    · -- tile 71: the masked update and the write-out; what they store is not named
      have hO : t.val % 36 = 35 := by omega
      rw [show t.val + 1 = 72 from by omega, PhiAt_last, PhiA_eq]
      unfold PhiAcc
      iintro ⟨HΦ, Ho, ⟨%d0, H0⟩, ⟨%d1, H1⟩, ⟨%d2, H2⟩, ⟨%X3, H3⟩, ⟨%X4, H4⟩, ⟨%X5, H5⟩⟩
      icases HΦ with ⟨⟨A0, A1, A2, A3⟩, Hg⟩
      iapply (runLast c (grid0.coords t) _ _ _ _ _ _ _ _ _ _ _ _ _ _ _ _ _ _ _ _ (fun h => hF ((hFirst t).mp h)) (fun h => (hNotLast t).mp h hL) ((hLast t).mpr hL) ((hOut t).mpr hO)
        (xblk m c t) (fblk m c t d1) (tblk m c t) _ _ _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [A0]; · iexact A0
      isplitl [A1]; · iexact A1
      isplitl [A2]; · iexact A2
      isplitl [A3]; · iexact A3
      iintro ⟨H0, H1, H2, H3, H4, H5, A0, A1, A2, A3⟩
      isplitl [A0 A1 A2 A3 Hg]
      · isplitr [Hg]
        · isplitl [A0]; · iexists _; iexact A0
          isplitl [A1]; · iexists _; iexact A1
          isplitl [A2]; · iexists _; iexact A2
          iexists _; iexact A3
        iexact Hg
      isplitl [Ho]; · iexact Ho
      isplitl [H0]; · iexact H0
      isplitl [H1]; · iexists _; iexact H1
      isplitl [H2]; · iexact H2
      isplitl [H3]; · iexists _; iexact H3
      isplitl [H4]; · iexists _; iexact H4
      iexists _; iexact H5
    · rw [PhiAt_mid m c (t.val + 1) (by omega) (by omega), accAt_succ]
      have hs : stepAt m c t (accAt m c t.val) = (accAt m c t.val).fast (grid0.coords t) (fblk0 m c t) (tblk m c t) := by
        unfold stepAt; simp only [hF, hL, ↓reduceIte]
      rw [hs]; unfold PhiAcc Acc.fast; dsimp only
      iintro ⟨HΦ, Ho, ⟨%d0, H0⟩, ⟨%d1, H1⟩, ⟨%d2, H2⟩, ⟨%X3, H3⟩, ⟨%X4, H4⟩, ⟨%X5, H5⟩⟩
      rw [fblk_uncut m c t hL d1]
      icases HΦ with ⟨⟨A0, A1, A2, A3⟩, Hg⟩
      by_cases hO : t.val % 36 = 35
      · -- a core's last step, not tile 71: the unmasked update and the write-out
        iapply (runOut c (grid0.coords t) _ _ _ _ _ _ _ _ _ _ _ _ _ _ _ _ _ _ _ _ (fun h => hF ((hFirst t).mp h)) ((hNotLast t).mpr hL) (fun h => hL ((hLast t).mp h)) ((hOut t).mpr hO)
          (xblk m c t) (fblk0 m c t) (tblk m c t) _ _ _ _ Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [A0]; · iexact A0
        isplitl [A1]; · iexact A1
        isplitl [A2]; · iexact A2
        isplitl [A3]; · iexact A3
        iintro ⟨H0, H1, H2, H3, H4, H5, A0, A1, A2, A3⟩
        isplitl [A0 A1 A2 A3 Hg]
        · isplitr [Hg]
          · isplitl [A0]; · iexact A0
            isplitl [A1]; · iexact A1
            isplitl [A2]; · iexact A2
            iexact A3
          iexact Hg
        isplitl [Ho]; · iexact Ho
        isplitl [H0]; · iexact H0
        isplitl [H1]; · iexists _; iexact H1
        isplitl [H2]; · iexact H2
        isplitl [H3]; · iexists _; iexact H3
        isplitl [H4]; · iexists _; iexact H4
        iexists _; iexact H5
      · -- a middle step
        iapply (runMid c (grid0.coords t) _ _ _ _ _ _ _ _ _ _ _ _ _ _ _ _ _ _ _ _ (fun h => hF ((hFirst t).mp h)) ((hNotLast t).mpr hL) (fun h => hL ((hLast t).mp h)) (fun h => hO ((hOut t).mp h))
          (xblk m c t) (fblk0 m c t) (tblk m c t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [A0]; · iexact A0
        isplitl [A1]; · iexact A1
        isplitl [A2]; · iexact A2
        isplitl [A3]; · iexact A3
        iintro ⟨H0, H1, H2, H3, H4, H5, A0, A1, A2, A3⟩
        isplitl [A0 A1 A2 A3 Hg]
        · isplitr [Hg]
          · isplitl [A0]; · iexact A0
            isplitl [A1]; · iexact A1
            isplitl [A2]; · iexact A2
            iexact A3
          iexact Hg
        isplitl [Ho]; · iexact Ho
        isplitl [H0]; · iexact H0
        isplitl [H1]; · iexists _; iexact H1
        isplitl [H2]; · iexact H2
        isplitl [H3]; · iexists _; iexact H3
        isplitl [H4]; · iexists _; iexact H4
        iexists _; iexact H5

/-- The library's body obligation, at every point, the three output windows forgotten. -/
theorem body_obligation (c : Dev nD) :
    BodyObligationLoose (dats (F := F) m 0 c) (defs₀ (F := F)) Variants.none () Set.univ forgets := fun t => by
  rw [bigSep_W0, bigSep_W0]
  exact sound_body m c t

/-- What the launch hands the region is the invariant before the first point, -/
theorem hin (c : Dev nD) : Pipeline.ΦA spec0 c ⊢ (dats m 0 c).Φ 0 := by
  show Pipeline.ΦA spec0 c ⊢ PhiAt m c 0
  rw [PhiAt_zero]

/-- and after the last point the invariant is what the launch takes back. -/
theorem hout (c : Dev nD) : (dats m 0 c).Φ (Fin.last cfg0.N) ⊢ Pipeline.ΦA spec0 c := by
  show PhiAt m c (Fin.last cfg0.N).val ⊢ _
  exact PhiAt_forget m c _

/-! ## The launch -/

/-- Every buffer but the two argument arrays the call does not stage: the host lines after the call write only
    buffers among these. -/
def T : Finset (Ref sig .tc) := Finset.univ.filter fun b => b ≠ main_arg1 ∧ b ≠ main_arg2

theorem mem_T (b : Ref sig .tc) : b ∈ T ↔ b ≠ main_arg1 ∧ b ≠ main_arg2 := by
  unfold T; simp only [Finset.mem_filter, Finset.mem_univ, true_and]

set_option maxHeartbeats 800000 in
/-- No host line after the call writes `main_arg1` or `main_arg2` (each writes only its own result buffer). -/
theorem hT : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    rw [mem_T]
    constructor <;> rintro rfl <;> revert hb <;>
      simp only [StableHlo.nullary_writes, StableHlo.unary_writes, StableHlo.binary_writes, StableHlo.ternary_writes, StableHlo.quaternary_writes, StableHlo.reshape_writes, StableHlo.binaryIndexed_writes, Finset.mem_singleton] <;>
      exact StableHlo.devRef_ne_of_ne (by decide)

-- the launch theorem's implicit arguments are found by unifying its conclusion with this one, which takes unfolding plain
-- definitions in a metavariable's type
set_option backward.isDefEq.respectTransparency.types false in
/-- Every weakly fair execution of @main terminates, and every final state has each input array of the call at its
    contents at the call's entry, nothing said of the outputs' arrays, and every other unscoped buffer that the host
    lines after the call do not write at its contents at the call's entry. -/
theorem run_main :
    θ_run defs (onTc (τ := τ) (main (F := F))) (s₀ m ρ)
      (Pipeline.RDat.FramePostR (cfgs 0) (fun c => (dats m 0 c).toRForget forgets) T (V m)) :=
  Pipeline.RDat.θ_run_frame_around_T_track cfgs (0 : Fin 1) launch0 defs₀ Variants.none
    (fun c => (dats m 0 c).toRForget forgets) T m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := hT) (hmain := hmain m Variants.none) (hA := A_eq m) (hin := hin m) (hout := hout m)

theorem arg1_rest : main_arg1 ∈ Pipeline.restRefs sig spec0 \ T :=
  Finset.mem_sdiff.mpr ⟨Pipeline.mem_restRefs_of main_arg1 (by decide) (by decide), fun h => ((mem_T _).mp h).1 rfl⟩
theorem arg2_rest : main_arg2 ∈ Pipeline.restRefs sig spec0 \ T :=
  Finset.mem_sdiff.mpr ⟨Pipeline.mem_restRefs_of main_arg2 (by decide) (by decide), fun h => ((mem_T _).mp h).2 rfl⟩

/-- What the launch's post says of a buffer no window stages and no host line after the call writes (read at a
    variable configuration). -/
theorem FramePostR_rest {cfg₁ : Pipeline.Cfg sig Λ₀} {rdat : (c : Dev nD) → Pipeline.RDat τ (Elt F) Unit ℕ (UR sig nD τ) ℕ cfg₁ c}
    {R : Finset (Ref sig .tc)} {V' : (c : Dev nD) → (b : Ref sig .tc) → Buf (Elt F) ((c.tc : Thread nD τ).loc b)} {r : PUnit × MemSt nD τ sig (Elt F)}
    (h : Pipeline.RDat.FramePostR cfg₁ rdat R V' r) (c : Dev nD) (b : Ref sig .tc) (hb : b ∈ Pipeline.restRefs sig cfg₁.spec \ R) :
    r.2.mem ((c.tc : Thread nD τ).loc b) = V' c b := (h c).2 b hb

/-- The frame claim's post from the launch's, for any relational proof data whose arrays are the contents at the
    call's entry: `main_arg0` and `main_arg3` are the arrays of input windows 0 and 1, which no transfer writes;
    `main_arg1` and `main_arg2` are staged by no window and written by no host line. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePostR.arr_in h c 0 rfl).trans ((hA c 0).trans (V_main_arg0 m c)),
      (FramePostR_rest h c main_arg1 arg1_rest).trans (V_main_arg1 m c),
      (FramePostR_rest h c main_arg2 arg2_rest).trans (V_main_arg2 m c),
      (Pipeline.RDat.FramePostR.arr_in h c 1 rfl).trans ((hA c 1).trans (V_main_arg3 m c))⟩) h

/-- The frame: every weakly fair execution of @main terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets) (A_eq m) (run_main m ρ)

end Cert.Kernel.Body

end
-- ==== Proof.KConds.lean ====
import proofs.«404700_j7164005449845_3_alg».proof.Proof.Gen.KernelIdeal.Frame
import proofs.«404700_j7164005449845_3_alg».proof.Proof.Gen.KernelIdeal.Skeleton
import proofs.«404700_j7164005449845_3_alg».proof.Proof.LibWholeBuffer

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-! The four branch conditions of the kernel body, as it computes them from the grid point `(core, step)`, and
    where over the 2 × 36 grid each holds: the reset at a core's first step, the unmasked update at every tile but
    the globally last (tile 71), the masked update at that tile, the write-out at a core's last step. -/

/-- `step = 0`: the accumulators are reset and the normalised rows stored. -/
abbrev cFirst (i : grid0.Coords) : Prop :=
  Scalar.cmpi .ne (Scalar.extui (Scalar.cmpi .eq (BitVec.ofNat 32 (i 1).val) 0#32)) 0#32 = 1#1
/-- `36 * core + step ≠ 71`: the unmasked update. -/
abbrev cNotLast (i : grid0.Coords) : Prop :=
  Scalar.cmpi .ne (Scalar.extui (Scalar.xori (Scalar.cmpi .eq (Scalar.addi (Scalar.muli (BitVec.ofNat 32 (i 0).val) 36#32) (BitVec.ofNat 32 (i 1).val)) 71#32) 1#1)) 0#32 = 1#1
/-- `36 * core + step = 71`: the masked update. -/
abbrev cLast (i : grid0.Coords) : Prop :=
  Scalar.cmpi .ne (Scalar.extui (Scalar.cmpi .eq (Scalar.addi (Scalar.muli (BitVec.ofNat 32 (i 0).val) 36#32) (BitVec.ofNat 32 (i 1).val)) 71#32)) 0#32 = 1#1
/-- `step = 35`: the accumulators are written to the outputs' blocks. -/
abbrev cOut (i : grid0.Coords) : Prop := k0_cond4 i = 1#1

theorem hFirst : ∀ t : Fin cfg0.N, cFirst (grid0.coords t) ↔ t.val % 36 = 0 :=
  (by decide +kernel : ∀ t : Fin grid0.N, cFirst (grid0.coords t) ↔ t.val % 36 = 0)
theorem hNotLast : ∀ t : Fin cfg0.N, cNotLast (grid0.coords t) ↔ t.val ≠ 71 :=
  (by decide +kernel : ∀ t : Fin grid0.N, cNotLast (grid0.coords t) ↔ t.val ≠ 71)
theorem hLast : ∀ t : Fin cfg0.N, cLast (grid0.coords t) ↔ t.val = 71 :=
  (by decide +kernel : ∀ t : Fin grid0.N, cLast (grid0.coords t) ↔ t.val = 71)
theorem hOut : ∀ t : Fin cfg0.N, cOut (grid0.coords t) ↔ t.val % 36 = 35 :=
  (by decide +kernel : ∀ t : Fin grid0.N, cOut (grid0.coords t) ↔ t.val % 36 = 35)

/-- The first column of the point's tile, as the body computes it: `(36 * core + step) * 1408`. -/
abbrev tileStart (i : grid0.Coords) : BitVec 32 :=
  Scalar.muli (Scalar.addi (Scalar.muli (BitVec.ofNat 32 (i 0).val) 36#32) (BitVec.ofNat 32 (i 1).val)) 1408#32
/-- The column number inside the tile, at every entry of a 256 × 1408 block. -/
abbrev colIota : IVec S256x1408 32 := iota .tc S256x1408 32 [1] iota_S256x1408_d1_w32

theorem zero2 : (![0, 0] : Fin 2 → Nat) = fun _ => 0 := funext fun a => by fin_cases a <;> rfl
theorem zero3 : (![0, 0, 0] : Fin 3 → Nat) = fun _ => 0 := funext fun a => by fin_cases a <;> rfl

end Cert.KernelIdeal.Body

end
-- ==== Proof.KRunFirst.lean ====
import proofs.«404700_j7164005449845_3_alg».proof.Proof.KConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A core's first step: the accumulators are reset, the rows normalised and stored, then the tile's logits
    enter the fresh accumulators; the outputs' blocks are handed back as found. -/
theorem runFirst (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : cFirst i) (h2 : cNotLast i) (h3 : ¬cLast i) (h4 : ¬cOut i)
    (x0 : Vec F S256x2048 .f32) (x1 : Vec F S2048x1408 .f32) (x2 : Vec F S256x1 .i32)
    (o3 o4 o5 : Vec F S1x256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4 ∗ owns (c : Thread nD τ) arg7 fullShare o5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4 ∗ owns (c : Thread nD τ) arg7 fullShare o5
            ∗ owns (c : Thread nD τ) arg8 fullShare (k0_pay4 x0) ∗ owns (c : Thread nD τ) arg9 fullShare (k0_pay10 (k0_pay4 x0) x1 k0_pay1)
            ∗ owns (c : Thread nD τ) arg10 fullShare (k0_pay9 (k0_pay4 x0) x1 k0_pay1 k0_pay1 k0_pay2) ∗ owns (c : Thread nD τ) arg11 fullShare (k0_pay7 i (k0_pay4 x0) x1 x2 k0_pay3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e0, %g0, -, S0⟩, ⟨%e1, %g1, -, S1⟩, ⟨%e2, %g2, -, S2⟩, ⟨%e3, %g3, -, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact h1 | exact h2 | exact h3 | exact h4)
  sl_step
  iapply Hk
  try sl_unfold_run_names
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [S0]
  · iexists _; isplitr
    swap; · iexact S0
    ipureintro; exact View.read_writes_cons_unitZero _ _ zero2 _ _ _
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.KernelIdeal.Body

end
-- ==== Proof.KRunMid.lean ====
import proofs.«404700_j7164005449845_3_alg».proof.Proof.KConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- A middle step (not a core's first, not its last, not tile 71): the three accumulators are updated from the
    tile's logits, everything else is handed back as found. -/
theorem runMid (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : ¬cFirst i) (h2 : cNotLast i) (h3 : ¬cLast i) (h4 : ¬cOut i)
    (x0 : Vec F S256x2048 .f32) (x1 : Vec F S2048x1408 .f32) (x2 : Vec F S256x1 .i32)
    (o3 o4 o5 : Vec F S1x256x1 .f32)
    (s0 : Vec F S256x2048 .bf16) (s1 s2 s3 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o3 ∗ owns (c : Thread nD τ) arg6 fullShare o4 ∗ owns (c : Thread nD τ) arg7 fullShare o5
        ∗ owns (c : Thread nD τ) arg8 fullShare s0 ∗ owns (c : Thread nD τ) arg9 fullShare s1 ∗ owns (c : Thread nD τ) arg10 fullShare s2 ∗ owns (c : Thread nD τ) arg11 fullShare s3
        ∗ (iprop(owns (c : Thread nD τ) arg2 fullShare x0 ∗ owns (c : Thread nD τ) arg3 fullShare x1 ∗ owns (c : Thread nD τ) arg4 fullShare x2
            ∗ owns (c : Thread nD τ) arg5 fullShare o3 ∗ owns (c : Thread nD τ) arg6 fullShare o4 ∗ owns (c : Thread nD τ) arg7 fullShare o5
            ∗ owns (c : Thread nD τ) arg8 fullShare s0 ∗ owns (c : Thread nD τ) arg9 fullShare (k0_pay10 s0 x1 s1)
            ∗ owns (c : Thread nD τ) arg10 fullShare (k0_pay9 s0 x1 s1 s1 s2) ∗ owns (c : Thread nD τ) arg11 fullShare (k0_pay7 i s0 x1 x2 s3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hg0; obtain rfl := harg9.eq_unread hg1; obtain rfl := harg10.eq_unread hg2; obtain rfl := harg11.eq_unread hg3
  sl_exec (disch := first | exact h1 | exact h2 | exact h3 | exact h4)
  sl_step
  iapply Hk
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [S0]
  · iexists _; isplitr
    swap; · iexact S0
    ipureintro; exact hg0
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.KernelIdeal.Body

end
-- ==== Proof.KRunOut.lean ====
import proofs.«404700_j7164005449845_3_alg».proof.Proof.KConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- A core's last step when it is not tile 71: the unmasked update, then the three accumulators are copied to
    the outputs' blocks. -/
theorem runOut (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : ¬cFirst i) (h2 : cNotLast i) (h3 : ¬cLast i) (h4 : cOut i)
    (x0 : Vec F S256x2048 .f32) (x1 : Vec F S2048x1408 .f32) (x2 : Vec F S256x1 .i32)
    (s0 : Vec F S256x2048 .bf16) (s1 s2 s3 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2 ∗ owns (c : Thread nD τ) arg11 fullShare s3
        ∗ (iprop(owns (c : Thread nD τ) arg2 fullShare x0 ∗ owns (c : Thread nD τ) arg3 fullShare x1 ∗ owns (c : Thread nD τ) arg4 fullShare x2
            ∗ owns (c : Thread nD τ) arg5 fullShare (k0_pay12 (k0_pay10 s0 x1 s1)) ∗ owns (c : Thread nD τ) arg6 fullShare (k0_pay13 (k0_pay9 s0 x1 s1 s1 s2)) ∗ owns (c : Thread nD τ) arg7 fullShare (k0_pay14 (k0_pay7 i s0 x1 x2 s3))
            ∗ owns (c : Thread nD τ) arg8 fullShare s0 ∗ owns (c : Thread nD τ) arg9 fullShare (k0_pay10 s0 x1 s1)
            ∗ owns (c : Thread nD τ) arg10 fullShare (k0_pay9 s0 x1 s1 s1 s2) ∗ owns (c : Thread nD τ) arg11 fullShare (k0_pay7 i s0 x1 x2 s3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg8.eq_unread hg0; obtain rfl := harg9.eq_unread hg1; obtain rfl := harg10.eq_unread hg2; obtain rfl := harg11.eq_unread hg3
  sl_exec (disch := first | exact h1 | exact h2 | exact h3 | exact h4)
  sl_step
  iapply Hk
  try sl_unfold_run_names
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact View.read_writes_cons_unitZero _ _ zero3 _ _ _
  isplitl [H4]
  · iexists _; isplitr
    swap; · iexact H4
    ipureintro; exact View.read_writes_cons_unitZero _ _ zero3 _ _ _
  isplitl [H5]
  · iexists _; isplitr
    swap; · iexact H5
    ipureintro; exact View.read_writes_cons_unitZero _ _ zero3 _ _ _
  isplitl [S0]
  · iexists _; isplitr
    swap; · iexact S0
    ipureintro; exact hg0
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.KernelIdeal.Body

end
-- ==== Proof.KRunLast.lean ====
import proofs.«404700_j7164005449845_3_alg».proof.Proof.KConds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- Tile 71, the globally last (core 1's last step): the masked update — columns at or past 100000 replaced by
    a large negative constant in the maximum and the target pick, and by zero in the sum of exponentials —, then the
    three accumulators are copied to the outputs' blocks. -/
theorem runLast (c : Dev nD) (i : grid0.Coords)
    (arg2 : Memref sig .tc .vmem S256x2048 .f32) (harg2 : arg2.IsWhole) (arg3 : Memref sig .tc .vmem S2048x1408 .f32) (harg3 : arg3.IsWhole)
    (arg4 : Memref sig .tc .vmem S256x1 .i32) (harg4 : arg4.IsWhole) (arg5 : Memref sig .tc .vmem S1x256x1 .f32) (harg5 : arg5.IsWhole)
    (arg6 : Memref sig .tc .vmem S1x256x1 .f32) (harg6 : arg6.IsWhole) (arg7 : Memref sig .tc .vmem S1x256x1 .f32) (harg7 : arg7.IsWhole)
    (arg8 : Memref sig .tc .vmem S256x2048 .bf16) (harg8 : arg8.IsWhole) (arg9 : Memref sig .tc .vmem S256x1 .f32) (harg9 : arg9.IsWhole)
    (arg10 : Memref sig .tc .vmem S256x1 .f32) (harg10 : arg10.IsWhole) (arg11 : Memref sig .tc .vmem S256x1 .f32) (harg11 : arg11.IsWhole)
    (h1 : ¬cFirst i) (h2 : ¬cNotLast i) (h3 : cLast i) (h4 : cOut i)
    (x0 : Vec F S256x2048 .f32) (x1 : Vec F S2048x1408 .f32) (x2 : Vec F S256x1 .i32)
    (s0 : Vec F S256x2048 .bf16) (s1 s2 s3 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s0 ∗ owns (c : Thread nD τ) arg9 fullShare s1 ∗ owns (c : Thread nD τ) arg10 fullShare s2 ∗ owns (c : Thread nD τ) arg11 fullShare s3
        ∗ (iprop(owns (c : Thread nD τ) arg2 fullShare x0 ∗ owns (c : Thread nD τ) arg3 fullShare x1 ∗ owns (c : Thread nD τ) arg4 fullShare x2
            ∗ owns (c : Thread nD τ) arg5 fullShare (k0_pay12 (k0_pay11 (k0_pay18 (tileStart i) (k0_pay5 s0 x1) colIota s1))) ∗ owns (c : Thread nD τ) arg6 fullShare (k0_pay13 (k0_pay19 (tileStart i) (k0_pay5 s0 x1) colIota s1 s1 s2)) ∗ owns (c : Thread nD τ) arg7 fullShare (k0_pay14 (k0_pay17 (tileStart i) (k0_pay5 s0 x1) colIota (k0_pay6 i x2) s3))
            ∗ owns (c : Thread nD τ) arg8 fullShare s0 ∗ owns (c : Thread nD τ) arg9 fullShare (k0_pay11 (k0_pay18 (tileStart i) (k0_pay5 s0 x1) colIota s1))
            ∗ owns (c : Thread nD τ) arg10 fullShare (k0_pay19 (tileStart i) (k0_pay5 s0 x1) colIota s1 s1 s2) ∗ owns (c : Thread nD τ) arg11 fullShare (k0_pay17 (tileStart i) (k0_pay5 s0 x1) colIota (k0_pay6 i x2) s3)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, ⟨%g2, %hg2, S2⟩, ⟨%g3, %hg3, S3⟩, Hk⟩
  obtain rfl := harg2.eq_unread hf0; obtain rfl := harg3.eq_unread hf1; obtain rfl := harg4.eq_unread hf2
  obtain rfl := harg8.eq_unread hg0; obtain rfl := harg9.eq_unread hg1; obtain rfl := harg10.eq_unread hg2; obtain rfl := harg11.eq_unread hg3
  sl_exec (disch := first | exact h1 | exact h2 | exact h3 | exact h4)
  sl_step
  iapply Hk
  try sl_unfold_run_names
  simp only [View.readAt_eq_ld, Memref.IsWhole.read_unread, View.ld_unit_zero (S := S256x2048) zero2, View.ld_unit_zero (S := S2048x1408) zero2, View.ld_unit_zero (S := S256x1) zero2, View.ld_unit_zero (S := S1x256x1) zero3, View.readCov_cons_unitZero (S := S256x1) _ zero2, View.readCov_cons_unitZero (S := S256x2048) _ zero2]
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact View.read_writes_cons_unitZero _ _ zero3 _ _ _
  isplitl [H4]
  · iexists _; isplitr
    swap; · iexact H4
    ipureintro; exact View.read_writes_cons_unitZero _ _ zero3 _ _ _
  isplitl [H5]
  · iexists _; isplitr
    swap; · iexact H5
    ipureintro; exact View.read_writes_cons_unitZero _ _ zero3 _ _ _
  isplitl [S0]
  · iexists _; isplitr
    swap; · iexact S0
    ipureintro; exact hg0
  isplitl [S1]
  · iexists _; isplitr
    swap; · iexact S1
    ipureintro; exact View.read_writes_cons_unitZero _ _ zero2 _ _ _
  isplitl [S2]
  · iexists _; isplitr
    swap; · iexact S2
    ipureintro; exact View.read_writes_cons_unitZero _ _ zero2 _ _ _
  · iexists _; isplitr
    swap; · iexact S3
    ipureintro; exact View.read_writes_cons_unitZero _ _ zero2 _ _ _

end Cert.KernelIdeal.Body

end
-- ==== Proof.KData.lean ====
import proofs.«404700_j7164005449845_3_alg».proof.Proof.KRunFirst
import proofs.«404700_j7164005449845_3_alg».proof.Proof.KRunMid
import proofs.«404700_j7164005449845_3_alg».proof.Proof.KRunOut
import proofs.«404700_j7164005449845_3_alg».proof.Proof.KRunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks the body is handed, at their literal types -/

/-- The rows `x`: window 0's block is the whole 256 × 2048 array at every point. -/
abbrev xblk (c : Dev nD) (t : Fin cfg0.N) : Vec F S256x2048 .f32 := iblk m c 0 t
/-- The targets, as a 256 × 1 column: window 2's block at every point. -/
abbrev tblk (c : Dev nD) (t : Fin cfg0.N) : Vec F S256x1 .i32 := iblk m c 2 t
/-- Tile `t` of the table as its staging buffer holds it after the fetch: the tile's columns inside the table,
    and `d` on the columns past the table's end (tile 71 only; elsewhere the fetch fills the whole buffer). -/
abbrev fblk (c : Dev nD) (t : Fin cfg0.N) (d : Vec F S2048x1408 .f32) : Vec F S2048x1408 .f32 :=
  win0_1.fill (grid0.coords t) d (iblk m c 1 t)
/-- A filler for the columns past the table's end, which nothing reads: zero. -/
def zfill : Vec F S2048x1408 .f32 := fun _ => Scalar.ofBits .f32 0#32
/-- The tile with that filler. -/
abbrev fblk0 (c : Dev nD) (t : Fin cfg0.N) : Vec F S2048x1408 .f32 := fblk m c t zfill

/-! ## The accumulators carried in scratch from point to point -/

/-- What the four scratch buffers hold: the normalised rows, and per row the running maximum, the running sum of
    exponentials and the picked target logit. -/
structure Acc (F : FTy → Type) [FloatOps F] where
  xs : Vec F S256x2048 .bf16
  ms : Vec F S256x1 .f32
  ls : Vec F S256x1 .f32
  ts : Vec F S256x1 .f32

/-- The reset at a core's first step. -/
def Acc.reset (x0 : Vec F S256x2048 .f32) : Acc F := ⟨k0_pay4 x0, k0_pay1, k0_pay2, k0_pay3⟩
/-- The unmasked update by a tile. -/
def Acc.fast (i : grid0.Coords) (x1 : Vec F S2048x1408 .f32) (x2 : Vec F S256x1 .i32) (a : Acc F) : Acc F :=
  ⟨a.xs, k0_pay10 a.xs x1 a.ms, k0_pay9 a.xs x1 a.ms a.ms a.ls, k0_pay7 i a.xs x1 x2 a.ts⟩
/-- The masked update by tile 71. -/
def Acc.masked (i : grid0.Coords) (x1 : Vec F S2048x1408 .f32) (x2 : Vec F S256x1 .i32) (a : Acc F) : Acc F :=
  ⟨a.xs, k0_pay11 (k0_pay18 (tileStart i) (k0_pay5 a.xs x1) colIota a.ms),
    k0_pay19 (tileStart i) (k0_pay5 a.xs x1) colIota a.ms a.ms a.ls,
    k0_pay17 (tileStart i) (k0_pay5 a.xs x1) colIota (k0_pay6 i x2) a.ts⟩

/-- One point of the grid: reset first at a core's first step, then the update by the point's tile. -/
def stepAt (c : Dev nD) (t : Fin cfg0.N) (a : Acc F) : Acc F :=
  let a' := if t.val % 36 = 0 then Acc.reset (xblk m c t) else a
  if t.val = 71 then a'.masked (grid0.coords t) (fblk0 m c t) (tblk m c t)
  else a'.fast (grid0.coords t) (fblk0 m c t) (tblk m c t)

/-- What the scratch holds before point `n` (after point `n - 1`); before point 0 nothing is known, and the value
    given here is never read: point 0 resets. -/
def accAt (c : Dev nD) : ℕ → Acc F
  | 0 => ⟨fun _ => Scalar.ofBits .bf16 0#16, fun _ => Scalar.ofBits .f32 0#32, fun _ => Scalar.ofBits .f32 0#32, fun _ => Scalar.ofBits .f32 0#32⟩
  | n + 1 => if h : n < cfg0.N then stepAt m c ⟨n, h⟩ (accAt c n) else accAt c n

theorem accAt_succ (c : Dev nD) (t : Fin cfg0.N) : accAt m c (t.val + 1) = stepAt m c t (accAt m c t.val) := by
  show (if h : t.val < cfg0.N then stepAt m c ⟨t.val, h⟩ (accAt m c t.val) else accAt m c t.val) = _
  rw [dif_pos t.isLt]

/-! ## The invariant and the proof data -/

abbrev scM0 : Memref sig .tc .vmem S256x2048 .bf16 := Memref.whole cc0_scratch0
abbrev scM1 : Memref sig .tc .vmem S256x1 .f32 := Memref.whole cc0_scratch1
abbrev scM2 : Memref sig .tc .vmem S256x1 .f32 := Memref.whole cc0_scratch2
abbrev scM3 : Memref sig .tc .vmem S256x1 .f32 := Memref.whole cc0_scratch3

/-- The class invariant with the four scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The scratch at the accumulators `a`, and the generator register at some state. -/
def PhiAcc (c : Dev nD) (a : Acc F) : sProp 𝕄 :=
  iprop(iprop(owns (c : Thread nD τ) scM0 fullShare a.xs ∗ owns (c : Thread nD τ) scM1 fullShare a.ms
    ∗ owns (c : Thread nD τ) scM2 fullShare a.ls ∗ owns (c : Thread nD τ) scM3 fullShare a.ts) ∗ (∃ r, prngReg c r))

/-- Before point 0 the scratch holds anything; before a later point, the accumulators. -/
def PhiAt (c : Dev nD) : ℕ → sProp 𝕄
  | 0 => Pipeline.ΦA spec0 c
  | n + 1 => PhiAcc c (accAt m c (n + 1))

theorem PhiAt_pos (c : Dev nD) (n : ℕ) (hn : n ≠ 0) : PhiAt m c n = PhiAcc c (accAt m c n) := by
  cases n with
  | zero => exact absurd rfl hn
  | succ n => rfl

/-- The proof data of the pipeline on core `c`: the arrays as the call finds them; after the body the inputs'
    buffers at their blocks, the outputs' at the accumulators reshaped; the invariant `PhiAt`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fblk0 m c t
    | ⟨2, _⟩ => iblk m c 2 t
    | ⟨3, _⟩ => k0_pay12 (accAt m c (t.val + 1)).ms
    | ⟨4, _⟩ => k0_pay13 (accAt m c (t.val + 1)).ls
    | ⟨5, _⟩ => k0_pay14 (accAt m c (t.val + 1)).ts
  Φ t := PhiAt m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = fblk0 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay12 (accAt m c (t.val + 1)).ms := by dsimp only [dats]
theorem after_4 (c : Dev nD) (t : Fin cfg0.N) : (dats m 0 c).after 4 t = k0_pay13 (accAt m c (t.val + 1)).ls := by dsimp only [dats]
theorem after_5 (c : Dev nD) (t : Fin cfg0.N) : (dats m 0 c).after 5 t = k0_pay14 (accAt m c (t.val + 1)).ts := by dsimp only [dats]

theorem before_0 (c : Dev nD) (t : Fin cfg0.N) (d) : (dats m 0 c).before 0 t d = xblk m c t :=
  before0_0_of m (dats m 0 c) (A_eq m c 0) (after_0 m c) t d
theorem before_2 (c : Dev nD) (t : Fin cfg0.N) (d) : (dats m 0 c).before 2 t d = tblk m c t :=
  before0_2_of m (dats m 0 c) (A_eq m c 2) (after_2 m c) t d
/-- The tile's buffer is fetched at every point: the tile inside the table, `d` past its end. -/
theorem before_1 (c : Dev nD) (t : Fin cfg0.N) (d) : (dats m 0 c).before 1 t d = fblk m c t d := by
  unfold Dat.before; rw [if_pos (fetch0_1 t)]
  unfold Dat.fetched Dat.blockOf; rw [A_eq]; rfl

end Cert.KernelIdeal.Body

end
-- ==== Proof.KObl.lean ====
import proofs.«404700_j7164005449845_3_alg».proof.Proof.KData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The globally last point: core 1, step 35, tile 71. -/
def t71 : Fin cfg0.N := ⟨71, by decide⟩

/-- Every tile but the last lies inside the table: the fetch fills its whole buffer. -/
theorem xsize_uncut : ∀ t : Fin cfg0.N, t.val ≠ 71 → ∀ a, win0_1.xsize (grid0.coords t) a = win0_1.size a :=
  (by decide +kernel : ∀ t : Fin grid0.N, t.val ≠ 71 → ∀ a, win0_1.xsize (grid0.coords t) a = win0_1.size a)

theorem fblk_uncut (c : Dev nD) (t : Fin cfg0.N) (ht : t.val ≠ 71) (d : Vec F S2048x1408 .f32) :
    fblk m c t d = fblk0 m c t := by
  funext j
  have hm : win0_1.moved (grid0.coords t) j = true :=
    (win0_1.moved_iff _ j).mpr fun a => by rw [xsize_uncut t ht a]; exact (j a).isLt
  show win0_1.fill _ d _ j = win0_1.fill _ zfill _ j
  unfold Window.fill; rw [dif_pos hm, dif_pos hm]

/-- What the masked update stores does not depend on what the tile's buffer holds past the table's end. -/
def MaskedIgnoresFill : Prop :=
  ∀ (c : Dev nD) (t : Fin cfg0.N), t.val = 71 → ∀ (d : Vec F S2048x1408 .f32) (x2 : Vec F S256x1 .i32) (a : Acc F),
    Acc.masked (grid0.coords t) (fblk m c t d) x2 a = Acc.masked (grid0.coords t) (fblk0 m c t) x2 a

/-! ## Where the outputs' windows are idle -/

theorem idle_3 : ∀ t : Fin cfg0.N, t.val % 36 ≠ 35 → cfg0.idle 3 (grid0.coords t) = true :=
  (by decide +kernel : ∀ t : Fin grid0.N, t.val % 36 ≠ 35 → cfg0.idle 3 (grid0.coords t) = true)
theorem idle_4 : ∀ t : Fin cfg0.N, t.val % 36 ≠ 35 → cfg0.idle 4 (grid0.coords t) = true :=
  (by decide +kernel : ∀ t : Fin grid0.N, t.val % 36 ≠ 35 → cfg0.idle 4 (grid0.coords t) = true)
theorem idle_5 : ∀ t : Fin cfg0.N, t.val % 36 ≠ 35 → cfg0.idle 5 (grid0.coords t) = true :=
  (by decide +kernel : ∀ t : Fin grid0.N, t.val % 36 ≠ 35 → cfg0.idle 5 (grid0.coords t) = true)
theorem live_3 : ∀ t : Fin cfg0.N, t.val % 36 = 35 → cfg0.idle 3 (grid0.coords t) = false :=
  (by decide +kernel : ∀ t : Fin grid0.N, t.val % 36 = 35 → cfg0.idle 3 (grid0.coords t) = false)
theorem live_4 : ∀ t : Fin cfg0.N, t.val % 36 = 35 → cfg0.idle 4 (grid0.coords t) = false :=
  (by decide +kernel : ∀ t : Fin grid0.N, t.val % 36 = 35 → cfg0.idle 4 (grid0.coords t) = false)
theorem live_5 : ∀ t : Fin cfg0.N, t.val % 36 = 35 → cfg0.idle 5 (grid0.coords t) = false :=
  (by decide +kernel : ∀ t : Fin grid0.N, t.val % 36 = 35 → cfg0.idle 5 (grid0.coords t) = false)

theorem noflush_3 (t : Fin cfg0.N) (h : t.val % 36 ≠ 35) : (cfg0.win 3).flush t = false := by
  cases hf : (cfg0.win 3).flush t
  · rfl
  · exact absurd ((flush0_3 t).mp hf) h
theorem noflush_4 (t : Fin cfg0.N) (h : t.val % 36 ≠ 35) : (cfg0.win 4).flush t = false := by
  cases hf : (cfg0.win 4).flush t
  · rfl
  · exact absurd ((flush0_4 t).mp hf) h
theorem noflush_5 (t : Fin cfg0.N) (h : t.val % 36 ≠ 35) : (cfg0.win 5).flush t = false := by
  cases hf : (cfg0.win 5).flush t
  · rfl
  · exact absurd ((flush0_5 t).mp hf) h

/-! ## What the body obligation asks of each window's buffer after the body -/

theorem leaves_0 (c : Dev nD) (t : Fin cfg0.N) :
    (dats m 0 c).leaves 0 t = owns (c : Thread nD τ) (st0_0 t) fullShare (xblk m c t) := by
  unfold Dat.leaves; rw [after_0]
theorem leaves_2 (c : Dev nD) (t : Fin cfg0.N) :
    (dats m 0 c).leaves 2 t = owns (c : Thread nD τ) (st0_2 t) fullShare (tblk m c t) := by
  unfold Dat.leaves; rw [after_2]
theorem leaves_1 (c : Dev nD) (t : Fin cfg0.N) :
    (dats m 0 c).leaves 1 t = iprop(∃ d, owns (c : Thread nD τ) (st0_1 t) fullShare (fblk m c t d)) := by
  unfold Dat.leaves; rw [after_1]
  show iprop(∃ d, owns (c : Thread nD τ) (st0_1 t) fullShare (win0_1.fill (grid0.coords t) d (win0_1.cut (grid0.coords t) (fblk0 m c t)))) = _
  rw [show win0_1.cut (grid0.coords t) (fblk0 m c t) = iblk m c 1 t from win0_1.cut_fill _ _ _]
  rfl
theorem leaves_3_idle (c : Dev nD) (t : Fin cfg0.N) (h : t.val % 36 ≠ 35) :
    (dats m 0 c).leaves 3 t = iprop(∃ d, owns (c : Thread nD τ) (st0_3 t) fullShare ((dats m 0 c).before 3 t d)) :=
  Dat.leaves_idle (dats m 0 c) 3 t (idle_3 t h) (noflush_3 t h)
theorem leaves_4_idle (c : Dev nD) (t : Fin cfg0.N) (h : t.val % 36 ≠ 35) :
    (dats m 0 c).leaves 4 t = iprop(∃ d, owns (c : Thread nD τ) (st0_4 t) fullShare ((dats m 0 c).before 4 t d)) :=
  Dat.leaves_idle (dats m 0 c) 4 t (idle_4 t h) (noflush_4 t h)
theorem leaves_5_idle (c : Dev nD) (t : Fin cfg0.N) (h : t.val % 36 ≠ 35) :
    (dats m 0 c).leaves 5 t = iprop(∃ d, owns (c : Thread nD τ) (st0_5 t) fullShare ((dats m 0 c).before 5 t d)) :=
  Dat.leaves_idle (dats m 0 c) 5 t (idle_5 t h) (noflush_5 t h)
theorem leaves_3_live (c : Dev nD) (t : Fin cfg0.N) (h : t.val % 36 = 35) :
    (dats m 0 c).leaves 3 t = owns (c : Thread nD τ) (st0_3 t) fullShare (k0_pay12 (accAt m c (t.val + 1)).ms) := by
  unfold Dat.leaves; rw [live_3 t h, after_3]
theorem leaves_4_live (c : Dev nD) (t : Fin cfg0.N) (h : t.val % 36 = 35) :
    (dats m 0 c).leaves 4 t = owns (c : Thread nD τ) (st0_4 t) fullShare (k0_pay13 (accAt m c (t.val + 1)).ls) := by
  unfold Dat.leaves; rw [live_4 t h, after_4]
theorem leaves_5_live (c : Dev nD) (t : Fin cfg0.N) (h : t.val % 36 = 35) :
    (dats m 0 c).leaves 5 t = owns (c : Thread nD τ) (st0_5 t) fullShare (k0_pay14 (accAt m c (t.val + 1)).ts) := by
  unfold Dat.leaves; rw [live_5 t h, after_5]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

theorem Phi_castSucc (c : Dev nD) (t : Fin cfg0.N) : (dats m 0 c).Φ t.castSucc = PhiAt m c t.val := by
  dsimp only [dats]; simp only [Fin.coe_castSucc]
theorem Phi_succ (c : Dev nD) (t : Fin cfg0.N) : (dats m 0 c).Φ t.succ = PhiAcc c (stepAt m c t (accAt m c t.val)) := by
  rw [← accAt_succ]; rfl

set_option maxHeartbeats 4000000 in
/-- The body at any point of the grid: by the point's place in its core's sweep one of the four runs applies. -/
theorem sound_body (hI : MaskedIgnoresFill m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2]
  rw [show (dats m 0 c).owesAt () t.succ = (dats m 0 c).owesAt () t.castSucc from rfl, Phi_castSucc, Phi_succ]
  have hN : t.val < 72 := lt_of_lt_of_eq t.isLt (show cfg0.N = 72 from N_0)
  by_cases hF : t.val % 36 = 0
  · -- a core's first step
    have hL : t.val ≠ 71 := by omega
    have hO : t.val % 36 ≠ 35 := by omega
    rw [leaves_3_idle m c t hO, leaves_4_idle m c t hO, leaves_5_idle m c t hO]
    have hs : stepAt m c t (accAt m c t.val) = (Acc.reset (xblk m c t)).fast (grid0.coords t) (fblk0 m c t) (tblk m c t) := by
      unfold stepAt; simp only [hF, hL, ↓reduceIte]
    rw [hs]; unfold PhiAcc Acc.fast Acc.reset; dsimp only
    have hPhi : PhiAt m c t.val ⊢ iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
      by_cases hz : t.val = 0
      · rw [hz]; show Pipeline.ΦA spec0 c ⊢ _; rw [PhiA_eq]
      · rw [PhiAt_pos m c _ hz]; unfold PhiAcc
        iintro ⟨⟨A0, A1, A2, A3⟩, Hg⟩
        isplitr [Hg]
        · isplitl [A0]; · iexists _; iexact A0
          isplitl [A1]; · iexists _; iexact A1
          isplitl [A2]; · iexists _; iexact A2
          iexists _; iexact A3
        iexact Hg
    iintro ⟨HΦ, Ho, ⟨%d0, H0⟩, ⟨%d1, H1⟩, ⟨%d2, H2⟩, ⟨%d3, H3⟩, ⟨%d4, H4⟩, ⟨%d5, H5⟩⟩
    rw [fblk_uncut m c t hL d1]
    ihave HΦ' := hPhi $$ HΦ
    icases HΦ' with ⟨⟨A0, A1, A2, A3⟩, Hg⟩
    iapply (runFirst c (grid0.coords t) _ _ _ _ _ _ _ _ _ _ _ _ _ _ _ _ _ _ _ _ ((hFirst t).mpr hF) ((hNotLast t).mpr hL) (fun h => hL ((hLast t).mp h)) (fun h => hO ((hOut t).mp h))
      (xblk m c t) (fblk0 m c t) (tblk m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [A0]; · iexact A0
    isplitl [A1]; · iexact A1
    isplitl [A2]; · iexact A2
    isplitl [A3]; · iexact A3
    iintro ⟨H0, H1, H2, H3, H4, H5, A0, A1, A2, A3⟩
    isplitl [A0 A1 A2 A3 Hg]
    · isplitr [Hg]
      · isplitl [A0]; · iexact A0
        isplitl [A1]; · iexact A1
        isplitl [A2]; · iexact A2
        iexact A3
      iexact Hg
    isplitl [Ho]; · iexact Ho
    isplitl [H0]; · iexact H0
    isplitl [H1]; · iexists _; iexact H1
    isplitl [H2]; · iexact H2
    isplitl [H3]; · iexists _; iexact H3
    isplitl [H4]; · iexists _; iexact H4
    iexists _; iexact H5
  · have hz : t.val ≠ 0 := fun h => hF (by rw [h])
    rw [PhiAt_pos m c _ hz]
    by_cases hL : t.val = 71
    · -- tile 71: the masked update and the write-out
      have hO : t.val % 36 = 35 := by omega
      rw [leaves_3_live m c t hO, leaves_4_live m c t hO, leaves_5_live m c t hO, accAt_succ]
      have hs : stepAt m c t (accAt m c t.val) = (accAt m c t.val).masked (grid0.coords t) (fblk0 m c t) (tblk m c t) := by
        unfold stepAt; simp only [hF, ↓reduceIte, if_pos hL]
      rw [hs]
      iintro ⟨HΦ, Ho, ⟨%d0, H0⟩, ⟨%d1, H1⟩, ⟨%d2, H2⟩, ⟨%d3, H3⟩, ⟨%d4, H4⟩, ⟨%d5, H5⟩⟩
      rw [← hI c t hL d1 (tblk m c t) (accAt m c t.val)]
      unfold PhiAcc Acc.masked; dsimp only
      icases HΦ with ⟨⟨A0, A1, A2, A3⟩, Hg⟩
      iapply (runLast c (grid0.coords t) _ _ _ _ _ _ _ _ _ _ _ _ _ _ _ _ _ _ _ _ (fun h => hF ((hFirst t).mp h)) (fun h => (hNotLast t).mp h hL) ((hLast t).mpr hL) ((hOut t).mpr hO)
        (xblk m c t) (fblk m c t d1) (tblk m c t) _ _ _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [A0]; · iexact A0
      isplitl [A1]; · iexact A1
      isplitl [A2]; · iexact A2
      isplitl [A3]; · iexact A3
      iintro ⟨H0, H1, H2, H3, H4, H5, A0, A1, A2, A3⟩
      isplitl [A0 A1 A2 A3 Hg]
      · isplitr [Hg]
        · isplitl [A0]; · iexact A0
          isplitl [A1]; · iexact A1
          isplitl [A2]; · iexact A2
          iexact A3
        iexact Hg
      isplitl [Ho]; · iexact Ho
      isplitl [H0]; · iexact H0
      isplitl [H1]; · iexists _; iexact H1
      isplitl [H2]; · iexact H2
      isplitl [H3]; · iexact H3
      isplitl [H4]; · iexact H4
      iexact H5
    · by_cases hO : t.val % 36 = 35
      · -- a core's last step, not tile 71: the unmasked update and the write-out
        rw [leaves_3_live m c t hO, leaves_4_live m c t hO, leaves_5_live m c t hO, accAt_succ]
        have hs : stepAt m c t (accAt m c t.val) = (accAt m c t.val).fast (grid0.coords t) (fblk0 m c t) (tblk m c t) := by
          unfold stepAt; simp only [hF, hL, ↓reduceIte]
        rw [hs]; unfold PhiAcc Acc.fast; dsimp only
        iintro ⟨HΦ, Ho, ⟨%d0, H0⟩, ⟨%d1, H1⟩, ⟨%d2, H2⟩, ⟨%d3, H3⟩, ⟨%d4, H4⟩, ⟨%d5, H5⟩⟩
        rw [fblk_uncut m c t hL d1]
        icases HΦ with ⟨⟨A0, A1, A2, A3⟩, Hg⟩
        iapply (runOut c (grid0.coords t) _ _ _ _ _ _ _ _ _ _ _ _ _ _ _ _ _ _ _ _ (fun h => hF ((hFirst t).mp h)) ((hNotLast t).mpr hL) (fun h => hL ((hLast t).mp h)) ((hOut t).mpr hO)
          (xblk m c t) (fblk0 m c t) (tblk m c t) _ _ _ _ Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [A0]; · iexact A0
        isplitl [A1]; · iexact A1
        isplitl [A2]; · iexact A2
        isplitl [A3]; · iexact A3
        iintro ⟨H0, H1, H2, H3, H4, H5, A0, A1, A2, A3⟩
        isplitl [A0 A1 A2 A3 Hg]
        · isplitr [Hg]
          · isplitl [A0]; · iexact A0
            isplitl [A1]; · iexact A1
            isplitl [A2]; · iexact A2
            iexact A3
          iexact Hg
        isplitl [Ho]; · iexact Ho
        isplitl [H0]; · iexact H0
        isplitl [H1]; · iexists _; iexact H1
        isplitl [H2]; · iexact H2
        isplitl [H3]; · iexact H3
        isplitl [H4]; · iexact H4
        iexact H5
      · -- a middle step
        rw [leaves_3_idle m c t hO, leaves_4_idle m c t hO, leaves_5_idle m c t hO]
        have hs : stepAt m c t (accAt m c t.val) = (accAt m c t.val).fast (grid0.coords t) (fblk0 m c t) (tblk m c t) := by
          unfold stepAt; simp only [hF, hL, ↓reduceIte]
        rw [hs]; unfold PhiAcc Acc.fast; dsimp only
        iintro ⟨HΦ, Ho, ⟨%d0, H0⟩, ⟨%d1, H1⟩, ⟨%d2, H2⟩, ⟨%d3, H3⟩, ⟨%d4, H4⟩, ⟨%d5, H5⟩⟩
        rw [fblk_uncut m c t hL d1]
        icases HΦ with ⟨⟨A0, A1, A2, A3⟩, Hg⟩
        iapply (runMid c (grid0.coords t) _ _ _ _ _ _ _ _ _ _ _ _ _ _ _ _ _ _ _ _ (fun h => hF ((hFirst t).mp h)) ((hNotLast t).mpr hL) (fun h => hL ((hLast t).mp h)) (fun h => hO ((hOut t).mp h))
          (xblk m c t) (fblk0 m c t) (tblk m c t) _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [A0]; · iexact A0
        isplitl [A1]; · iexact A1
        isplitl [A2]; · iexact A2
        isplitl [A3]; · iexact A3
        iintro ⟨H0, H1, H2, H3, H4, H5, A0, A1, A2, A3⟩
        isplitl [A0 A1 A2 A3 Hg]
        · isplitr [Hg]
          · isplitl [A0]; · iexact A0
            isplitl [A1]; · iexact A1
            isplitl [A2]; · iexact A2
            iexact A3
          iexact Hg
        isplitl [Ho]; · iexact Ho
        isplitl [H0]; · iexact H0
        isplitl [H1]; · iexists _; iexact H1
        isplitl [H2]; · iexact H2
        isplitl [H3]; · iexists _; iexact H3
        isplitl [H4]; · iexists _; iexact H4
        iexists _; iexact H5

/-- The library's body obligation, at every point. -/
theorem body_obligation (hI : MaskedIgnoresFill m) (c : Dev nD) :
    BodyObligationLoose (dats (F := F) m 0 c) (defs₀ (F := F)) Variants.none () Set.univ := fun t => by
  rw [bigSep_W0, bigSep_W0]
  exact sound_body m hI c t

/-- What the launch hands the region is the invariant before the first point, -/
theorem hin (c : Dev nD) : Pipeline.ΦA spec0 c ⊢ (dats m 0 c).Φ 0 := by
  show Pipeline.ΦA spec0 c ⊢ PhiAt m c 0
  exact Idealize.SL.BI.Entails.refl _

/-- and after the last point the invariant gives it back, the accumulators forgotten. -/
theorem hout (c : Dev nD) : (dats m 0 c).Φ (Fin.last cfg0.N) ⊢ Pipeline.ΦA spec0 c := by
  show PhiAt m c (Fin.last cfg0.N).val ⊢ _
  rw [PhiAt_pos m c _ (by rw [Fin.val_last]; have : cfg0.N = 72 := N_0; omega), PhiA_eq]; unfold PhiAcc
  iintro ⟨⟨A0, A1, A2, A3⟩, Hg⟩
  isplitr [Hg]
  · isplitl [A0]; · iexists _; iexact A0
    isplitl [A1]; · iexists _; iexact A1
    isplitl [A2]; · iexists _; iexact A2
    iexists _; iexact A3
  iexact Hg

-- the launch theorem's implicit arguments are found by unifying its conclusion with this one, which takes unfolding plain
-- definitions in a metavariable's type
set_option backward.isDefEq.respectTransparency.types false in
/-- Every weakly fair execution of @main terminates, and every final state has each array of the call at what the
    proof data compute and every other unscoped buffer as the host lines after the call leave it. -/
theorem run_main (hI : MaskedIgnoresFill m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hI c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.Spec.lean ====
/-
  The mathematics both programs compute, over the reals.

  Rows `b` of a 256 × 2048 matrix `x` are scaled to unit length (the divisor is the row's Euclidean norm, never
  less than a small positive constant), multiplied into a 2048 × 100000 matrix `f`, and the products scaled
  by a constant: the logits.  The loss is the mean over the rows of
  `log (∑ j, exp (logit b j)) - logit b (tg b)`: the cross entropy of the row's soft-max against its target column.
-/
import Idealize.ShloMosaic.PureOps.Ideal
import Idealize.ShloMosaic.Lib.ValueIdx

noncomputable section

namespace Cert.Spec

/-- The smallest divisor allowed for a row: the real number the single-precision word `0x2B8CBCCC` denotes. -/
def epsR : ℝ := 9223372 / 2 ^ 63

/-- The logits' scale: the reciprocal of the real number `13421773 / 2 ^ 28` that the single-precision word
    `0x3D4CCCCD` (the temperature) denotes. -/
def kappaR : ℝ := 268435456 / 13421773

variable (x : Fin 256 → Fin 2048 → ℝ) (f : Fin 2048 → Fin 100000 → ℝ) (tg : Fin 256 → Fin 100000)

/-- A row's divisor: its Euclidean norm, or `epsR` if that is larger. -/
def rowDiv (b : Fin 256) : ℝ := max (Real.sqrt (∑ k : Fin 2048, x b k * x b k)) epsR

/-- The row scaled to unit length. -/
def xn (b : Fin 256) (k : Fin 2048) : ℝ := x b k / rowDiv x b

/-- The logit of row `b` against column `j`. -/
def logit (b : Fin 256) (j : Fin 100000) : ℝ := (∑ k : Fin 2048, xn x b k * f k j) * kappaR

/-- The logarithm of the row's sum of exponentials. -/
def lse (b : Fin 256) : ℝ := Real.log (∑ j : Fin 100000, Real.exp (logit x f b j))

/-- The mean cross entropy. -/
def loss : ℝ := (∑ b : Fin 256, (lse x f b - logit x f b (tg b))) / 256

/-- The columns of the table that core `c` sweeps: its 36 tiles of 1408 columns, the last cut at the table's end. -/
def coreCols (c : Fin 2) : Finset (Fin 100000) :=
  Finset.univ.filter fun j => 50688 * c.val ≤ j.val ∧ j.val < 50688 * (c.val + 1)

/-- What core `c` accumulates for row `b`, given the (real) running maximum `mr` it ends with: the sum of
    `exp (logit - mr)` over its columns; -/
def coreSum (c : Fin 2) (b : Fin 256) (mr : ℝ) : ℝ := ∑ j ∈ coreCols c, Real.exp (logit x f b j - mr)

/-- and the logit of the row's target column if that column is among the core's, else zero. -/
def corePick (c : Fin 2) (b : Fin 256) : ℝ := ∑ j ∈ coreCols c, if j = tg b then logit x f b j else 0

end Cert.Spec

end
-- ==== Proof.KSem.lean ====
/-
  The body's stored values, read at an index over the extended reals, for real inputs.

  `xs` holds the rows scaled to unit length, `X1` one tile of 1408 columns of the table (`ft` its real entries),
  `X2` the targets; per row `b` the accumulators hold a running maximum `mr b`, a running sum `lr b` and a pick
  `tr b`.  The tile's logits are `zt b j = (∑ k, xn b k * ft k j) * kappaR`.  A tile's update replaces the maximum by
  some real `m'` (the larger of the old one and the tile's), the sum by `lr b * exp (mr b - m') + ∑ j, exp (zt b j - m')`
  and adds to the pick the logit of the column whose table index is the row's target, if the tile has it.  At tile
  71 only the first 32 columns lie inside the table: the others are replaced by a large negative constant before
  the maximum and the pick, and by zero in the sum — so nothing the update stores depends on what the buffer
  holds in those columns.
-/
import proofs.«404700_j7164005449845_3_alg».proof.Proof.KConds
import proofs.«404700_j7164005449845_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Sem

open Idealize.ShloMosaic Cert.KernelIdeal Cert.KernelIdeal.Gen Cert.KernelIdeal.Body

/-- A tile's logits from the unit rows `xn x` and the tile's real entries `ft`. -/
def zt (x : Fin 256 → Fin 2048 → ℝ) (ft : Fin 2048 → Fin 1408 → ℝ) (b : Fin 256) (j : Fin 1408) : ℝ :=
  (∑ k : Fin 2048, Cert.Spec.xn x b k * ft k j) * Cert.Spec.kappaR

section Layout

variable {α : Type}

/-- The index over row `b` with coordinate `k` inserted on the summed axis is `(b, k)`. -/
theorem lift_row {n : ℕ} (h : (⟨2, ![256, n]⟩ : Shape).Reduces [1] S256) (b : Fin 256) (k : Fin n) :
    h.lift (ValueIdx.ix1 b) k = ValueIdx.ix2 b k :=
  funext fun c => Fin.ext (by match c with | ⟨0, _⟩ => rfl | ⟨1, _⟩ => rfl)

/-- A vector of 256 entries viewed as a column reads its entry `b` at `(b, 0)`. -/
theorem shapeCast_col (v : S256.Idx → α) (h : S256.ShapeCasts S256x1) (b : Fin 256) :
    shapeCast S256x1 v h (ValueIdx.ix2 b 0) = v (ValueIdx.ix1 b) :=
  shapeCast_apply v h _ _ (by
    rw [Shape.rowMajor_val_two, Shape.rowMajor_val_one]
    show b.val = b.val * 1 + 0
    omega)

/-- A column broadcast along the rows reads, at `(b, j)`, its entry `(b, 0)`. -/
theorem broadcastTo_col {n : ℕ} (v : S256x1.Idx → α) (h : S256x1.Broadcasts ⟨2, ![256, n]⟩) (b : Fin 256) (j : Fin n) :
    broadcastTo ⟨2, ![256, n]⟩ v h (ValueIdx.ix2 b j) = v (ValueIdx.ix2 b 0) := by
  refine broadcastTo_apply v h _ _ fun ax => ?_
  match ax with
  | ⟨0, _⟩ => rfl
  | ⟨1, _⟩ => rfl

/-- The coercion of the reals into the extended reals goes through a finite sum. -/
theorem coe_sum {ι : Type} (s : Finset ι) (f : ι → ℝ) : ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

end Layout

/-- The logits' scale, as the table of named constants gives it. -/
theorem inv_temp : Named.named (F := Ideal) κ "inv_temp" (φ := .f32) 0x41A00000#32 = ((Cert.Spec.kappaR : ℝ) : EReal) :=
  IdealRules.named_const.ideal_named_scalar _ _ _ _ rfl

/-! The product's operand indices at output `(b, j)` and contraction coordinate `q`. -/
theorem lhs_0 (i : S256x1408.Idx) (q : dot_S256x2048_S2048x1408_S256x1408_1_0_0_1_n_n.contr.Idx) :
    (dot_S256x2048_S2048x1408_S256x1408_1_0_0_1_n_n.lhsIdx i q 0).val = (i 0).val := by
  unfold DotDims.lhsIdx
  rw [dif_neg (show ¬(0 : Fin S256x2048.rank) ∈ dot_S256x2048_S2048x1408_S256x1408_1_0_0_1_n_n.lhsBatch by decide), dif_pos (show (0 : Fin S256x2048.rank) ∈ dot_S256x2048_S2048x1408_S256x1408_1_0_0_1_n_n.lhsNonContracting by decide)]
  rfl
theorem lhs_1 (i : S256x1408.Idx) (q : dot_S256x2048_S2048x1408_S256x1408_1_0_0_1_n_n.contr.Idx) :
    (dot_S256x2048_S2048x1408_S256x1408_1_0_0_1_n_n.lhsIdx i q 1).val = (q ⟨0, by decide⟩).val :=
  dot_S256x2048_S2048x1408_S256x1408_1_0_0_1_n_n.lhsIdx_val_of_single rfl i q
theorem rhs_0 (i : S256x1408.Idx) (q : dot_S256x2048_S2048x1408_S256x1408_1_0_0_1_n_n.contr.Idx) :
    (dot_S256x2048_S2048x1408_S256x1408_1_0_0_1_n_n.rhsIdx i q 0).val = (q ⟨0, by decide⟩).val :=
  dot_S256x2048_S2048x1408_S256x1408_1_0_0_1_n_n.rhsIdx_val_of_single rfl i q
theorem rhs_1 (i : S256x1408.Idx) (q : dot_S256x2048_S2048x1408_S256x1408_1_0_0_1_n_n.contr.Idx) :
    (dot_S256x2048_S2048x1408_S256x1408_1_0_0_1_n_n.rhsIdx i q 1).val = (i 1).val := by
  unfold DotDims.rhsIdx
  rw [dif_neg (show ¬(1 : Fin S2048x1408.rank) ∈ dot_S256x2048_S2048x1408_S256x1408_1_0_0_1_n_n.rhsBatch by decide), dif_pos (show (1 : Fin S2048x1408.rank) ∈ dot_S256x2048_S2048x1408_S256x1408_1_0_0_1_n_n.rhsNonContracting by decide)]
  rfl

/-- The tile's scaled product at `(b, j)`: the sum over `k` of row `b` of the left operand times column `j` of the
    right one, times the scale. -/
theorem pay5_sum (xs : Vec Ideal S256x2048 .bf16) (X1 : Vec Ideal S2048x1408 .f32) (b : Fin 256) (j : Fin 1408) :
    k0_pay5 (F := Ideal) xs X1 (ValueIdx.ix2 b j)
      = (∑ k : Fin 2048, xs (ValueIdx.ix2 b k) * X1 (ValueIdx.ix2 k j)) * ((Cert.Spec.kappaR : ℝ) : EReal) := by
  unfold k0_pay5
  rw [ValueIdx.mulf_apply, ValueIdx.broadcast_apply, inv_temp]
  refine congrArg (· * _) ?_
  simp only [matmul]
  rw [Ideal.matmul_constant_zero_apply, ← Equiv.sum_comp (ValueIdx.contrEquiv1 dot_S256x2048_S2048x1408_S256x1408_1_0_0_1_n_n 2048 rfl rfl).symm]
  refine Finset.sum_congr rfl fun k _ => ?_
  have hk := ValueIdx.contrEquiv1_symm_val dot_S256x2048_S2048x1408_S256x1408_1_0_0_1_n_n 2048 rfl rfl k
  have el : dot_S256x2048_S2048x1408_S256x1408_1_0_0_1_n_n.lhsIdx (ValueIdx.ix2 b j) ((ValueIdx.contrEquiv1 dot_S256x2048_S2048x1408_S256x1408_1_0_0_1_n_n 2048 rfl rfl).symm k) = ValueIdx.ix2 b k := funext fun a => Fin.ext (by
    match a with
    | ⟨0, _⟩ => exact lhs_0 _ _
    | ⟨1, _⟩ => exact (lhs_1 _ _).trans hk)
  have er : dot_S256x2048_S2048x1408_S256x1408_1_0_0_1_n_n.rhsIdx (ValueIdx.ix2 b j) ((ValueIdx.contrEquiv1 dot_S256x2048_S2048x1408_S256x1408_1_0_0_1_n_n 2048 rfl rfl).symm k) = ValueIdx.ix2 k j := funext fun a => Fin.ext (by
    match a with
    | ⟨0, _⟩ => exact (rhs_0 _ _).trans hk
    | ⟨1, _⟩ => exact rhs_1 _ _)
  rw [el, er, ValueIdx.truncf_apply]

/-- The tile's logits: the product of the unit rows with a column of the tile's buffer, scaled — a function of
    that column alone; -/
theorem pay5_col_congr (xs : Vec Ideal S256x2048 .bf16) (X1 X1' : Vec Ideal S2048x1408 .f32) (j : Fin 1408)
    (h : ∀ k : Fin 2048, X1 (ValueIdx.ix2 k j) = X1' (ValueIdx.ix2 k j)) (b : Fin 256) :
    k0_pay5 (F := Ideal) xs X1 (ValueIdx.ix2 b j) = k0_pay5 (F := Ideal) xs X1' (ValueIdx.ix2 b j) := by
  rw [pay5_sum, pay5_sum]
  exact congrArg (· * _) (Finset.sum_congr rfl fun k _ => by rw [h k])

/-- and, where the column is real, the real logit. -/
theorem pay5_apply (x : Fin 256 → Fin 2048 → ℝ) (ft : Fin 2048 → Fin 1408 → ℝ)
    (xs : Vec Ideal S256x2048 .bf16) (X1 : Vec Ideal S2048x1408 .f32)
    (hxs : ∀ b k, xs (ValueIdx.ix2 b k) = ((Cert.Spec.xn x b k : ℝ) : EReal)) (j : Fin 1408)
    (hX1 : ∀ k, X1 (ValueIdx.ix2 k j) = ((ft k j : ℝ) : EReal)) (b : Fin 256) :
    k0_pay5 (F := Ideal) xs X1 (ValueIdx.ix2 b j) = ((zt x ft b j : ℝ) : EReal) := by
  rw [pay5_sum, zt, EReal.coe_mul, coe_sum]
  exact congrArg (· * _) (Finset.sum_congr rfl fun k _ => by rw [hxs b k, hX1 k, EReal.coe_mul])

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
end Pointwise

/-- A row's sum, stored as a column: at `(b, 0)` the sum over the row's entries. -/
theorem rowSum_apply {n : ℕ} (v : FVec Ideal ⟨2, ![256, n]⟩ .f32) (h : (⟨2, ![256, n]⟩ : Shape).Reduces [1] S256)
    (hφ : FKind.Formats .f32) (hacc : (0x00000000#32 : BitVec 32) = FKind.add.neutral .f32 hφ)
    (hc : S256.ShapeCasts S256x1) (b : Fin 256) :
    shapeCast S256x1 (multiReduction .add [1] S256 v 0x00000000#32 h hφ hacc) hc (ValueIdx.ix2 b 0)
      = ∑ k : Fin n, v (ValueIdx.ix2 b k) := by
  rw [shapeCast_col, Ideal.multiReduction_add_single]
  exact Finset.sum_congr rfl fun k _ => congrArg v (lift_row h b k)

/-- The word `0x2B8CBCCC` denotes `9223372 / 2 ^ 63`. -/
theorem ofBits_eps : Ideal.ofBits .f32 0x2B8CBCCC#32 = ((Cert.Spec.epsR : ℝ) : EReal) := by
  simp [Ideal.ofBits, Ideal.ieee, Cert.Spec.epsR, -EReal.coe_mul]
  exact (div_eq_mul_inv _ _).symm

/-- The word `0xF149F2CA` denotes a real number. -/
theorem ofBits_big : ∃ r : ℝ, Ideal.ofBits .f32 0xF149F2CA#32 = ((r : ℝ) : EReal) := by
  simp [Ideal.ofBits, Ideal.ieee, -EReal.coe_mul]
  exact ⟨_, (EReal.coe_neg _).symm⟩

theorem epsR_pos : 0 < Cert.Spec.epsR := by unfold Cert.Spec.epsR; positivity

theorem rowDiv_pos (x : Fin 256 → Fin 2048 → ℝ) (b : Fin 256) : 0 < Cert.Spec.rowDiv x b :=
  lt_of_lt_of_le epsR_pos (le_max_right _ _)

/-- The reset stores the rows scaled to unit length, -/
theorem pay4_apply (X0 : Vec Ideal S256x2048 .f32) (x : Fin 256 → Fin 2048 → ℝ)
    (hX : ∀ b k, X0 (ValueIdx.ix2 b k) = ((x b k : ℝ) : EReal)) (b : Fin 256) (k : Fin 2048) :
    k0_pay4 (F := Ideal) X0 (ValueIdx.ix2 b k) = ((Cert.Spec.xn x b k : ℝ) : EReal) := by
  unfold k0_pay4
  rw [shapeCast_self, ValueIdx.truncf_apply, ValueIdx.divf_apply, broadcastTo_col, ValueIdx.maximumf_apply,
    ValueIdx.broadcast_apply, sqrt_apply]
  erw [rowSum_apply (n := 2048) (mulf (F := Ideal) (s := S256x2048) (φ := .f32) X0 X0)]
  have hs : (∑ k' : Fin 2048, mulf (F := Ideal) (s := S256x2048) (φ := .f32) X0 X0 (ValueIdx.ix2 b k')) = ((∑ k' : Fin 2048, x b k' * x b k' : ℝ) : EReal) := by
    rw [coe_sum]
    exact Finset.sum_congr rfl fun k' _ => by rw [ValueIdx.mulf_apply, hX, EReal.coe_mul]
  have h0 : ¬ (∑ k' : Fin 2048, x b k' * x b k') < 0 :=
    not_lt.2 (Finset.sum_nonneg fun k' _ => mul_self_nonneg _)
  rw [hs, Ideal.sqrt_coe, if_neg h0]
  show Ideal.div _ (max _ (Ideal.ofBits .f32 0x2B8CBCCC#32)) = _
  rw [ofBits_eps, ← EReal.coe_strictMono.monotone.map_max, hX]
  show Ideal.div _ ((Cert.Spec.rowDiv x b : ℝ) : EReal) = _
  rw [Ideal.div_coe (rowDiv_pos x b).ne', ← EReal.coe_mul, mul_one_div]
  rfl

/-- a real constant as every row's maximum, -/
theorem pay1_apply : ∃ r : ℝ, ∀ b : Fin 256, k0_pay1 (F := Ideal) (ValueIdx.ix2 b 0) = ((r : ℝ) : EReal) := by
  obtain ⟨r, hr⟩ := ofBits_big
  refine ⟨r, fun b => ?_⟩
  unfold k0_pay1
  rw [shapeCast_self, ValueIdx.broadcast_apply]
  exact hr

/-- and zero as every row's sum and pick. -/
theorem pay2_apply (b : Fin 256) : k0_pay2 (F := Ideal) (ValueIdx.ix2 b 0) = ((0 : ℝ) : EReal) := by
  unfold k0_pay2
  rw [shapeCast_self, ValueIdx.broadcast_apply, EReal.coe_zero]
  exact Ideal.ofBits_zero_f32
theorem pay3_apply (b : Fin 256) : k0_pay3 (F := Ideal) (ValueIdx.ix2 b 0) = ((0 : ℝ) : EReal) := by
  unfold k0_pay3
  rw [shapeCast_self, ValueIdx.broadcast_apply, EReal.coe_zero]
  exact Ideal.ofBits_zero_f32

/-- The word `0xFF800000` denotes `⊥`. -/
theorem ofBits_ninf : Ideal.ofBits .f32 0xFF800000#32 = ⊥ := by simp [Ideal.ofBits, Ideal.ieee]

/-- A row's maximum, stored as a column: at `(b, 0)` the fold of `max` from `⊥` over the row's entries. -/
theorem rowMax_apply {n : ℕ} (v : FVec Ideal ⟨2, ![256, n]⟩ .f32) (h : (⟨2, ![256, n]⟩ : Shape).Reduces [1] S256)
    (hφ : FKind.Formats .f32) (hacc : (0xFF800000#32 : BitVec 32) = FKind.maximumf.neutral .f32 hφ)
    (hc : S256.ShapeCasts S256x1) (b : Fin 256) :
    shapeCast S256x1 (multiReduction .maximumf [1] S256 v 0xFF800000#32 h hφ hacc) hc (ValueIdx.ix2 b 0)
      = (Finset.univ : Finset (Fin n)).fold max ⊥ (fun k => v (ValueIdx.ix2 b k)) := by
  rw [shapeCast_col, Ideal.multiReduction_maximumf_single]
  have e : (v ∘ h.lift (ValueIdx.ix1 b)) = fun k => v (ValueIdx.ix2 b k) :=
    funext fun k => congrArg v (lift_row h b k)
  rw [e]
  show Finset.fold max (Ideal.ofBits .f32 0xFF800000#32) _ _ = _
  rw [ofBits_ninf]
  rfl

/-- The larger of a real number and the maximum of finitely many real numbers is a real number. -/
theorem max_fold_real {ι : Type} (s : Finset ι) (f : ι → ℝ) (m : ℝ) :
    ∃ r : ℝ, max ((m : ℝ) : EReal) (s.fold max ⊥ fun i => ((f i : ℝ) : EReal)) = ((r : ℝ) : EReal) := by
  classical
  refine Finset.induction_on s ⟨m, by simp⟩ ?_
  intro a s ha ih
  obtain ⟨r, hr⟩ := ih
  refine ⟨max (f a) r, ?_⟩
  rw [Finset.fold_insert ha, max_left_comm, hr, EReal.coe_strictMono.monotone.map_max]

section IntPointwise
variable {s : Shape} {w : ℕ}
theorem cmpi_apply (p : CmpIPredicate) (a c : IVec s w) (i : s.Idx) : cmpi p a c i = IntOp.cmpi p (a i) (c i) := rfl
theorem subi_apply (a c : IVec s w) (i : s.Idx) : subi a c i = IntOp.subi (a i) (c i) := rfl
end IntPointwise

/-- The one-hot of the targets at `(b, j)`: column `j` against the row's target less the tile's first column, as words. -/
theorem pay6_apply (i : grid0.Coords) (X2 : Vec Ideal S256x1 .i32) (b : Fin 256) (j : Fin 1408) :
    k0_pay6 (F := Ideal) i X2 (ValueIdx.ix2 b j)
      = IntOp.cmpi .eq (BitVec.ofNat 32 j.val) (IntOp.subi (X2 (ValueIdx.ix2 b 0)) (tileStart i)) := by
  unfold k0_pay6
  rw [cmpi_apply, iota_single_apply, broadcastTo_col, subi_apply, shapeCast_self, ValueIdx.broadcast_apply]

theorem ofBool_beq_eq_one {w : ℕ} (a c : BitVec w) : BitVec.ofBool (a == c) = 1#1 ↔ a = c := by
  rw [← beq_iff_eq (a := a) (b := c)]
  generalize (a == c) = t
  cases t <;> decide

/-- Column `j` of tile `T` is the target `tg` exactly when the two words agree: below `2 ^ 32` nothing wraps but
    the difference of a target in front of the tile, which is then far above every column number. -/
theorem col_match (i0 i1 T j tg : ℕ) (h0 : i0 < 2) (h1 : i1 < 36) (hT : T = 36 * i0 + i1) (hj : j < 1408)
    (htg : tg < 100000) :
    IntOp.cmpi .eq (BitVec.ofNat 32 j) (IntOp.subi (BitVec.ofNat 32 tg)
        (Scalar.muli (Scalar.addi (Scalar.muli (BitVec.ofNat 32 i0) 36#32) (BitVec.ofNat 32 i1)) 1408#32)) = 1#1
      ↔ 1408 * T + j = tg := by
  simp only [IntOp.cmpi, IntOp.subi, Scalar.muli, Scalar.addi, IntOp.muli, IntOp.addi]
  rw [ofBool_beq_eq_one]
  constructor
  · intro he
    have ht := congrArg BitVec.toNat he
    simp only [BitVec.toNat_sub, BitVec.toNat_mul, BitVec.toNat_add, BitVec.toNat_ofNat, Nat.reducePow] at ht
    omega
  · intro he
    apply BitVec.eq_of_toNat_eq
    simp only [BitVec.toNat_sub, BitVec.toNat_mul, BitVec.toNat_add, BitVec.toNat_ofNat, Nat.reducePow]
    omega

section Tile

variable (x : Fin 256 → Fin 2048 → ℝ) (ft : Fin 2048 → Fin 1408 → ℝ) (tg : Fin 256 → Fin 100000)
  (xs : Vec Ideal S256x2048 .bf16) (X1 : Vec Ideal S2048x1408 .f32) (X2 : Vec Ideal S256x1 .i32)
  (ms ls ts : Vec Ideal S256x1 .f32) (mr lr tr : Fin 256 → ℝ)

/-- The new maximum of a row is a real number. -/
theorem pay8_apply
    (hxs : ∀ b k, xs (ValueIdx.ix2 b k) = ((Cert.Spec.xn x b k : ℝ) : EReal))
    (hX1 : ∀ k j, X1 (ValueIdx.ix2 k j) = ((ft k j : ℝ) : EReal))
    (hm : ∀ b, ms (ValueIdx.ix2 b 0) = ((mr b : ℝ) : EReal)) (b : Fin 256) :
    ∃ m' : ℝ, k0_pay8 (F := Ideal) xs X1 ms (ValueIdx.ix2 b 0) = ((m' : ℝ) : EReal) := by
  unfold k0_pay8
  rw [ValueIdx.maximumf_apply, hm b]
  erw [rowMax_apply (n := 1408) (k0_pay5 (F := Ideal) xs X1)]
  have e : (fun k => k0_pay5 (F := Ideal) xs X1 (ValueIdx.ix2 b k)) = fun k => ((zt x ft b k : ℝ) : EReal) :=
    funext fun k => pay5_apply x ft xs X1 hxs k (fun k' => hX1 k' k) b
  rw [e]
  exact max_fold_real _ _ _

/-- The unmasked update of the maximum and the sum, at a tile all of whose columns are real. -/
theorem fast_ml_apply
    (hxs : ∀ b k, xs (ValueIdx.ix2 b k) = ((Cert.Spec.xn x b k : ℝ) : EReal))
    (hX1 : ∀ k j, X1 (ValueIdx.ix2 k j) = ((ft k j : ℝ) : EReal))
    (hm : ∀ b, ms (ValueIdx.ix2 b 0) = ((mr b : ℝ) : EReal)) (hl : ∀ b, ls (ValueIdx.ix2 b 0) = ((lr b : ℝ) : EReal))
    (b : Fin 256) :
    ∃ m' : ℝ, k0_pay10 (F := Ideal) xs X1 ms (ValueIdx.ix2 b 0) = ((m' : ℝ) : EReal) ∧
      k0_pay9 (F := Ideal) xs X1 ms ms ls (ValueIdx.ix2 b 0)
        = ((lr b * Real.exp (mr b - m') + ∑ j : Fin 1408, Real.exp (zt x ft b j - m') : ℝ) : EReal) := by
  obtain ⟨m', hm'⟩ := pay8_apply x ft xs X1 ms mr hxs hX1 hm b
  refine ⟨m', ?_, ?_⟩
  · unfold k0_pay10
    rw [shapeCast_self]
    exact hm'
  · unfold k0_pay9
    rw [shapeCast_self, ValueIdx.addf_apply, ValueIdx.mulf_apply, exp_apply, ValueIdx.subf_apply, hm', hm b, hl b]
    erw [rowSum_apply (n := 1408)]
    have hsum : (∑ k : Fin 1408, exp (F := Ideal) (s := S256x1408) (φ := .f32) (subf (k0_pay5 (F := Ideal) xs X1)
          (broadcastTo S256x1408 (k0_pay8 (F := Ideal) xs X1 ms) Facts₀.broadcasts_S256x1_S256x1408)) (ValueIdx.ix2 b k))
        = ((∑ j : Fin 1408, Real.exp (zt x ft b j - m') : ℝ) : EReal) := by
      rw [coe_sum]
      refine Finset.sum_congr rfl fun k _ => ?_
      rw [exp_apply, ValueIdx.subf_apply, broadcastTo_col, hm', pay5_apply x ft xs X1 hxs k (fun k' => hX1 k' k) b,
        ← EReal.coe_sub, Ideal.exp_coe]
    rw [hsum, ← EReal.coe_sub, Ideal.exp_coe, ← EReal.coe_mul, ← EReal.coe_add]

/-- The unmasked update of the pick, at grid point `i` (tile `T = 36 * core + step`). -/
theorem fast_t_apply (i : grid0.Coords) (T : ℕ) (hT : T = 36 * (i 0).val + (i 1).val)
    (hxs : ∀ b k, xs (ValueIdx.ix2 b k) = ((Cert.Spec.xn x b k : ℝ) : EReal))
    (hX1 : ∀ k j, X1 (ValueIdx.ix2 k j) = ((ft k j : ℝ) : EReal))
    (hX2 : ∀ b, X2 (ValueIdx.ix2 b 0) = BitVec.ofNat 32 (tg b).val)
    (ht : ∀ b, ts (ValueIdx.ix2 b 0) = ((tr b : ℝ) : EReal)) (b : Fin 256) :
    k0_pay7 (F := Ideal) i xs X1 X2 ts (ValueIdx.ix2 b 0)
      = ((tr b + ∑ j : Fin 1408, (if 1408 * T + j.val = (tg b).val then zt x ft b j else 0) : ℝ) : EReal) := by
  have h0 : (i 0).val < 2 := (i 0).isLt
  have h1 : (i 1).val < 36 := (i 1).isLt
  unfold k0_pay7
  rw [shapeCast_self, ValueIdx.addf_apply, ht b]
  erw [rowSum_apply (n := 1408)]
  have hsum : (∑ k : Fin 1408, select (k0_pay6 (F := Ideal) i X2) (k0_pay5 (F := Ideal) xs X1)
          (broadcast S256x1408 (Scalar.ofBits (F := Ideal) .f32 0x00000000#32)) (ValueIdx.ix2 b k))
        = ((∑ j : Fin 1408, (if 1408 * T + j.val = (tg b).val then zt x ft b j else 0) : ℝ) : EReal) := by
    rw [coe_sum]
    refine Finset.sum_congr rfl fun k _ => ?_
    rw [ValueIdx.select_apply, pay6_apply, hX2 b, ValueIdx.broadcast_apply,
      pay5_apply x ft xs X1 hxs k (fun k' => hX1 k' k) b]
    by_cases hc : 1408 * T + k.val = (tg b).val
    · rw [if_pos hc, (col_match _ _ T _ _ h0 h1 hT k.isLt (tg b).isLt).2 hc, ValueIdx.select_one]
    · rw [if_neg hc, ValueIdx.eq_zero_of_ne_one (mt (col_match _ _ T _ _ h0 h1 hT k.isLt (tg b).isLt).1 hc),
        ValueIdx.select_zero, EReal.coe_zero]
      exact Ideal.ofBits_zero_f32
  rw [hsum, ← EReal.coe_add]

end Tile

end Cert.KernelIdeal.Sem

end
-- ==== Proof.KSemMasked.lean ====
/-
  Tile 71, whose last 1376 columns lie past the table's end: what the masked update stores, read at an index over
  the extended reals for real inputs, and that none of it depends on what the buffer holds in those columns.  The
  body replaces such a column's logit by a large negative constant before the row maximum and the target pick, and
  its exponential by zero in the sum.
-/
import proofs.«404700_j7164005449845_3_alg».proof.Proof.KSem
import Idealize.ShloMosaic.Lib.StableHlo.Predicate

noncomputable section

namespace Cert.KernelIdeal.Sem

open Idealize.ShloMosaic Cert.KernelIdeal Cert.KernelIdeal.Gen Cert.KernelIdeal.Body
open Idealize.ShloMosaic.ValueIdx

namespace Masked

/-- At tile 71 (core 1, step 35) the tile's first column is `(1 * 36 + 35) * 1408 = 99968`. -/
theorem tileStart_last (i : grid0.Coords) (hi0 : (i 0).val = 1) (hi1 : (i 1).val = 35) : tileStart i = 99968#32 := by
  show Scalar.muli (Scalar.addi (Scalar.muli (BitVec.ofNat 32 (i 0).val) 36#32) (BitVec.ofNat 32 (i 1).val)) 1408#32 = 99968#32
  rw [hi0, hi1]; decide

/-- The column number at an entry is the entry's second coordinate. -/
theorem colIota_apply (b : Fin 256) (j : Fin 1408) : colIota (ix2 b j) = BitVec.ofNat 32 j.val :=
  iota_single_apply .tc S256x1408 32 1 iota_S256x1408_d1_w32 (ix2 b j)

open Idealize.ShloMosaic.StableHlo.Predicate in
/-- At tile 71 the validity bit of column `j` is set exactly when `99968 + j < 100000`, that is `j < 32`: both
    words are small and non-negative, so the signed comparison is the comparison of the numbers. -/
theorem mask_apply (i : grid0.Coords) (hi0 : (i 0).val = 1) (hi1 : (i 1).val = 35) (b : Fin 256) (j : Fin 1408) :
    k0_pay15 (tileStart i) colIota (ix2 b j) = 1#1 ↔ j.val < 32 := by
  rw [tileStart_last i hi0 hi1]
  show IntOp.cmpi .slt (IntOp.addi (colIota (ix2 b j)) 99968#32) 100000#32 = 1#1 ↔ _
  rw [colIota_apply]
  have hj := j.isLt
  have h1 : (IntOp.addi (BitVec.ofNat 32 j.val) 99968#32).toNat = j.val + 99968 := by
    show (BitVec.ofNat 32 j.val + 99968#32).toNat = _
    rw [BitVec.toNat_add, BitVec.toNat_ofNat]
    simp only [BitVec.toNat_ofNat]
    omega
  rw [slt_iff_toNat (by rw [h1]; omega) (by decide), h1]
  show j.val + 99968 < 100000 ↔ _
  omega

theorem mask_one (i : grid0.Coords) (hi0 : (i 0).val = 1) (hi1 : (i 1).val = 35) (b : Fin 256) (j : Fin 1408)
    (hj : j.val < 32) : k0_pay15 (tileStart i) colIota (ix2 b j) = 1#1 := (mask_apply i hi0 hi1 b j).2 hj

theorem mask_zero (i : grid0.Coords) (hi0 : (i 0).val = 1) (hi1 : (i 1).val = 35) (b : Fin 256) (j : Fin 1408)
    (hj : ¬ j.val < 32) : k0_pay15 (tileStart i) colIota (ix2 b j) = 0#1 :=
  eq_zero_of_ne_one fun e => hj ((mask_apply i hi0 hi1 b j).1 e)

/-- The masked logits at an entry: the logit in a column inside the table, the negative constant past its end. -/
theorem pay16_apply (i : grid0.Coords) (hi0 : (i 0).val = 1) (hi1 : (i 1).val = 35)
    (v : FVec Ideal S256x1408 .f32) (b : Fin 256) (j : Fin 1408) :
    k0_pay16 (F := Ideal) (tileStart i) v colIota (ix2 b j)
      = if j.val < 32 then v (ix2 b j) else Ideal.ofBits .f32 0xF149F2CA#32 := by
  show Scalar.select (k0_pay15 (tileStart i) colIota (ix2 b j)) (v (ix2 b j)) (Ideal.ofBits .f32 0xF149F2CA#32) = _
  by_cases hj : j.val < 32
  · rw [mask_one i hi0 hi1 b j hj, select_one, if_pos hj]
  · rw [mask_zero i hi0 hi1 b j hj, select_zero, if_neg hj]

/-- Entry `b` of a vector of 256 entries, seen as entry `(b, 0)` of the 256 × 1 column it is cast to. -/
theorem col_apply {α : Type} (v : S256.Idx → α) (b : Fin 256) :
    shapeCast S256x1 v shapeCasts_S256_S256x1 (ix2 b 0) = v (ix1 b) :=
  shapeCast_apply v _ (ix2 b 0) (ix1 b) (by rw [Shape.rowMajor_val_one, Shape.rowMajor_val_two]; simp)

/-- A 256 × 1 column laid along the 1408 columns of a block: entry `(b, j)` is the column's entry `(b, 0)`. -/
theorem bcast_apply {α : Type} (M : S256x1.Idx → α) (b : Fin 256) (j : Fin 1408) :
    broadcastTo S256x1408 M broadcasts_S256x1_S256x1408 (ix2 b j) = M (ix2 b 0) :=
  broadcastTo_apply M _ (ix2 b j) (ix2 b 0) (fun a => match a with | ⟨0, _⟩ => rfl | ⟨1, _⟩ => rfl)

/-- The block's index over row `b` with column `k` inserted. -/
theorem lift_apply (b : Fin 256) (k : Fin 1408) : reduces_S256x1408_S256.lift (ix1 b) k = ix2 b k := by
  funext c; apply Fin.ext
  match c with
  | ⟨0, _⟩ => rfl
  | ⟨1, _⟩ => rfl

/-- A row's sum over the block's 1408 columns, kept as a 256 × 1 column. -/
theorem rowSum_apply (v : FVec Ideal S256x1408 .f32) (b : Fin 256) :
    shapeCast S256x1 (multiReduction (F := Ideal) .add [1] S256 v 0x00000000#32 reduces_S256x1408_S256 (.inl rfl) rfl)
        shapeCasts_S256_S256x1 (ix2 b 0)
      = ∑ k : Fin 1408, v (ix2 b k) := by
  rw [col_apply]
  refine (Ideal.multiReduction_add_single v _ reduces_S256x1408_S256 _ _ (ix1 b)).trans ?_
  exact Finset.sum_congr rfl fun k _ => congrArg v (lift_apply b k)

/-- The coercion of the reals into the extended reals goes through a finite sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

open Idealize.ShloMosaic.StableHlo.Predicate in
/-- At tile 71 the pick's one-hot bit of column `k` in row `b` is set exactly when `99968 + k` is the row's target:
    the column number is compared with the target less the tile's first column, as words, and neither wraps. -/
theorem pick_apply (i : grid0.Coords) (hi0 : (i 0).val = 1) (hi1 : (i 1).val = 35) (X2 : Vec Ideal S256x1 .i32)
    (tg : Fin 256 → Fin 100000) (hX2 : ∀ b, X2 (ix2 b 0) = BitVec.ofNat 32 (tg b).val) (b : Fin 256) (k : Fin 1408) :
    k0_pay6 (F := Ideal) i X2 (ix2 b k) = 1#1 ↔ 99968 + k.val = (tg b).val := by
  show IntOp.cmpi .eq (colIota (ix2 b k)) (broadcastTo S256x1408 (subi (shapeCast S256x1 X2 shapeCasts_S256x1_S256x1)
    (broadcast S256x1 (tileStart i))) broadcasts_S256x1_S256x1408 (ix2 b k)) = 1#1 ↔ _
  rw [bcast_apply, shapeCast_self, colIota_apply, cmpi_eq_iff]
  show BitVec.ofNat 32 k.val = X2 (ix2 b 0) - tileStart i ↔ _
  rw [hX2 b, tileStart_last i hi0 hi1]
  have hk := k.isLt
  have htg := (tg b).isLt
  constructor
  · intro he
    have ht := congrArg BitVec.toNat he
    rw [BitVec.toNat_sub, BitVec.toNat_ofNat, BitVec.toNat_ofNat, BitVec.toNat_ofNat] at ht
    norm_num at ht
    omega
  · intro he
    apply BitVec.eq_of_toNat_eq
    rw [BitVec.toNat_sub, BitVec.toNat_ofNat, BitVec.toNat_ofNat, BitVec.toNat_ofNat, ← he]
    norm_num
    omega

/-- The negative constant the masked columns get denotes a real number. -/
theorem neg_real : ∃ r : ℝ, Ideal.ofBits .f32 0xF149F2CA#32 = ((r : ℝ) : EReal) := by
  show ∃ r : ℝ, Ideal.ieee 8 23 (0xF149F2CA#32 : BitVec 32) = ((r : ℝ) : EReal)
  unfold Ideal.ieee
  simp only []
  rw [if_neg (by decide), if_neg (by decide)]
  exact ⟨_, rfl⟩

/-- The value a row maximum starts from denotes −∞. -/
theorem ninf : Ideal.ofBits .f32 0xFF800000#32 = ⊥ := by simp [Ideal.ofBits, Ideal.ieee]

/-- A row's maximum over the block's 1408 columns, kept as a 256 × 1 column: the fold of `max` from −∞. -/
theorem rowMax_apply (v : FVec Ideal S256x1408 .f32) (b : Fin 256) :
    shapeCast S256x1 (multiReduction (F := Ideal) .maximumf [1] S256 v 0xFF800000#32 reduces_S256x1408_S256 (.inl rfl) rfl)
        shapeCasts_S256_S256x1 (ix2 b 0)
      = (Finset.univ : Finset (Fin 1408)).fold max ⊥ (fun k => v (ix2 b k)) := by
  rw [col_apply]
  refine (Ideal.multiReduction_maximumf_single v _ reduces_S256x1408_S256 _ _ (ix1 b)).trans ?_
  rw [show FloatOps.ofBits (F := Ideal) .f32 0xFF800000#32 = ⊥ from ninf]
  exact Finset.fold_congr fun k _ => congrArg v (lift_apply b k)

/-- The larger of a real and of the maximum (from −∞) of finitely many reals is a real. -/
theorem max_real {ι : Type} (s : Finset ι) (f : ι → EReal) (hf : ∀ k, ∃ r : ℝ, f k = ((r : ℝ) : EReal)) (m : ℝ) :
    ∃ m' : ℝ, max ((m : ℝ) : EReal) (s.fold max ⊥ f) = ((m' : ℝ) : EReal) := by
  have h1 : s.fold max ⊥ f < ⊤ :=
    (Finset.fold_max_lt ⊤).2 ⟨bot_lt_top, fun k _ => by obtain ⟨r, hr⟩ := hf k; rw [hr]; exact EReal.coe_lt_top r⟩
  have h2 : max ((m : ℝ) : EReal) (s.fold max ⊥ f) ≠ ⊤ := ne_of_lt (max_lt (EReal.coe_lt_top m) h1)
  have h3 : max ((m : ℝ) : EReal) (s.fold max ⊥ f) ≠ ⊥ :=
    ne_of_gt (lt_of_lt_of_le (EReal.bot_lt_coe m) (le_max_left _ _))
  exact ⟨_, (EReal.coe_toReal h2 h3).symm⟩

end Masked

section Tile

variable (x : Fin 256 → Fin 2048 → ℝ) (ft : Fin 2048 → Fin 1408 → ℝ) (tg : Fin 256 → Fin 100000)
  (xs : Vec Ideal S256x2048 .bf16) (X1 : Vec Ideal S2048x1408 .f32) (X2 : Vec Ideal S256x1 .i32)
  (ms ls ts : Vec Ideal S256x1 .f32) (mr lr tr : Fin 256 → ℝ)

/-- The masked update of the maximum and the sum at tile 71: only the first 32 columns count. -/
theorem masked_ml_apply (i : grid0.Coords) (hi0 : (i 0).val = 1) (hi1 : (i 1).val = 35)
    (hxs : ∀ b k, xs (ValueIdx.ix2 b k) = ((Cert.Spec.xn x b k : ℝ) : EReal))
    (hX1 : ∀ k (j : Fin 1408), j.val < 32 → X1 (ValueIdx.ix2 k j) = ((ft k j : ℝ) : EReal))
    (hm : ∀ b, ms (ValueIdx.ix2 b 0) = ((mr b : ℝ) : EReal)) (hl : ∀ b, ls (ValueIdx.ix2 b 0) = ((lr b : ℝ) : EReal))
    (b : Fin 256) :
    ∃ m' : ℝ, k0_pay11 (F := Ideal) (k0_pay18 (tileStart i) (k0_pay5 xs X1) colIota ms) (ValueIdx.ix2 b 0) = ((m' : ℝ) : EReal) ∧
      k0_pay19 (F := Ideal) (tileStart i) (k0_pay5 xs X1) colIota ms ms ls (ValueIdx.ix2 b 0)
        = ((lr b * Real.exp (mr b - m') + ∑ j : Fin 1408, (if j.val < 32 then Real.exp (zt x ft b j - m') else 0) : ℝ) : EReal) := by
  -- every masked logit of the row is a real: a logit inside the table, the negative constant past its end
  have hz : ∀ k : Fin 1408, ∃ r : ℝ,
      k0_pay16 (F := Ideal) (tileStart i) (k0_pay5 xs X1) colIota (ix2 b k) = ((r : ℝ) : EReal) := by
    intro k
    rw [Masked.pay16_apply i hi0 hi1]
    by_cases hk : k.val < 32
    · rw [if_pos hk, pay5_apply x ft xs X1 hxs k (fun k' => hX1 k' k hk) b]; exact ⟨_, rfl⟩
    · rw [if_neg hk]; exact Masked.neg_real
  -- so the new maximum, the larger of the old one and the row's, is a real `m'`
  have hM : k0_pay18 (F := Ideal) (tileStart i) (k0_pay5 xs X1) colIota ms (ix2 b 0)
      = max ((mr b : ℝ) : EReal) ((Finset.univ : Finset (Fin 1408)).fold max ⊥
          fun k => k0_pay16 (F := Ideal) (tileStart i) (k0_pay5 xs X1) colIota (ix2 b k)) := by
    unfold k0_pay18
    show max (ms (ix2 b 0)) (shapeCast S256x1 (multiReduction (F := Ideal) .maximumf [1] S256
      (k0_pay16 (F := Ideal) (tileStart i) (k0_pay5 xs X1) colIota) 0xFF800000#32 reduces_S256x1408_S256 (.inl rfl) rfl)
      shapeCasts_S256_S256x1 (ix2 b 0)) = _
    rw [Masked.rowMax_apply, hm b]
  obtain ⟨m', hm'⟩ := Masked.max_real Finset.univ _ hz (mr b)
  have hM' : k0_pay18 (F := Ideal) (tileStart i) (k0_pay5 xs X1) colIota ms (ix2 b 0) = ((m' : ℝ) : EReal) :=
    hM.trans hm'
  refine ⟨m', ?_, ?_⟩
  · unfold k0_pay11
    rw [shapeCast_self]
    exact hM'
  · -- each term of the row's sum: the exponential of a valid column's logit less `m'`, zero past the table's end
    have hterm : ∀ k : Fin 1408,
        select (k0_pay15 (tileStart i) colIota)
            (exp (subf (k0_pay16 (F := Ideal) (tileStart i) (k0_pay5 xs X1) colIota)
              (broadcastTo S256x1408 (k0_pay18 (F := Ideal) (tileStart i) (k0_pay5 xs X1) colIota ms)
                broadcasts_S256x1_S256x1408)))
            (broadcast S256x1408 (Scalar.ofBits (F := Ideal) .f32 0x00000000#32)) (ix2 b k)
          = (((if k.val < 32 then Real.exp (zt x ft b k - m') else 0 : ℝ)) : EReal) := by
      intro k
      rw [select_apply]
      by_cases hk : k.val < 32
      · rw [Masked.mask_one i hi0 hi1 b k hk, select_one, if_pos hk]
        show Ideal.exp (k0_pay16 (F := Ideal) (tileStart i) (k0_pay5 xs X1) colIota (ix2 b k)
          - broadcastTo S256x1408 (k0_pay18 (F := Ideal) (tileStart i) (k0_pay5 xs X1) colIota ms)
              broadcasts_S256x1_S256x1408 (ix2 b k)) = _
        rw [Masked.bcast_apply, hM', Masked.pay16_apply i hi0 hi1, if_pos hk,
          pay5_apply x ft xs X1 hxs k (fun k' => hX1 k' k hk) b, ← EReal.coe_sub]
        rfl
      · rw [Masked.mask_zero i hi0 hi1 b k hk, select_zero, if_neg hk]
        show Ideal.ofBits .f32 0x00000000#32 = ((0 : ℝ) : EReal)
        rw [Ideal.ofBits_zero_f32]; rfl
    unfold k0_pay19
    rw [shapeCast_self]
    show ls (ix2 b 0) * Ideal.exp (ms (ix2 b 0) - k0_pay18 (F := Ideal) (tileStart i) (k0_pay5 xs X1) colIota ms (ix2 b 0))
      + shapeCast S256x1 (multiReduction (F := Ideal) .add [1] S256
          (select (k0_pay15 (tileStart i) colIota)
            (exp (subf (k0_pay16 (F := Ideal) (tileStart i) (k0_pay5 xs X1) colIota)
              (broadcastTo S256x1408 (k0_pay18 (F := Ideal) (tileStart i) (k0_pay5 xs X1) colIota ms)
                broadcasts_S256x1_S256x1408)))
            (broadcast S256x1408 (Scalar.ofBits (F := Ideal) .f32 0x00000000#32)))
          0x00000000#32 reduces_S256x1408_S256 (.inl rfl) rfl) shapeCasts_S256_S256x1 (ix2 b 0) = _
    rw [Masked.rowSum_apply, hl b, hm b, hM', Finset.sum_congr rfl fun k _ => hterm k, Masked.coe_sum, ← EReal.coe_sub]
    show ((lr b : ℝ) : EReal) * ((Real.exp (mr b - m') : ℝ) : EReal) + _ = _
    rw [← EReal.coe_mul, ← EReal.coe_add]

/-- The masked update of the pick at tile 71 (a target inside the table is never a masked column). -/
theorem masked_t_apply (i : grid0.Coords) (hi0 : (i 0).val = 1) (hi1 : (i 1).val = 35)
    (hxs : ∀ b k, xs (ValueIdx.ix2 b k) = ((Cert.Spec.xn x b k : ℝ) : EReal))
    (hX1 : ∀ k (j : Fin 1408), j.val < 32 → X1 (ValueIdx.ix2 k j) = ((ft k j : ℝ) : EReal))
    (hX2 : ∀ b, X2 (ValueIdx.ix2 b 0) = BitVec.ofNat 32 (tg b).val)
    (ht : ∀ b, ts (ValueIdx.ix2 b 0) = ((tr b : ℝ) : EReal)) (b : Fin 256) :
    k0_pay17 (F := Ideal) (tileStart i) (k0_pay5 xs X1) colIota (k0_pay6 i X2) ts (ValueIdx.ix2 b 0)
      = ((tr b + ∑ j : Fin 1408, (if 1408 * 71 + j.val = (tg b).val then zt x ft b j else 0) : ℝ) : EReal) := by
  -- each term of the row's sum: the logit of the column the target names, zero elsewhere
  have hterm : ∀ k : Fin 1408,
      select (k0_pay6 (F := Ideal) i X2) (k0_pay16 (F := Ideal) (tileStart i) (k0_pay5 xs X1) colIota)
          (broadcast S256x1408 (Scalar.ofBits (F := Ideal) .f32 0x00000000#32)) (ix2 b k)
        = (((if 1408 * 71 + k.val = (tg b).val then zt x ft b k else 0 : ℝ)) : EReal) := by
    intro k
    rw [select_apply, Masked.pay16_apply i hi0 hi1]
    by_cases hk : 99968 + k.val = (tg b).val
    · have hk32 : k.val < 32 := by have := (tg b).isLt; omega
      rw [(Masked.pick_apply i hi0 hi1 X2 tg hX2 b k).2 hk, select_one, if_pos hk32, if_pos (by omega),
        pay5_apply x ft xs X1 hxs k (fun k' => hX1 k' k hk32) b]
    · rw [eq_zero_of_ne_one fun e => hk ((Masked.pick_apply i hi0 hi1 X2 tg hX2 b k).1 e), select_zero, if_neg (by omega)]
      show Ideal.ofBits .f32 0x00000000#32 = ((0 : ℝ) : EReal)
      rw [Ideal.ofBits_zero_f32]; rfl
  unfold k0_pay17
  rw [shapeCast_self]
  show ts (ix2 b 0) + shapeCast S256x1 (multiReduction (F := Ideal) .add [1] S256
      (select (k0_pay6 (F := Ideal) i X2) (k0_pay16 (F := Ideal) (tileStart i) (k0_pay5 xs X1) colIota)
        (broadcast S256x1408 (Scalar.ofBits (F := Ideal) .f32 0x00000000#32)))
      0x00000000#32 reduces_S256x1408_S256 (.inl rfl) rfl) shapeCasts_S256_S256x1 (ix2 b 0) = _
  rw [Masked.rowSum_apply, ht b, Finset.sum_congr rfl fun k _ => hterm k, Masked.coe_sum, ← EReal.coe_add]

end Tile

/-- At tile 71 the masked logits do not depend on the columns past the table's end: two buffers that agree on the
    first 32 columns give one masked tile, whatever the rows are. -/
theorem pay16_congr (i : grid0.Coords) (hi0 : (i 0).val = 1) (hi1 : (i 1).val = 35)
    (xs : Vec Ideal S256x2048 .bf16) (X1 X1' : Vec Ideal S2048x1408 .f32)
    (h : ∀ (k : Fin 2048) (j : Fin 1408), j.val < 32 → X1 (ValueIdx.ix2 k j) = X1' (ValueIdx.ix2 k j)) :
    k0_pay16 (F := Ideal) (tileStart i) (k0_pay5 xs X1) colIota = k0_pay16 (F := Ideal) (tileStart i) (k0_pay5 xs X1') colIota := by
  funext idx
  obtain ⟨b, j, rfl⟩ : ∃ b j, idx = ix2 b j := ⟨idx 0, idx 1, eq_ix2 idx⟩
  rw [Masked.pay16_apply i hi0 hi1, Masked.pay16_apply i hi0 hi1]
  by_cases hj : j.val < 32
  · rw [if_pos hj, if_pos hj]
    exact pay5_col_congr xs X1 X1' j (fun k => h k j hj) b
  · rw [if_neg hj, if_neg hj]

end Cert.KernelIdeal.Sem

end
-- ==== Proof.KBlocks.lean ====
import proofs.«404700_j7164005449845_3_alg».proof.Proof.KData
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

variable (m : (ℓ : Loc nD τ sig) → Buf (Elt F) ℓ)

/-! The blocks the body is handed, read at an index off the arrays as the call finds them: the rows' block is the
    whole first argument; the targets' block the whole reshaped third argument; tile `t` of the table holds,
    at column `j` inside the table, the table's column `1408 * t + j`. -/

/-- The three input windows' block indices, decided over the grid: windows 0 and 2 stay at block (0, 0); window 1
    stays at row block 0 and moves one column block a point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-- How much of a tile lies inside the table, decided over the grid: every row, and every column but at the last
    tile, which keeps its first 32 (the table ends at column 100000 = 71 · 1408 + 32). -/
theorem xsize_facts : ∀ t : Fin cfg0.N,
    win0_1.xsize (grid0.coords t) (0 : Fin 2) = 2048
    ∧ win0_1.xsize (grid0.coords t) (1 : Fin 2) = if t.val = 71 then 32 else 1408 :=
  (by decide +kernel : ∀ t : Fin grid0.N, _)

/-- The grid's coordinates, decided over the grid. -/
theorem coords_facts : ∀ t : Fin cfg0.N, ((grid0.coords t) 0).val = t.val / 36 ∧ ((grid0.coords t) 1).val = t.val % 36 :=
  (by decide +kernel : ∀ t : Fin grid0.N, _)

/-- The third argument reshaped: what the targets' array holds when the call begins. -/
theorem V_main_v0_eq (c : Dev nD) :
    (V m c main_v0 : S256x1.Idx → Elt F .i32)
      = shapeCast S256x1 (m ((c : Thread nD τ).loc main_arg2)) shapeCasts_S256_S256x1 := by
  show StableHlo.after hostOps0 (fun b => m (c, b)) (Proc.devRef .tc main_v0) = _
  after_results
  rfl

theorem xblk_apply (c : Dev nD) (t : Fin cfg0.N) (b : Fin 256) (k : Fin 2048) :
    xblk m c t (ValueIdx.ix2 b k) = V m c main_arg0 (ValueIdx.ix2 b k) := by
  obtain ⟨e0, e1, -, -, -, -⟩ := idx_facts t
  show V m c main_arg0 (((cfg0.win 0).blk t).view.emb (ValueIdx.ix2 b k)) = V m c main_arg0 (ValueIdx.ix2 b k)
  refine congrArg _ (funext fun a => Fin.ext ?_)
  match a with
  | ⟨0, _⟩ => show win0_0.index t (0 : Fin 2) * 256 + 1 * b.val = b.val; omega
  | ⟨1, _⟩ => show win0_0.index t (1 : Fin 2) * 2048 + 1 * k.val = k.val; omega

theorem tblk_apply (c : Dev nD) (t : Fin cfg0.N) (b : Fin 256) :
    tblk m c t (ValueIdx.ix2 b 0) = V m c main_v0 (ValueIdx.ix2 b 0) := by
  obtain ⟨-, -, -, -, e0, e1⟩ := idx_facts t
  show V m c main_v0 (((cfg0.win 2).blk t).view.emb (ValueIdx.ix2 b 0)) = V m c main_v0 (ValueIdx.ix2 b 0)
  refine congrArg _ (funext fun a => Fin.ext ?_)
  match a with
  | ⟨0, _⟩ => show win0_2.index t (0 : Fin 2) * 256 + 1 * b.val = b.val; omega
  | ⟨1, _⟩ => show win0_2.index t (1 : Fin 2) * 1 + 1 * 0 = 0; omega

theorem fblk0_apply (c : Dev nD) (t : Fin cfg0.N) (k : Fin 2048) (j : Fin 1408) (h : 1408 * t.val + j.val < 100000) :
    fblk0 m c t (ValueIdx.ix2 k j) = V m c main_arg3 (ValueIdx.ix2 k ⟨1408 * t.val + j.val, h⟩) := by
  obtain ⟨-, -, e0, e1, -, -⟩ := idx_facts t
  obtain ⟨x0, x1⟩ := xsize_facts t
  -- the index lies in the part of the tile that is inside the table
  have hm : win0_1.moved (grid0.coords t) (ValueIdx.ix2 k j) = true := by
    rw [Window.moved_iff]
    intro a
    match a with
    | ⟨0, _⟩ => show k.val < win0_1.xsize (grid0.coords t) (0 : Fin 2); rw [x0]; exact k.isLt
    | ⟨1, _⟩ => show j.val < win0_1.xsize (grid0.coords t) (1 : Fin 2); rw [x1]; have := j.isLt; split <;> omega
  show win0_1.fill (grid0.coords t) zfill (iblk m c 1 t) (ValueIdx.ix2 k j) = _
  unfold Window.fill
  rw [dif_pos hm]
  show V m c main_arg3 (((cfg0.win 1).blk t).view.emb _) = V m c main_arg3 _
  refine congrArg _ (funext fun a => Fin.ext ?_)
  match a with
  | ⟨0, _⟩ => show win0_1.index t (0 : Fin 2) * 2048 + 1 * k.val = k.val; omega
  | ⟨1, _⟩ => show win0_1.index t (1 : Fin 2) * 1408 + 1 * j.val = 1408 * t.val + j.val; omega

/-- The host reshapes the 256 targets to a column before the call. -/
theorem V_main_v0_apply (c : Dev nD) (b : Fin 256) :
    V m c main_v0 (ValueIdx.ix2 b 0) = m ((c : Thread nD τ).loc main_arg2) (ValueIdx.ix1 b) := by
  rw [V_main_v0_eq]
  exact shapeCast_apply _ _ _ _ (by
    show (S256.rowMajor (ValueIdx.ix1 b)).val = (S256x1.rowMajor (ValueIdx.ix2 b 0)).val
    rw [Shape.rowMajor_val_one, Shape.rowMajor_val_two]
    show b.val = b.val * 1 + 0
    omega)

/-- The grid's coordinates: the core is the point's number over 36, the step the remainder. -/
theorem coords_0 (t : Fin cfg0.N) : ((grid0.coords t) 0).val = t.val / 36 := by
  exact (coords_facts t).1
theorem coords_1 (t : Fin cfg0.N) : ((grid0.coords t) 1).val = t.val % 36 := by
  exact (coords_facts t).2

end Cert.KernelIdeal.Body

end
-- ==== Proof.KTail.lean ====
/-
  The host operations after the kernel's call, as one function of the three arrays the call returns — per core
  `c` and row `b` the running maximum `M c b`, the sum `L c b` of `exp (logit - M c b)` over the core's columns and the
  picked target logit `T c b` —: each core's `M + log L` is the logarithm of its sum of exponentials, the two are
  joined by `max a b + log (1 + exp (-|a - b|)) = log (exp a + exp b)`, the picks added, and the mean of the
  differences taken.  Over real accumulators that is the mean cross entropy `Cert.Spec.loss`.
-/
import proofs.«404700_j7164005449845_3_alg».proof.KernelIdeal
import proofs.«404700_j7164005449845_3_alg».proof.Proof.Gen.KernelIdeal
import proofs.«404700_j7164005449845_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tail

open Idealize.ShloMosaic Cert.KernelIdeal Cert.KernelIdeal.Gen

variable {F : FTy → Type} [FloatOps F]

/-- Core `c`'s slice of a returned array, as a 256 × 1 column. -/
def core0 (A : FVec F S2x256x1 .f32) : FVec F S256x1 .f32 :=
  shapeCast S256x1 (extractStridedSlice S1x256x1 ![0, 0, 0] A slices_S2x256x1_S1x256x1_0_0_0) shapeCasts_S1x256x1_S256x1
def core1 (A : FVec F S2x256x1 .f32) : FVec F S256x1 .f32 :=
  shapeCast S256x1 (extractStridedSlice S1x256x1 ![1, 0, 0] A slices_S2x256x1_S1x256x1_1_0_0) shapeCasts_S1x256x1_S256x1

/-- The two cores' logarithms of sums joined (`jnp.logaddexp`, as it prints). -/
def joinLse (a b : FVec F S256x1 .f32) : FVec F S256x1 .f32 :=
  select (cmpf .une (subf a b) (subf a b)) (addf a b)
    (addf (maximumf a b) (Host.log1p (Host.exp (Host.negf (Host.absf (subf a b))))))

/-- The host tail: the returned arrays `M`, `L`, `T` to the scalar result. -/
def tailFn (M L T : FVec F S2x256x1 .f32) : FVec F S_ .f32 :=
  Host.divf
    (Host.reduceAdd
      (subf (joinLse (addf (core0 M) (Host.log (core0 L))) (addf (core1 M) (Host.log (core1 L))))
        (addf (core0 T) (core1 T)))
      (constant S_ .f32 0x00000000#32) reducesTo_S256x1_S_d0_1 h_S_)
    (constant S_ .f32 0x43800000#32)

/-! ## The real-number facts -/

section Reals

open Cert.Spec

variable (x : Fin 256 → Fin 2048 → ℝ) (f : Fin 2048 → Fin 100000 → ℝ) (tg : Fin 256 → Fin 100000)

/-- The first core's columns are those below 50688 … -/
theorem coreCols_zero : coreCols 0 = Finset.univ.filter fun j : Fin 100000 => j.val < 50688 := by
  unfold coreCols
  refine Finset.filter_congr fun j _ => ?_
  show 50688 * 0 ≤ j.val ∧ j.val < 50688 * (0 + 1) ↔ j.val < 50688
  omega

/-- … and the second core's are all the others. -/
theorem coreCols_one : coreCols 1 = Finset.univ.filter fun j : Fin 100000 => ¬ j.val < 50688 := by
  unfold coreCols
  refine Finset.filter_congr fun j _ => ?_
  have := j.isLt
  show 50688 * 1 ≤ j.val ∧ j.val < 50688 * (1 + 1) ↔ ¬ j.val < 50688
  omega

/-- The two cores' columns partition the table's: a sum over all columns is the two cores' sums added. -/
theorem sum_coreCols {β : Type} [AddCommMonoid β] (g : Fin 100000 → β) :
    ∑ j ∈ coreCols 0, g j + ∑ j ∈ coreCols 1, g j = ∑ j, g j := by
  rw [coreCols_zero, coreCols_one]
  exact Finset.sum_filter_add_sum_filter_not Finset.univ _ g

/-- Each core sweeps at least one column. -/
theorem coreCols_nonempty (c : Fin 2) : (coreCols c).Nonempty := by
  refine ⟨⟨50688 * c.val, by have := c.isLt; omega⟩, ?_⟩
  simp only [coreCols, Finset.mem_filter, Finset.mem_univ, true_and]
  omega

/-- A core's sum of exponentials of its logits. -/
def coreExp (c : Fin 2) (b : Fin 256) : ℝ := ∑ j ∈ coreCols c, Real.exp (logit x f b j)

theorem coreExp_pos (c : Fin 2) (b : Fin 256) : 0 < coreExp x f c b :=
  Finset.sum_pos (fun _ _ => Real.exp_pos _) (coreCols_nonempty c)

theorem coreSum_pos (c : Fin 2) (b : Fin 256) (m : ℝ) : 0 < coreSum x f c b m :=
  Finset.sum_pos (fun _ _ => Real.exp_pos _) (coreCols_nonempty c)

/-- Shifting every exponent by `m` divides the sum by `exp m`, so `m` plus the logarithm of the shifted sum is
    the logarithm of the sum. -/
theorem add_log_coreSum (c : Fin 2) (b : Fin 256) (m : ℝ) :
    m + Real.log (coreSum x f c b m) = Real.log (coreExp x f c b) := by
  have h : coreSum x f c b m = coreExp x f c b / Real.exp m := by
    unfold coreSum coreExp
    rw [Finset.sum_div]
    exact Finset.sum_congr rfl fun j _ => Real.exp_sub _ _
  rw [h, Real.log_div (coreExp_pos x f c b).ne' (Real.exp_pos m).ne', Real.log_exp]
  ring

/-- `max a b + log (1 + exp (-|a - b|)) = log (exp a + exp b)`, the absolute value spelt `max d (-d)`. -/
theorem logaddexp_eq (a b : ℝ) :
    max a b + Real.log (1 + Real.exp (-(max (a - b) (-(a - b))))) = Real.log (Real.exp a + Real.exp b) := by
  have key : ∀ p q : ℝ, p ≤ q → q + Real.log (1 + Real.exp (p - q)) = Real.log (Real.exp p + Real.exp q) := by
    intro p q _
    have h1 : (0 : ℝ) < 1 + Real.exp (p - q) := by positivity
    have h2 : q + (p - q) = p := by ring
    calc q + Real.log (1 + Real.exp (p - q))
        = Real.log (Real.exp q) + Real.log (1 + Real.exp (p - q)) := by rw [Real.log_exp]
      _ = Real.log (Real.exp q * (1 + Real.exp (p - q))) := (Real.log_mul (Real.exp_pos q).ne' h1.ne').symm
      _ = Real.log (Real.exp p + Real.exp q) := by
          rw [mul_add, mul_one, ← Real.exp_add, h2, add_comm]
  rcases le_total a b with h | h
  · rw [max_eq_right h, max_eq_right (by linarith : a - b ≤ -(a - b)), neg_neg]
    exact key a b h
  · rw [max_eq_left h, max_eq_left (by linarith : -(a - b) ≤ a - b), neg_sub, add_comm (Real.exp a)]
    exact key b a h

/-- The two cores' logarithms of sums, joined, are the row's. -/
theorem lse_eq (b : Fin 256) :
    Real.log (Real.exp (Real.log (coreExp x f 0 b)) + Real.exp (Real.log (coreExp x f 1 b))) = lse x f b := by
  rw [Real.exp_log (coreExp_pos x f 0 b), Real.exp_log (coreExp_pos x f 1 b)]
  unfold lse coreExp
  rw [sum_coreCols]

/-- The target column lies in exactly one core, so the two picks add up to its logit. -/
theorem corePick_add (b : Fin 256) : corePick x f tg 0 b + corePick x f tg 1 b = logit x f b (tg b) := by
  unfold corePick
  rw [sum_coreCols, Finset.sum_ite_eq' Finset.univ (tg b), if_pos (Finset.mem_univ _)]

end Reals

open ValueIdx

/-! ## Reading the slices -/

/-- Core 0's column at row `b` is the array at `(0, b, 0)`. -/
theorem core0_apply (A : FVec F S2x256x1 .f32) (b : Fin 256) : core0 A (ix2 b 0) = A (ix3 0 b 0) := by
  unfold core0
  rw [shapeCast_1ab_ab_apply]
  exact extractStridedSlice_apply _ A _ _ _ fun a => match a with
    | ⟨0, _⟩ => rfl
    | ⟨1, _⟩ => (Nat.zero_add _).symm
    | ⟨2, _⟩ => rfl

/-- Core 1's column at row `b` is the array at `(1, b, 0)`. -/
theorem core1_apply (A : FVec F S2x256x1 .f32) (b : Fin 256) : core1 A (ix2 b 0) = A (ix3 1 b 0) := by
  unfold core1
  rw [shapeCast_1ab_ab_apply]
  exact extractStridedSlice_apply _ A _ _ _ fun a => match a with
    | ⟨0, _⟩ => rfl
    | ⟨1, _⟩ => (Nat.zero_add _).symm
    | ⟨2, _⟩ => rfl

/-! ## The operations at real arguments -/

/-- The image of the larger of two reals is the larger of their images. -/
theorem coe_max (p q : ℝ) : max (p : EReal) (q : EReal) = ((max p q : ℝ) : EReal) :=
  (EReal.coe_strictMono.monotone.map_max).symm

/-- The image of a finite sum of reals is the sum of the images. -/
theorem coe_sum {ι : Type} (s : Finset ι) (g : ι → ℝ) :
    ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

/-- The pattern 0x43800000 denotes 256. -/
theorem ofBits_256 : Ideal.ofBits .f32 0x43800000#32 = ((256 : ℝ) : EReal) := by
  simp [Ideal.ofBits, Ideal.ieee, -EReal.coe_mul]; norm_num

/-- The join of two real values: no extended real differs from itself, so the comparison is 0 and the second
    branch is taken; there every operation stays among the reals, and the value is `log (exp p + exp q)`. -/
theorem joinLse_coe (a b : FVec Ideal S256x1 .f32) (i : S256x1.Idx) (p q : ℝ)
    (ha : a i = ((p : ℝ) : EReal)) (hb : b i = ((q : ℝ) : EReal)) :
    joinLse a b i = ((Real.log (Real.exp p + Real.exp q) : ℝ) : EReal) := by
  simp only [joinLse, select, cmpf, subf, addf, maximumf, Host.log1p, Host.exp, Host.negf, Host.absf]
  rw [ha, hb]
  simp only [Ideal.subf_def, Ideal.addf_def, Ideal.maximumf_def, Ideal.hostUnary_log1p_def, Ideal.hostUnary_exp_def,
    Ideal.hostNegf_def, Ideal.negf_def, Ideal.hostAbsf_def, Ideal.absf_def, Ideal.cmpf_def]
  have hc : Ideal.cmp .une ((p : EReal) - (q : EReal)) ((p : EReal) - (q : EReal)) = 0#1 := by simp [Ideal.cmp]
  rw [hc, Scalar.select, if_neg (by decide)]
  have hpos : ¬ (1 + Real.exp (-(max (p - q) (-(p - q)))) ≤ 0) := not_le.2 (by positivity)
  rw [← EReal.coe_sub, ← EReal.coe_neg, coe_max, coe_max, ← EReal.coe_neg, Ideal.exp_coe, Ideal.log1p,
    show (1 : EReal) + ((Real.exp (-(max (p - q) (-(p - q)))) : ℝ) : EReal)
      = ((1 + Real.exp (-(max (p - q) (-(p - q)))) : ℝ) : EReal) from by rw [EReal.coe_add, EReal.coe_one],
    Ideal.log_coe, if_neg hpos, ← EReal.coe_add, logaddexp_eq]

/-! ## The sum over the rows and the mean -/

/-- A 256 × 1 column of real values, summed from 0 by the host and divided by the word for 256, is their mean. -/
theorem mean_of_rows (R : FVec Ideal S256x1 .f32) (r : Fin 256 → ℝ) (hR : ∀ b, R (ix2 b 0) = ((r b : ℝ) : EReal)) :
    Host.divf (Host.reduceAdd R (constant S_ .f32 0x00000000#32) reducesTo_S256x1_S_d0_1 h_S_)
        (constant S_ .f32 0x43800000#32)
      = fun _ => (((∑ b, r b) / 256 : ℝ) : EReal) := by
  funext i
  simp only [Host.divf, Host.reduceAdd, Ideal.hostDivf_def, Ideal.hostReduceAdd_def]
  rw [Ideal.hostReduceAdd_total reducesTo_S256x1_S_d0_1 (fun b => b.elim0) R _ i, sum_idx2]
  simp only [Fin.sum_univ_one, hR, constant_apply]
  rw [coe_sum, Ideal.ofBits_zero_f32, zero_add, ofBits_256, Ideal.div_coe (by norm_num), ← EReal.coe_mul, mul_one_div]

/-- With real accumulators — `L c b` the core's sum of `exp (logit - M c b)` and `T c b` its pick — the tail is the
    mean cross entropy. -/
theorem tail_value (M L T : FVec Ideal S2x256x1 .f32)
    (x : Fin 256 → Fin 2048 → ℝ) (f : Fin 2048 → Fin 100000 → ℝ) (tg : Fin 256 → Fin 100000)
    (mr : Fin 2 → Fin 256 → ℝ)
    (hM : ∀ c b, M (ValueIdx.ix3 c b 0) = ((mr c b : ℝ) : EReal))
    (hL : ∀ c b, L (ValueIdx.ix3 c b 0) = ((Cert.Spec.coreSum x f c b (mr c b) : ℝ) : EReal))
    (hT : ∀ c b, T (ValueIdx.ix3 c b 0) = ((Cert.Spec.corePick x f tg c b : ℝ) : EReal)) :
    tailFn (F := Ideal) M L T = fun _ => ((Cert.Spec.loss x f tg : ℝ) : EReal) := by
  -- each core's `M + log L` at row `b` is the logarithm of the core's sum of exponentials
  have hA0 : ∀ b, (addf (core0 M) (Host.log (core0 L))) (ix2 b 0) = ((Real.log (coreExp x f 0 b) : ℝ) : EReal) := by
    intro b
    simp only [addf, Host.log, Ideal.addf_def, Ideal.hostUnary_log_def]
    rw [core0_apply, core0_apply, hM, hL, Ideal.log_coe, if_neg (not_le.2 (coreSum_pos x f 0 b _)),
      ← EReal.coe_add, add_log_coreSum]
  have hA1 : ∀ b, (addf (core1 M) (Host.log (core1 L))) (ix2 b 0) = ((Real.log (coreExp x f 1 b) : ℝ) : EReal) := by
    intro b
    simp only [addf, Host.log, Ideal.addf_def, Ideal.hostUnary_log_def]
    rw [core1_apply, core1_apply, hM, hL, Ideal.log_coe, if_neg (not_le.2 (coreSum_pos x f 1 b _)),
      ← EReal.coe_add, add_log_coreSum]
  -- the row's term: the joined logarithm minus the two picks
  have hrow : ∀ b, (subf (joinLse (addf (core0 M) (Host.log (core0 L))) (addf (core1 M) (Host.log (core1 L))))
      (addf (core0 T) (core1 T))) (ix2 b 0) = ((Cert.Spec.lse x f b - Cert.Spec.logit x f b (tg b) : ℝ) : EReal) := by
    intro b
    have hj := joinLse_coe _ _ (ix2 b 0) _ _ (hA0 b) (hA1 b)
    rw [lse_eq] at hj
    show FloatOps.subf (joinLse _ _ (ix2 b 0)) (FloatOps.addf (core0 T (ix2 b 0)) (core1 T (ix2 b 0))) = _
    rw [hj, core0_apply, core1_apply, hT, hT, Ideal.addf_def, Ideal.subf_def, ← EReal.coe_add, ← EReal.coe_sub,
      corePick_add]
  unfold tailFn
  rw [mean_of_rows _ _ hrow]
  rfl

end Cert.KernelIdeal.Tail

end
-- ==== Proof.KOut.lean ====
import proofs.«404700_j7164005449845_3_alg».proof.Proof.KData
import proofs.«404700_j7164005449845_3_alg».proof.Proof.KTail
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F] [Named F]

variable (m : (ℓ : Loc nD τ sig) → Buf (Elt F) ℓ)

/-! The three arrays the call returns, after the run: core `cc`'s slice holds the accumulators as that core's last
    step (point `36 * cc + 35`) left them — the two write-backs, at points 35 and 71, cover the arrays —, and the host
    lines after the call compute `Tail.tailFn` of them. -/

open ValueIdx

/-- The three output windows' block indices, decided over the grid: block (core, 0, 0), the core being the point's
    number over 36. -/
theorem out_idx_facts : ∀ t : Fin cfg0.N,
    win0_3.index t (0 : Fin 3) = t.val / 36 ∧ win0_3.index t (1 : Fin 3) = 0 ∧ win0_3.index t (2 : Fin 3) = 0
    ∧ win0_4.index t (0 : Fin 3) = t.val / 36 ∧ win0_4.index t (1 : Fin 3) = 0 ∧ win0_4.index t (2 : Fin 3) = 0
    ∧ win0_5.index t (0 : Fin 3) = t.val / 36 ∧ win0_5.index t (1 : Fin 3) = 0 ∧ win0_5.index t (2 : Fin 3) = 0 :=
  (by decide +kernel : ∀ t : Fin grid0.N, _)

/-- A 256 × 1 column recast as a 1 × 256 × 1 block reads the column at the block's middle coordinate. -/
theorem cast_col_apply {α : Type} (v : S256x1.Idx → α) (j : S1x256x1.Idx) :
    shapeCast S1x256x1 v shapeCasts_S256x1_S1x256x1 j = v (ix2 (⟨(j 1).val, (j 1).isLt⟩ : Fin 256) (0 : Fin 1)) :=
  shapeCast_apply v _ j _ (by
    rw [Shape.rowMajor_val_two, Shape.rowMajor_val_three]
    have h0 : (j 0).val < 1 := (j 0).isLt
    have h2 : (j 2).val < 1 := (j 2).isLt
    show (j 1).val * 1 + 0 = ((j 0).val * 256 + (j 1).val) * 1 + (j 2).val
    omega)

/-- What the first returned array ends holding: core `i 0`'s slice is the accumulator as that core's last step left it. -/
def finM (c : Dev nD) : S2x256x1.Idx → Elt F .f32 := fun i => (accAt m c (36 * ((i 0).val + 1))).ms (ix2 (i 1) 0)

theorem finM_congr (c : Dev nD) (n n' : ℕ) (p p' : S256x1.Idx) (hn : n = n') (hp : p = p') :
    (accAt m c n).ms p = (accAt m c n').ms p' := by rw [hn, hp]

/-- What a point that writes window 3's block back writes is its block of that array. -/
theorem flushed3_eq (c : Dev nD) (t : Fin cfg0.N) (hf : (cfg0.win 3).flush t = true) :
    (dats m 0 c).flushed 3 t = ((cfg0.win 3).blk t).view.read (Elt F) (finM m c) := by
  rw [flush0_3] at hf
  have e0 : win0_3.index t (0 : Fin 3) = t.val / 36 := (out_idx_facts t).1
  have e1 : win0_3.index t (1 : Fin 3) = 0 := (out_idx_facts t).2.1
  show (cfg0.win 3).cut (grid0.coords t) ((dats m 0 c).after 3 t) = _
  rw [after_3]
  funext y
  have hy0 : (y 0).val < 1 := (y 0).isLt
  have hn : t.val + 1 = 36 * ((((cfg0.win 3).blk t).view.emb y 0).val + 1) := by
    show t.val + 1 = 36 * ((win0_3.index t (0 : Fin 3) * 1 + 1 * (y 0).val) + 1)
    omega
  have hp : (ix2 (⟨(y 1).val, (y 1).isLt⟩ : Fin 256) (0 : Fin 1) : S256x1.Idx) = ix2 (((cfg0.win 3).blk t).view.emb y 1) 0 := by
    refine congrArg (fun q : Fin 256 => (ix2 q (0 : Fin 1) : S256x1.Idx)) (Fin.ext ?_)
    show (y 1).val = win0_3.index t (1 : Fin 3) * 256 + 1 * (y 1).val
    omega
  refine (cast_col_apply (accAt m c (t.val + 1)).ms ((cfg0.win 3).xinj (grid0.coords t) y)).trans ?_
  exact finM_congr m c _ _ _ _ hn hp

/-- An index of the array is in point `t`'s block of window 3 iff each coordinate is in the block's range on its axis. -/
theorem mem_blk3 (t : Fin cfg0.N) (i : S2x256x1.Idx) :
    i ∈ ((cfg0.win 3).blk t).view.set ↔ ∀ a : Fin 3, win0_3.index t a * S1x256x1.size a ≤ (i a).val ∧ (i a).val < win0_3.index t a * S1x256x1.size a + S1x256x1.size a := by
  show i ∈ ((View.whole main_v1_0).slice (win0_3.rect t)).set ↔ _
  rw [View.set_slice_whole, Rect.mem_set_unit]
  exact Iff.rfl

/-- What the second returned array ends holding: core `i 0`'s slice is the accumulator as that core's last step left it. -/
def finL (c : Dev nD) : S2x256x1.Idx → Elt F .f32 := fun i => (accAt m c (36 * ((i 0).val + 1))).ls (ix2 (i 1) 0)

theorem finL_congr (c : Dev nD) (n n' : ℕ) (p p' : S256x1.Idx) (hn : n = n') (hp : p = p') :
    (accAt m c n).ls p = (accAt m c n').ls p' := by rw [hn, hp]

/-- What a point that writes window 4's block back writes is its block of that array. -/
theorem flushed4_eq (c : Dev nD) (t : Fin cfg0.N) (hf : (cfg0.win 4).flush t = true) :
    (dats m 0 c).flushed 4 t = ((cfg0.win 4).blk t).view.read (Elt F) (finL m c) := by
  rw [flush0_4] at hf
  have e0 : win0_4.index t (0 : Fin 3) = t.val / 36 := (out_idx_facts t).2.2.2.1
  have e1 : win0_4.index t (1 : Fin 3) = 0 := (out_idx_facts t).2.2.2.2.1
  show (cfg0.win 4).cut (grid0.coords t) ((dats m 0 c).after 4 t) = _
  rw [after_4]
  funext y
  have hy0 : (y 0).val < 1 := (y 0).isLt
  have hn : t.val + 1 = 36 * ((((cfg0.win 4).blk t).view.emb y 0).val + 1) := by
    show t.val + 1 = 36 * ((win0_4.index t (0 : Fin 3) * 1 + 1 * (y 0).val) + 1)
    omega
  have hp : (ix2 (⟨(y 1).val, (y 1).isLt⟩ : Fin 256) (0 : Fin 1) : S256x1.Idx) = ix2 (((cfg0.win 4).blk t).view.emb y 1) 0 := by
    refine congrArg (fun q : Fin 256 => (ix2 q (0 : Fin 1) : S256x1.Idx)) (Fin.ext ?_)
    show (y 1).val = win0_4.index t (1 : Fin 3) * 256 + 1 * (y 1).val
    omega
  refine (cast_col_apply (accAt m c (t.val + 1)).ls ((cfg0.win 4).xinj (grid0.coords t) y)).trans ?_
  exact finL_congr m c _ _ _ _ hn hp

/-- An index of the array is in point `t`'s block of window 4 iff each coordinate is in the block's range on its axis. -/
theorem mem_blk4 (t : Fin cfg0.N) (i : S2x256x1.Idx) :
    i ∈ ((cfg0.win 4).blk t).view.set ↔ ∀ a : Fin 3, win0_4.index t a * S1x256x1.size a ≤ (i a).val ∧ (i a).val < win0_4.index t a * S1x256x1.size a + S1x256x1.size a := by
  show i ∈ ((View.whole main_v1_1).slice (win0_4.rect t)).set ↔ _
  rw [View.set_slice_whole, Rect.mem_set_unit]
  exact Iff.rfl

/-- What the third returned array ends holding: core `i 0`'s slice is the accumulator as that core's last step left it. -/
def finT (c : Dev nD) : S2x256x1.Idx → Elt F .f32 := fun i => (accAt m c (36 * ((i 0).val + 1))).ts (ix2 (i 1) 0)

theorem finT_congr (c : Dev nD) (n n' : ℕ) (p p' : S256x1.Idx) (hn : n = n') (hp : p = p') :
    (accAt m c n).ts p = (accAt m c n').ts p' := by rw [hn, hp]

/-- What a point that writes window 5's block back writes is its block of that array. -/
theorem flushed5_eq (c : Dev nD) (t : Fin cfg0.N) (hf : (cfg0.win 5).flush t = true) :
    (dats m 0 c).flushed 5 t = ((cfg0.win 5).blk t).view.read (Elt F) (finT m c) := by
  rw [flush0_5] at hf
  have e0 : win0_5.index t (0 : Fin 3) = t.val / 36 := (out_idx_facts t).2.2.2.2.2.2.1
  have e1 : win0_5.index t (1 : Fin 3) = 0 := (out_idx_facts t).2.2.2.2.2.2.2.1
  show (cfg0.win 5).cut (grid0.coords t) ((dats m 0 c).after 5 t) = _
  rw [after_5]
  funext y
  have hy0 : (y 0).val < 1 := (y 0).isLt
  have hn : t.val + 1 = 36 * ((((cfg0.win 5).blk t).view.emb y 0).val + 1) := by
    show t.val + 1 = 36 * ((win0_5.index t (0 : Fin 3) * 1 + 1 * (y 0).val) + 1)
    omega
  have hp : (ix2 (⟨(y 1).val, (y 1).isLt⟩ : Fin 256) (0 : Fin 1) : S256x1.Idx) = ix2 (((cfg0.win 5).blk t).view.emb y 1) 0 := by
    refine congrArg (fun q : Fin 256 => (ix2 q (0 : Fin 1) : S256x1.Idx)) (Fin.ext ?_)
    show (y 1).val = win0_5.index t (1 : Fin 3) * 256 + 1 * (y 1).val
    omega
  refine (cast_col_apply (accAt m c (t.val + 1)).ts ((cfg0.win 5).xinj (grid0.coords t) y)).trans ?_
  exact finT_congr m c _ _ _ _ hn hp

/-- An index of the array is in point `t`'s block of window 5 iff each coordinate is in the block's range on its axis. -/
theorem mem_blk5 (t : Fin cfg0.N) (i : S2x256x1.Idx) :
    i ∈ ((cfg0.win 5).blk t).view.set ↔ ∀ a : Fin 3, win0_5.index t a * S1x256x1.size a ≤ (i a).val ∧ (i a).val < win0_5.index t a * S1x256x1.size a + S1x256x1.size a := by
  show i ∈ ((View.whole main_v1_2).slice (win0_5.rect t)).set ↔ _
  rw [View.set_slice_whole, Rect.mem_set_unit]
  exact Iff.rfl

theorem out_m (c : Dev nD) (cc : Fin 2) (b : Fin 256) :
    (dats m 0 c).arrAt 3 cfg0.N (ValueIdx.ix3 cc b 0) = (accAt m c (36 * (cc.val + 1))).ms (ValueIdx.ix2 b 0) := by
  have hcc : cc.val < 2 := cc.isLt
  have hb : b.val < 256 := b.isLt
  have ht : 36 * cc.val + 35 < cfg0.N := by show 36 * cc.val + 35 < 72; omega
  have hf : (cfg0.win 3).flush ⟨36 * cc.val + 35, ht⟩ = true := (flush0_3 _).2 (by show (36 * cc.val + 35) % 36 = 35; omega)
  have e0 : win0_3.index ⟨36 * cc.val + 35, ht⟩ (0 : Fin 3) = (36 * cc.val + 35) / 36 := (out_idx_facts _).1
  have e1 : win0_3.index ⟨36 * cc.val + 35, ht⟩ (1 : Fin 3) = 0 := (out_idx_facts _).2.1
  have e2 : win0_3.index ⟨36 * cc.val + 35, ht⟩ (2 : Fin 3) = 0 := (out_idx_facts _).2.2.1
  have hi : ix3 cc b 0 ∈ ((cfg0.win 3).blk ⟨36 * cc.val + 35, ht⟩).view.set := by
    rw [mem_blk3]
    intro a
    match a with
    | ⟨0, _⟩ =>
      show win0_3.index _ (0 : Fin 3) * 1 ≤ cc.val ∧ cc.val < win0_3.index _ (0 : Fin 3) * 1 + 1
      rw [e0]; omega
    | ⟨1, _⟩ =>
      show win0_3.index _ (1 : Fin 3) * 256 ≤ b.val ∧ b.val < win0_3.index _ (1 : Fin 3) * 256 + 256
      rw [e1]; omega
    | ⟨2, _⟩ =>
      show win0_3.index _ (2 : Fin 3) * 1 ≤ 0 ∧ 0 < win0_3.index _ (2 : Fin 3) * 1 + 1
      rw [e2]; omega
  exact (dats m 0 c).arrAt_apply_of_mem 3 (finM m c) (flushed3_eq m c) cfg0.N ⟨36 * cc.val + 35, ht⟩ (ix3 cc b 0) ht hf hi
theorem out_l (c : Dev nD) (cc : Fin 2) (b : Fin 256) :
    (dats m 0 c).arrAt 4 cfg0.N (ValueIdx.ix3 cc b 0) = (accAt m c (36 * (cc.val + 1))).ls (ValueIdx.ix2 b 0) := by
  have hcc : cc.val < 2 := cc.isLt
  have hb : b.val < 256 := b.isLt
  have ht : 36 * cc.val + 35 < cfg0.N := by show 36 * cc.val + 35 < 72; omega
  have hf : (cfg0.win 4).flush ⟨36 * cc.val + 35, ht⟩ = true := (flush0_4 _).2 (by show (36 * cc.val + 35) % 36 = 35; omega)
  have e0 : win0_4.index ⟨36 * cc.val + 35, ht⟩ (0 : Fin 3) = (36 * cc.val + 35) / 36 := (out_idx_facts _).2.2.2.1
  have e1 : win0_4.index ⟨36 * cc.val + 35, ht⟩ (1 : Fin 3) = 0 := (out_idx_facts _).2.2.2.2.1
  have e2 : win0_4.index ⟨36 * cc.val + 35, ht⟩ (2 : Fin 3) = 0 := (out_idx_facts _).2.2.2.2.2.1
  have hi : ix3 cc b 0 ∈ ((cfg0.win 4).blk ⟨36 * cc.val + 35, ht⟩).view.set := by
    rw [mem_blk4]
    intro a
    match a with
    | ⟨0, _⟩ =>
      show win0_4.index _ (0 : Fin 3) * 1 ≤ cc.val ∧ cc.val < win0_4.index _ (0 : Fin 3) * 1 + 1
      rw [e0]; omega
    | ⟨1, _⟩ =>
      show win0_4.index _ (1 : Fin 3) * 256 ≤ b.val ∧ b.val < win0_4.index _ (1 : Fin 3) * 256 + 256
      rw [e1]; omega
    | ⟨2, _⟩ =>
      show win0_4.index _ (2 : Fin 3) * 1 ≤ 0 ∧ 0 < win0_4.index _ (2 : Fin 3) * 1 + 1
      rw [e2]; omega
  exact (dats m 0 c).arrAt_apply_of_mem 4 (finL m c) (flushed4_eq m c) cfg0.N ⟨36 * cc.val + 35, ht⟩ (ix3 cc b 0) ht hf hi
theorem out_t (c : Dev nD) (cc : Fin 2) (b : Fin 256) :
    (dats m 0 c).arrAt 5 cfg0.N (ValueIdx.ix3 cc b 0) = (accAt m c (36 * (cc.val + 1))).ts (ValueIdx.ix2 b 0) := by
  have hcc : cc.val < 2 := cc.isLt
  have hb : b.val < 256 := b.isLt
  have ht : 36 * cc.val + 35 < cfg0.N := by show 36 * cc.val + 35 < 72; omega
  have hf : (cfg0.win 5).flush ⟨36 * cc.val + 35, ht⟩ = true := (flush0_5 _).2 (by show (36 * cc.val + 35) % 36 = 35; omega)
  have e0 : win0_5.index ⟨36 * cc.val + 35, ht⟩ (0 : Fin 3) = (36 * cc.val + 35) / 36 := (out_idx_facts _).2.2.2.2.2.2.1
  have e1 : win0_5.index ⟨36 * cc.val + 35, ht⟩ (1 : Fin 3) = 0 := (out_idx_facts _).2.2.2.2.2.2.2.1
  have e2 : win0_5.index ⟨36 * cc.val + 35, ht⟩ (2 : Fin 3) = 0 := (out_idx_facts _).2.2.2.2.2.2.2.2
  have hi : ix3 cc b 0 ∈ ((cfg0.win 5).blk ⟨36 * cc.val + 35, ht⟩).view.set := by
    rw [mem_blk5]
    intro a
    match a with
    | ⟨0, _⟩ =>
      show win0_5.index _ (0 : Fin 3) * 1 ≤ cc.val ∧ cc.val < win0_5.index _ (0 : Fin 3) * 1 + 1
      rw [e0]; omega
    | ⟨1, _⟩ =>
      show win0_5.index _ (1 : Fin 3) * 256 ≤ b.val ∧ b.val < win0_5.index _ (1 : Fin 3) * 256 + 256
      rw [e1]; omega
    | ⟨2, _⟩ =>
      show win0_5.index _ (2 : Fin 3) * 1 ≤ 0 ∧ 0 < win0_5.index _ (2 : Fin 3) * 1 + 1
      rw [e2]; omega
  exact (dats m 0 c).arrAt_apply_of_mem 5 (finT m c) (flushed5_eq m c) cfg0.N ⟨36 * cc.val + 35, ht⟩ (ix3 cc b 0) ht hf hi

/-- The result buffer after the host tail is the tail function of the returned arrays. -/
theorem tail_eq (c : Dev nD) :
    Pipeline.afterTail₀ cfgs (dats m) 0 (V0 m) [hostOps1] c main_v31
      = Cert.KernelIdeal.Tail.tailFn ((dats m 0 c).arrAt 3 cfg0.N) ((dats m 0 c).arrAt 4 cfg0.N) ((dats m 0 c).arrAt 5 cfg0.N) := by
  unfold Pipeline.afterTail₀
  simp only [List.flatten_cons, List.flatten_nil, List.append_nil]
  -- what the region leaves in the three returned arrays
  have h3 : Pipeline.withArrays (cfgs 0).spec c (V0 m c) (fun w => (dats m 0 c).arrAt w (cfgs 0).N) (Proc.devRef .tc main_v1_0)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_v1_1)
      = (dats m 0 c).arrAt 4 cfg0.N := Pipeline.withArrays_arr spec0 launch0.win.arr_inj c _ _ 4
  have h5 : Pipeline.withArrays (cfgs 0).spec c (V0 m c) (fun w => (dats m 0 c).arrAt w (cfgs 0).N) (Proc.devRef .tc main_v1_2)
      = (dats m 0 c).arrAt 5 cfg0.N := Pipeline.withArrays_arr spec0 launch0.win.arr_inj c _ _ 5
  generalize Pipeline.withArrays (cfgs 0).spec c (V0 m c) (fun w => (dats m 0 c).arrAt w (cfgs 0).N) = W at h3 h4 h5 ⊢
  generalize (dats m 0 c).arrAt 3 cfg0.N = A3 at h3 ⊢
  generalize (dats m 0 c).arrAt 4 cfg0.N = A4 at h4 ⊢
  generalize (dats m 0 c).arrAt 5 cfg0.N = A5 at h5 ⊢
  after_results_simp
  rw [h3, h4, h5]
  rfl

end Cert.KernelIdeal.Body

end
-- ==== Proof.KValue.lean ====
/-
  The accumulators a core ends its sweep with, over real inputs: by induction on the core's 36 steps, after the
  step at tile `T` the running sum is `∑ exp (logit - m)` over the table's columns the core has seen, `m` the (real)
  running maximum, and the pick is the target's logit if its column has been seen, else zero.  The update keeps this:
  `l * exp (m - m') + ∑_tile exp (z - m') = ∑_seen∪tile exp (z - m')`, for whatever real `m'` the new maximum is.
-/
import proofs.«404700_j7164005449845_3_alg».proof.Proof.KData
import proofs.«404700_j7164005449845_3_alg».proof.Proof.KBlocks
import proofs.«404700_j7164005449845_3_alg».proof.Proof.KSem
import proofs.«404700_j7164005449845_3_alg».proof.Proof.KSemMasked
import proofs.«404700_j7164005449845_3_alg».proof.Proof.Spec

noncomputable section

namespace Cert.KernelIdeal.AccValue

open Idealize.ShloMosaic Cert.KernelIdeal Cert.KernelIdeal.Gen Cert.KernelIdeal.Body Cert.KernelIdeal.Sem

/-! ## Sets of columns -/

/-- The columns of tile `T` that lie inside the table. -/
def tileCols (T : ℕ) : Finset (Fin 100000) :=
  Finset.univ.filter fun j => 1408 * T ≤ j.val ∧ j.val < 1408 * (T + 1)

/-- The columns core `cc` has swept after `n` of its tiles. -/
def seen (cc n : ℕ) : Finset (Fin 100000) :=
  Finset.univ.filter fun j => 1408 * (36 * cc) ≤ j.val ∧ j.val < 1408 * (36 * cc + n)

theorem seen_zero (cc : ℕ) : seen cc 0 = ∅ := by
  ext j
  simp only [seen, Finset.mem_filter, Finset.mem_univ, true_and, Finset.notMem_empty, iff_false]
  omega

theorem seen_succ (cc n : ℕ) : seen cc (n + 1) = seen cc n ∪ tileCols (36 * cc + n) := by
  ext j
  simp only [seen, tileCols, Finset.mem_filter, Finset.mem_univ, true_and, Finset.mem_union]
  omega

theorem seen_disjoint (cc n : ℕ) : Disjoint (seen cc n) (tileCols (36 * cc + n)) := by
  rw [Finset.disjoint_left]
  intro j
  simp only [seen, tileCols, Finset.mem_filter, Finset.mem_univ, true_and]
  omega

/-- After its 36 tiles the core has swept its share of the table: `1408 * 36 = 50688`, and past the table's
    end there are no columns. -/
theorem seen_last (cc : Fin 2) : seen cc.val 36 = Cert.Spec.coreCols cc := by
  ext j
  simp only [seen, Cert.Spec.coreCols, Finset.mem_filter, Finset.mem_univ, true_and]
  omega

/-! ## A tile's columns, numbered inside the tile -/

/-- Column `j` of tile `T` as a column of the table (wrapped past the table's end, where it is never used). -/
def col (T : ℕ) (j : Fin 1408) : Fin 100000 := ⟨(1408 * T + j.val) % 100000, Nat.mod_lt _ (by norm_num)⟩

theorem col_eq (T : ℕ) (j : Fin 1408) (h : 1408 * T + j.val < 100000) : col T j = ⟨1408 * T + j.val, h⟩ :=
  Fin.ext (Nat.mod_eq_of_lt h)

/-- A sum over the tile's columns inside the table, as a sum over the tile's 1408 places. -/
theorem sum_tileCols (T : ℕ) (g : Fin 100000 → ℝ) :
    ∑ j ∈ tileCols T, g j = ∑ j : Fin 1408, if 1408 * T + j.val < 100000 then g (col T j) else 0 := by
  rw [← Finset.sum_filter]
  symm
  refine Finset.sum_nbij' (col T) (fun j => ⟨(j.val - 1408 * T) % 1408, Nat.mod_lt _ (by norm_num)⟩) ?_ ?_ ?_ ?_ ?_
  · intro a ha
    have ha' := (Finset.mem_filter.1 ha).2
    rw [col_eq T a ha']
    simp only [tileCols, Finset.mem_filter, Finset.mem_univ, true_and]
    have := a.isLt
    omega
  · intro a ha
    simp only [tileCols, Finset.mem_filter, Finset.mem_univ, true_and] at ha ⊢
    have h1 : (a.val - 1408 * T) % 1408 = a.val - 1408 * T := Nat.mod_eq_of_lt (by omega)
    rw [h1]
    have := a.isLt
    omega
  · intro a ha
    have ha' := (Finset.mem_filter.1 ha).2
    rw [col_eq T a ha']
    apply Fin.ext
    show (1408 * T + a.val - 1408 * T) % 1408 = a.val
    rw [Nat.add_sub_cancel_left]
    exact Nat.mod_eq_of_lt a.isLt
  · intro a ha
    simp only [tileCols, Finset.mem_filter, Finset.mem_univ, true_and] at ha
    have h1 : (a.val - 1408 * T) % 1408 = a.val - 1408 * T := Nat.mod_eq_of_lt (by omega)
    have := a.isLt
    apply Fin.ext
    show (1408 * T + (a.val - 1408 * T) % 1408) % 100000 = a.val
    rw [h1, Nat.mod_eq_of_lt (by omega)]
    omega
  · intro a _
    rfl

/-- The tile's real entries: the table's, and zero past the table's end. -/
def ft (f : Fin 2048 → Fin 100000 → ℝ) (T : ℕ) (k : Fin 2048) (j : Fin 1408) : ℝ :=
  if 1408 * T + j.val < 100000 then f k (col T j) else 0

/-- The tile's logit at a column inside the table is the table's. -/
theorem zt_eq (x : Fin 256 → Fin 2048 → ℝ) (f : Fin 2048 → Fin 100000 → ℝ) (T : ℕ) (b : Fin 256) (j : Fin 1408)
    (h : 1408 * T + j.val < 100000) : zt x (ft f T) b j = Cert.Spec.logit x f b (col T j) := by
  unfold zt Cert.Spec.logit ft
  simp only [if_pos h]

/-- The tile's contribution to the pick, place by place. -/
theorem pick_term (x : Fin 256 → Fin 2048 → ℝ) (f : Fin 2048 → Fin 100000 → ℝ) (tg : Fin 256 → Fin 100000)
    (T : ℕ) (b : Fin 256) (j : Fin 1408) :
    (if 1408 * T + j.val = (tg b).val then zt x (ft f T) b j else 0)
      = if 1408 * T + j.val < 100000 then (if col T j = tg b then Cert.Spec.logit x f b (col T j) else 0) else 0 := by
  by_cases h : 1408 * T + j.val < 100000
  · rw [if_pos h, zt_eq x f T b j h]
    have e : (col T j = tg b) ↔ 1408 * T + j.val = (tg b).val := by
      rw [col_eq T j h, Fin.ext_iff]
    simp only [e]
  · rw [if_neg h, if_neg]
    have := (tg b).isLt
    omega

/-- Rescaling the running sum to a new maximum and adding a tile's terms gives the sum over the union. -/
theorem sum_update (S : Finset (Fin 100000)) (T : ℕ) (hd : Disjoint S (tileCols T)) (z : Fin 100000 → ℝ) (mr m' : ℝ) :
    (∑ j ∈ S, Real.exp (z j - mr)) * Real.exp (mr - m') + ∑ j ∈ tileCols T, Real.exp (z j - m')
      = ∑ j ∈ S ∪ tileCols T, Real.exp (z j - m') := by
  rw [Finset.sum_union hd, Finset.sum_mul]
  congr 1
  refine Finset.sum_congr rfl fun j _ => ?_
  rw [← Real.exp_add]
  congr 1
  ring

/-! ## The invariant -/

section

variable (m : (ℓ : Loc nD τ sig) → Buf (Elt Ideal) ℓ) (c : Dev nD)
  (x : Fin 256 → Fin 2048 → ℝ) (f : Fin 2048 → Fin 100000 → ℝ) (tg : Fin 256 → Fin 100000)

/-- The accumulators after the columns `S` have been swept: the unit rows; per row a real maximum and the sum of
    exponentials over `S` against it; and the target's logit if the target is in `S`. -/
structure Inv (S : Finset (Fin 100000)) (a : Acc Ideal) : Prop where
  xs : ∀ b k, a.xs (ValueIdx.ix2 b k) = ((Cert.Spec.xn x b k : ℝ) : EReal)
  ml : ∃ mr : Fin 256 → ℝ, ∀ b, a.ms (ValueIdx.ix2 b 0) = ((mr b : ℝ) : EReal) ∧
    a.ls (ValueIdx.ix2 b 0) = ((∑ j ∈ S, Real.exp (Cert.Spec.logit x f b j - mr b) : ℝ) : EReal)
  ts : ∀ b, a.ts (ValueIdx.ix2 b 0) = ((∑ j ∈ S, (if j = tg b then Cert.Spec.logit x f b j else 0) : ℝ) : EReal)

variable (hx : ∀ b k, V m c main_arg0 (ValueIdx.ix2 b k) = ((x b k : ℝ) : EReal))
  (hf : ∀ k j, V m c main_arg3 (ValueIdx.ix2 k j) = ((f k j : ℝ) : EReal))
  (ht : ∀ b, V m c main_v0 (ValueIdx.ix2 b 0) = BitVec.ofNat 32 (tg b).val)

include hx in
/-- The reset: no column swept yet. -/
theorem reset_inv (t : Fin cfg0.N) : Inv x f tg ∅ (Acc.reset (xblk m c t)) := by
  obtain ⟨r, hr⟩ := pay1_apply
  refine ⟨fun b k => ?_, ⟨fun _ => r, fun b => ⟨hr b, ?_⟩⟩, fun b => ?_⟩
  · exact pay4_apply (xblk m c t) x (fun b k => (xblk_apply m c t b k).trans (hx b k)) b k
  · rw [Finset.sum_empty]; exact pay2_apply b
  · rw [Finset.sum_empty]; exact pay3_apply b

theorem N_eq : cfg0.N = 72 := by decide

include hf ht in
/-- A tile before the last: all of its columns lie inside the table. -/
theorem fast_inv (t : Fin cfg0.N) (h71 : t.val ≠ 71) (S : Finset (Fin 100000)) (a : Acc Ideal)
    (hinv : Inv x f tg S a) (hd : Disjoint S (tileCols t.val)) :
    Inv x f tg (S ∪ tileCols t.val) (a.fast (grid0.coords t) (fblk0 m c t) (tblk m c t)) := by
  have hlt : ∀ j : Fin 1408, 1408 * t.val + j.val < 100000 := fun j => by
    have h1 : t.val < 72 := lt_of_lt_of_eq t.isLt N_eq
    have h2 := j.isLt; omega
  have hX1 : ∀ k j, fblk0 m c t (ValueIdx.ix2 k j) = ((ft f t.val k j : ℝ) : EReal) := fun k j => by
    rw [fblk0_apply m c t k j (hlt j), hf, ft, if_pos (hlt j), col_eq t.val j (hlt j)]
  have hX2 : ∀ b, tblk m c t (ValueIdx.ix2 b 0) = BitVec.ofNat 32 (tg b).val := fun b =>
    (tblk_apply m c t b).trans (ht b)
  have hT : t.val = 36 * ((grid0.coords t) 0).val + ((grid0.coords t) 1).val := by
    rw [coords_0, coords_1]; omega
  obtain ⟨mr, hml⟩ := hinv.ml
  choose m' hm' using fun b => fast_ml_apply (x := x) (ft := ft f t.val) (xs := a.xs) (X1 := fblk0 m c t)
    (ms := a.ms) (ls := a.ls) (mr := mr) (lr := fun b => ∑ j ∈ S, Real.exp (Cert.Spec.logit x f b j - mr b))
    hinv.xs hX1 (fun b => (hml b).1) (fun b => (hml b).2) b
  refine ⟨hinv.xs, ⟨m', fun b => ⟨(hm' b).1, (hm' b).2.trans (congrArg _ ?_)⟩⟩, fun b => ?_⟩
  · rw [← sum_update S t.val hd (Cert.Spec.logit x f b) (mr b) (m' b), sum_tileCols]
    refine congrArg₂ (· + ·) rfl ?_
    refine Finset.sum_congr rfl fun j _ => ?_
    rw [if_pos (hlt j), zt_eq x f t.val b j (hlt j)]
  · refine (fast_t_apply (x := x) (ft := ft f t.val) (tg := tg) (xs := a.xs) (X1 := fblk0 m c t) (X2 := tblk m c t)
      (ts := a.ts) (tr := fun b => ∑ j ∈ S, (if j = tg b then Cert.Spec.logit x f b j else 0))
      (grid0.coords t) t.val hT hinv.xs hX1 hX2 hinv.ts b).trans (congrArg _ ?_)
    rw [Finset.sum_union hd, sum_tileCols]
    refine congrArg₂ (· + ·) rfl ?_
    exact Finset.sum_congr rfl fun j _ => pick_term x f tg t.val b j

include hf ht in
/-- The last tile: its first 32 columns lie inside the table, and only they count. -/
theorem masked_inv (t : Fin cfg0.N) (h71 : t.val = 71) (S : Finset (Fin 100000)) (a : Acc Ideal)
    (hinv : Inv x f tg S a) (hd : Disjoint S (tileCols 71)) :
    Inv x f tg (S ∪ tileCols 71) (a.masked (grid0.coords t) (fblk0 m c t) (tblk m c t)) := by
  have hi0 : ((grid0.coords t) 0).val = 1 := by rw [coords_0, h71]
  have hi1 : ((grid0.coords t) 1).val = 35 := by rw [coords_1, h71]
  have hiff : ∀ j : Fin 1408, j.val < 32 ↔ 1408 * 71 + j.val < 100000 := fun j => by omega
  have hX1 : ∀ k (j : Fin 1408), j.val < 32 → fblk0 m c t (ValueIdx.ix2 k j) = ((ft f 71 k j : ℝ) : EReal) :=
    fun k j hj => by
      have h : 1408 * t.val + j.val < 100000 := by rw [h71]; exact (hiff j).1 hj
      have h' : 1408 * 71 + j.val < 100000 := (hiff j).1 hj
      rw [fblk0_apply m c t k j h, hf, ft, if_pos h', col_eq 71 j h']
      congr 3
      simp only [h71]
  have hX2 : ∀ b, tblk m c t (ValueIdx.ix2 b 0) = BitVec.ofNat 32 (tg b).val := fun b =>
    (tblk_apply m c t b).trans (ht b)
  obtain ⟨mr, hml⟩ := hinv.ml
  choose m' hm' using fun b => masked_ml_apply (x := x) (ft := ft f 71) (xs := a.xs) (X1 := fblk0 m c t)
    (ms := a.ms) (ls := a.ls) (mr := mr) (lr := fun b => ∑ j ∈ S, Real.exp (Cert.Spec.logit x f b j - mr b))
    (grid0.coords t) hi0 hi1 hinv.xs hX1 (fun b => (hml b).1) (fun b => (hml b).2) b
  refine ⟨hinv.xs, ⟨m', fun b => ⟨(hm' b).1, (hm' b).2.trans (congrArg _ ?_)⟩⟩, fun b => ?_⟩
  · rw [← sum_update S 71 hd (Cert.Spec.logit x f b) (mr b) (m' b), sum_tileCols]
    refine congrArg₂ (· + ·) rfl ?_
    refine Finset.sum_congr rfl fun j _ => ?_
    by_cases hj : j.val < 32
    · rw [if_pos hj, if_pos ((hiff j).1 hj), zt_eq x f 71 b j ((hiff j).1 hj)]
    · rw [if_neg hj, if_neg (fun h => hj ((hiff j).2 h))]
  · refine (masked_t_apply (x := x) (ft := ft f 71) (tg := tg) (xs := a.xs) (X1 := fblk0 m c t) (X2 := tblk m c t)
      (ts := a.ts) (tr := fun b => ∑ j ∈ S, (if j = tg b then Cert.Spec.logit x f b j else 0))
      (grid0.coords t) hi0 hi1 hinv.xs hX1 hX2 hinv.ts b).trans (congrArg _ ?_)
    rw [Finset.sum_union hd, sum_tileCols]
    refine congrArg₂ (· + ·) rfl ?_
    exact Finset.sum_congr rfl fun j _ => pick_term x f tg 71 b j

include hx hf ht in
/-- The update by a point's tile keeps the invariant, whichever of the two updates the point runs. -/
theorem step_inv (t : Fin cfg0.N) (S : Finset (Fin 100000)) (a : Acc Ideal)
    (hinv : Inv x f tg S a) (hd : Disjoint S (tileCols t.val)) :
    Inv x f tg (S ∪ tileCols t.val)
      (if t.val = 71 then a.masked (grid0.coords t) (fblk0 m c t) (tblk m c t)
        else a.fast (grid0.coords t) (fblk0 m c t) (tblk m c t)) := by
  by_cases h71 : t.val = 71
  · rw [if_pos h71]
    have hd' : Disjoint S (tileCols 71) := by rw [← h71]; exact hd
    have key := masked_inv m c x f tg hf ht t h71 S a hinv hd'
    rw [h71]
    exact key
  · rw [if_neg h71]
    exact fast_inv m c x f tg hf ht t h71 S a hinv hd

include hx hf ht in
/-- One point of the grid: at a core's first step the reset gives the invariant for no column; at a later step
    the accumulators carry it; the tile's update then adds the tile's columns. -/
theorem stepAt_inv (t : Fin cfg0.N) (S : Finset (Fin 100000)) (a : Acc Ideal)
    (h0 : t.val % 36 = 0 → S = ∅) (hinv : t.val % 36 ≠ 0 → Inv x f tg S a) (hd : Disjoint S (tileCols t.val)) :
    Inv x f tg (S ∪ tileCols t.val) (stepAt m c t a) := by
  show Inv x f tg (S ∪ tileCols t.val)
    (if t.val = 71 then
      (if t.val % 36 = 0 then Acc.reset (xblk m c t) else a).masked (grid0.coords t) (fblk0 m c t) (tblk m c t)
    else (if t.val % 36 = 0 then Acc.reset (xblk m c t) else a).fast (grid0.coords t) (fblk0 m c t) (tblk m c t))
  refine step_inv m c x f tg hx hf ht t S _ ?_ hd
  by_cases h : t.val % 36 = 0
  · rw [if_pos h, h0 h]
    exact reset_inv m c x f tg hx t
  · rw [if_neg h]
    exact hinv h

include hx hf ht in
/-- Step `n` of core `cc`, from what the step before left. -/
theorem one_step (cc : Fin 2) (n : ℕ) (hn : n < 36)
    (hprev : n ≠ 0 → Inv x f tg (seen cc.val n) (accAt m c (36 * cc.val + n))) :
    Inv x f tg (seen cc.val (n + 1)) (accAt m c (36 * cc.val + n + 1)) := by
  have hcc := cc.isLt
  have hN : 36 * cc.val + n < cfg0.N := by rw [N_eq]; omega
  rw [seen_succ, show accAt m c (36 * cc.val + n + 1)
    = stepAt m c ⟨36 * cc.val + n, hN⟩ (accAt m c (36 * cc.val + n)) from accAt_succ m c ⟨_, hN⟩]
  refine stepAt_inv m c x f tg hx hf ht ⟨36 * cc.val + n, hN⟩ (seen cc.val n) _ (fun h => ?_) (fun h => hprev ?_)
    (seen_disjoint cc.val n)
  · have h' : (36 * cc.val + n) % 36 = 0 := h
    have e : n = 0 := by omega
    rw [e]
    exact seen_zero _
  · intro e
    apply h
    show (36 * cc.val + n) % 36 = 0
    rw [e]
    omega

include hx hf ht in
/-- After `n + 1` of core `cc`'s tiles the accumulators hold the invariant for the columns swept so far. -/
theorem acc_inv (cc : Fin 2) :
    ∀ n : ℕ, n < 36 → Inv x f tg (seen cc.val (n + 1)) (accAt m c (36 * cc.val + n + 1)) := by
  intro n
  induction n with
  | zero => exact fun h => one_step m c x f tg hx hf ht cc 0 h (fun h0 => absurd rfl h0)
  | succ n ih =>
    intro h
    refine one_step m c x f tg hx hf ht cc (n + 1) h (fun _ => ?_)
    have key := ih (by omega)
    rw [Nat.add_assoc] at key
    exact key

end

/-- After core `cc`'s last step (before point `36 * (cc + 1)`) the scratch holds, per row, a real maximum, the
    core's sum of exponentials against it, and the core's pick. -/
theorem acc_final (m : (ℓ : Loc nD τ sig) → Buf (Elt Ideal) ℓ) (c : Dev nD)
    (x : Fin 256 → Fin 2048 → ℝ) (f : Fin 2048 → Fin 100000 → ℝ) (tg : Fin 256 → Fin 100000)
    (hx : ∀ b k, V m c main_arg0 (ValueIdx.ix2 b k) = ((x b k : ℝ) : EReal))
    (hf : ∀ k j, V m c main_arg3 (ValueIdx.ix2 k j) = ((f k j : ℝ) : EReal))
    (ht : ∀ b, V m c main_v0 (ValueIdx.ix2 b 0) = BitVec.ofNat 32 (tg b).val) :
    ∃ mr : Fin 2 → Fin 256 → ℝ, ∀ (cc : Fin 2) (b : Fin 256),
      (accAt m c (36 * (cc.val + 1))).ms (ValueIdx.ix2 b 0) = ((mr cc b : ℝ) : EReal) ∧
      (accAt m c (36 * (cc.val + 1))).ls (ValueIdx.ix2 b 0) = ((Cert.Spec.coreSum x f cc b (mr cc b) : ℝ) : EReal) ∧
      (accAt m c (36 * (cc.val + 1))).ts (ValueIdx.ix2 b 0) = ((Cert.Spec.corePick x f tg cc b : ℝ) : EReal) := by
  have H : ∀ cc : Fin 2, ∃ mr : Fin 256 → ℝ, ∀ b : Fin 256,
      (accAt m c (36 * (cc.val + 1))).ms (ValueIdx.ix2 b 0) = ((mr b : ℝ) : EReal) ∧
      (accAt m c (36 * (cc.val + 1))).ls (ValueIdx.ix2 b 0) = ((Cert.Spec.coreSum x f cc b (mr b) : ℝ) : EReal) ∧
      (accAt m c (36 * (cc.val + 1))).ts (ValueIdx.ix2 b 0) = ((Cert.Spec.corePick x f tg cc b : ℝ) : EReal) := by
    intro cc
    have hinv : Inv x f tg (seen cc.val 36) (accAt m c (36 * cc.val + 35 + 1)) :=
      acc_inv m c x f tg hx hf ht cc 35 (by norm_num)
    rw [seen_last, show 36 * cc.val + 35 + 1 = 36 * (cc.val + 1) by omega] at hinv
    obtain ⟨mr, hml⟩ := hinv.ml
    exact ⟨mr, fun b => ⟨(hml b).1, (hml b).2, hinv.ts b⟩⟩
  choose mr hmr using H
  exact ⟨mr, fun cc b => hmr cc b⟩

end Cert.KernelIdeal.AccValue

end
-- ==== Proof.KFrame.lean ====
import proofs.«404700_j7164005449845_3_alg».proof.Proof.KObl
import proofs.«404700_j7164005449845_3_alg».proof.Proof.KSemMasked
import proofs.«404700_j7164005449845_3_alg».proof.Proof.KBlocks
import proofs.«404700_j7164005449845_3_alg».proof.Proof.KOut
import proofs.«404700_j7164005449845_3_alg».proof.Proof.KValue
import proofs.«404700_j7164005449845_3_alg».proof.Proof.KTail

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-! Over the extended reals: the masked update ignores the columns past the table's end, so the frame run holds
    with the accumulators tracked exactly; its post then gives the frame claim, and — the returned arrays read off
    the accumulators, the host tail applied — the program's result: the mean cross entropy. -/

variable (m : (ℓ : Loc nD τ sig) → Buf (Elt Ideal) ℓ) (ρ : Dev nD → PrngReg)

theorem coords_last : ∀ t : Fin cfg0.N, t.val = 71 → ((grid0.coords t) 0).val = 1 ∧ ((grid0.coords t) 1).val = 35 :=
  (by decide +kernel : ∀ t : Fin grid0.N, t.val = 71 → ((grid0.coords t) 0).val = 1 ∧ ((grid0.coords t) 1).val = 35)

/-- At tile 71 the fetch moves the first 32 columns. -/
theorem xsize_last : ∀ t : Fin cfg0.N, t.val = 71 → win0_1.xsize (grid0.coords t) 0 = 2048 ∧ win0_1.xsize (grid0.coords t) 1 = 32 :=
  (by decide +kernel : ∀ t : Fin grid0.N, t.val = 71 → win0_1.xsize (grid0.coords t) 0 = 2048 ∧ win0_1.xsize (grid0.coords t) 1 = 32)

/-- Whatever the buffer held past the table's end, on the first 32 columns it holds the tile. -/
theorem fblk_agree (c : Dev nD) (t : Fin cfg0.N) (ht : t.val = 71) (d : Vec Ideal S2048x1408 .f32) (k : Fin 2048) (j : Fin 1408)
    (hj : j.val < 32) : fblk m c t d (ValueIdx.ix2 k j) = fblk0 m c t (ValueIdx.ix2 k j) := by
  have hm : win0_1.moved (grid0.coords t) (ValueIdx.ix2 k j) = true :=
    (win0_1.moved_iff _ _).mpr fun a => by
      match a with
      | ⟨0, _⟩ => exact lt_of_lt_of_eq k.isLt (xsize_last t ht).1.symm
      | ⟨1, _⟩ => exact lt_of_lt_of_eq hj (xsize_last t ht).2.symm
  show win0_1.fill _ d _ _ = win0_1.fill _ zfill _ _
  unfold Window.fill; rw [dif_pos hm, dif_pos hm]

theorem maskedIgnoresFill : MaskedIgnoresFill (F := Ideal) m := by
  intro c t ht d x2 a
  have h16 := Cert.KernelIdeal.Sem.pay16_congr (grid0.coords t) (coords_last t ht).1 (coords_last t ht).2 a.xs
    (fblk m c t d) (fblk0 m c t) (fun k j hj => fblk_agree m c t ht d k j hj)
  unfold Acc.masked
  simp only [k0_pay17, k0_pay18, k0_pay19, h16]

/-- The frame claim of the idealized program. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ (maskedIgnoresFill m))

/-- The run with the result buffer named: what the host tail leaves there, and the arguments unchanged. -/
theorem run_value : θ_run defs (onTc (τ := τ) (main (F := Ideal))) ⟨m, fun _ => 0, ρ⟩ (fun r => ∀ c : Dev nD,
      r.2.mem ((c.tc : Thread nD τ).loc main_v31) = Pipeline.afterTail₀ cfgs (dats m) 0 (V0 m) [hostOps1] c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v31 (Pipeline.mem_restRefs_of main_v31 (by decide) (by decide)),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans ((((dats m) 0 c).arrAt_in 1 rfl _).trans ((A_eq m c 1).trans (V_main_arg3 m c)))⟩)
    (run_main m ρ (maskedIgnoresFill m))

/-- The result buffer after the run, for real inputs: the loss. -/
theorem result_eq (c : Dev nD)
    (x : Fin 256 → Fin 2048 → ℝ) (f : Fin 2048 → Fin 100000 → ℝ) (tg : Fin 256 → Fin 100000)
    (hx : ∀ b k, m ((c : Thread nD τ).loc main_arg0) (ValueIdx.ix2 b k) = ((x b k : ℝ) : EReal))
    (hf : ∀ k j, m ((c : Thread nD τ).loc main_arg3) (ValueIdx.ix2 k j) = ((f k j : ℝ) : EReal))
    (ht : ∀ b, m ((c : Thread nD τ).loc main_arg2) (ValueIdx.ix1 b) = BitVec.ofNat 32 (tg b).val) :
    Pipeline.afterTail₀ cfgs (dats m) 0 (V0 m) [hostOps1] c main_v31 = fun _ => ((Cert.Spec.loss x f tg : ℝ) : EReal) := by
  obtain ⟨mr, hacc⟩ := Cert.KernelIdeal.AccValue.acc_final m c x f tg
    (fun b k => by rw [V_main_arg0]; exact hx b k) (fun k j => by rw [V_main_arg3]; exact hf k j)
    (fun b => by rw [V_main_v0_apply]; exact ht b)
  rw [tail_eq]
  exact Cert.KernelIdeal.Tail.tail_value _ _ _ x f tg mr
    (fun cc b => (out_m m c cc b).trans (hacc cc b).1)
    (fun cc b => (out_l m c cc b).trans (hacc cc b).2.1)
    (fun cc b => (out_t m c cc b).trans (hacc cc b).2.2)

end Cert.KernelIdeal.Body

end
-- ==== Proof.RefLogits.lean ====
/-
  The reference's logits: each row of `x` divided by its Euclidean norm (never less than a small positive
  constant), multiplied into `f`, divided by the temperature — over real inputs the real `Cert.Spec.logit`.
-/
import proofs.«404700_j7164005449845_3_alg».proof.Proof.RefRead
import proofs.«404700_j7164005449845_3_alg».proof.Proof.Spec
import proofs.«404700_j7164005449845_3_alg».proof.Proof.KSem

noncomputable section

namespace Cert.RefValue

open Idealize.ShloMosaic Cert.ReferenceIdeal Cert.ReferenceIdeal.Gen
open Cert.ReferenceIdeal.ReadP Cert.KernelIdeal.Sem

section Norm

variable (X0 : (⟨S256x2048, .f32⟩ : BufTy).Contents (Elt Ideal)) (x : Fin 256 → Fin 2048 → ℝ)

/-- The word `0x3D4CCCCD` denotes `13421773 / 2 ^ 28`. -/
theorem ofBits_temp : Ideal.ofBits .f32 0x3D4CCCCD#32 = ((13421773 / 2 ^ 28 : ℝ) : EReal) := by
  simp [Ideal.ofBits, Ideal.ieee, -EReal.coe_mul]
  exact (div_eq_mul_inv _ _).symm

/-- A row's divisor: the larger of its Euclidean norm and the small constant. -/
theorem norm_apply (hx : ∀ b k, X0 (ValueIdx.ix2 b k) = ((x b k : ℝ) : EReal)) (b : Fin 256) :
    val_main_v2 (F := Ideal) X0 (ValueIdx.ix2 b 0) = ((Cert.Spec.rowDiv x b : ℝ) : EReal) := by
  have e2 : idx_main_call0_v2 (ValueIdx.ix2 b (0 : Fin 1)) = ValueIdx.ix1 b :=
    funext fun a => by match a with | ⟨0, _⟩ => rfl
  have e1 : ∀ k : Fin 2048, idx_main_call0_v1 (ValueIdx.ix1 b) k = ValueIdx.ix2 b k := fun k =>
    funext fun a => by match a with | ⟨0, _⟩ => rfl | ⟨1, _⟩ => rfl
  rw [val_main_v2_apply, val_main_v1_apply, val_main_cst_apply, val_main_v0_apply, val_main_call0_v2_apply, e2,
    val_main_call0_v1_apply, val_main_call0_cst_apply]
  have hs : (∑ k : Fin 2048, val_main_call0_v0 (F := Ideal) X0 (idx_main_call0_v1 (ValueIdx.ix1 b) k))
      = ((∑ k : Fin 2048, x b k * x b k : ℝ) : EReal) := by
    rw [coe_sum]
    exact Finset.sum_congr rfl fun k _ => by rw [e1 k, val_main_call0_v0_apply, hx, Ideal.mulf_def, EReal.coe_mul]
  have h0 : ¬ (∑ k : Fin 2048, x b k * x b k) < 0 :=
    not_lt.2 (Finset.sum_nonneg fun k _ => mul_self_nonneg _)
  rw [hs, Ideal.ofBits_def, Ideal.ofBits_def, Ideal.ofBits_zero_f32, zero_add, Ideal.hostUnary_sqrt_def, Ideal.sqrt_coe,
    if_neg h0, ofBits_eps, Ideal.maximumf_def, ← EReal.coe_strictMono.monotone.map_max]
  rfl

/-- The rows scaled to unit length. -/
theorem xn_apply (hx : ∀ b k, X0 (ValueIdx.ix2 b k) = ((x b k : ℝ) : EReal)) (b : Fin 256) (k : Fin 2048) :
    val_main_v4 (F := Ideal) X0 (ValueIdx.ix2 b k) = ((Cert.Spec.xn x b k : ℝ) : EReal) := by
  have e3 : idx_main_v3 (ValueIdx.ix2 b k) = ValueIdx.ix2 b (0 : Fin 1) :=
    funext fun a => by match a with | ⟨0, _⟩ => rfl | ⟨1, _⟩ => rfl
  rw [val_main_v4_apply, val_main_v3_apply, e3, norm_apply X0 x hx b, hx, Ideal.hostDivf_def,
    Ideal.div_coe (rowDiv_pos x b).ne', ← EReal.coe_mul, mul_one_div]
  rfl

end Norm
/-- The stage holding the logits, at row `b` and column `j`. -/
theorem logits_apply (X0 : (⟨S256x2048, .f32⟩ : BufTy).Contents (Elt Ideal)) (X3 : (⟨S2048x100000, .f32⟩ : BufTy).Contents (Elt Ideal))
    (x : Fin 256 → Fin 2048 → ℝ) (f : Fin 2048 → Fin 100000 → ℝ)
    (hx : ∀ b k, X0 (ValueIdx.ix2 b k) = ((x b k : ℝ) : EReal))
    (hf : ∀ k j, X3 (ValueIdx.ix2 k j) = ((f k j : ℝ) : EReal)) (b : Fin 256) (j : Fin 100000) :
    Cert.ReferenceIdeal.ReadP.val_main_v7 (F := Ideal) X0 X3 (ValueIdx.ix2 b j) = ((Cert.Spec.logit x f b j : ℝ) : EReal) := by
  have el : ∀ k : Fin 2048, lidx_main_v5 (ValueIdx.ix2 b j) k = ValueIdx.ix2 b k := fun k =>
    funext fun a => by match a with | ⟨0, _⟩ => rfl | ⟨1, _⟩ => rfl
  have er : ∀ k : Fin 2048, ridx_main_v5 (ValueIdx.ix2 b j) k = ValueIdx.ix2 k j := fun k =>
    funext fun a => by match a with | ⟨0, _⟩ => rfl | ⟨1, _⟩ => rfl
  rw [val_main_v7_apply, val_main_v6_apply, val_main_cst_0_apply, val_main_v5_apply, Ideal.ofBits_def, ofBits_temp,
    Ideal.hostDivf_def]
  have hs : (∑ k : Fin 2048, val_main_v4 (F := Ideal) X0 (lidx_main_v5 (ValueIdx.ix2 b j) k)
        * X3 (ridx_main_v5 (ValueIdx.ix2 b j) k))
      = ((∑ k : Fin 2048, Cert.Spec.xn x b k * f k j : ℝ) : EReal) := by
    rw [coe_sum]
    exact Finset.sum_congr rfl fun k _ => by rw [el k, er k, xn_apply X0 x hx b k, hf, EReal.coe_mul]
  have hk : (1 / (13421773 / 2 ^ 28 : ℝ)) = Cert.Spec.kappaR := by unfold Cert.Spec.kappaR; norm_num
  rw [hs, Ideal.div_coe (by positivity), ← EReal.coe_mul, hk]
  rfl

end Cert.RefValue

end
-- ==== Proof.RefLogp.lean ====
/-
  The reference's row-wise log-soft-max: from each logit the row's maximum `M` is subtracted, then the logarithm
  of the row's sum of `exp (z - M)`.  For real logits `M` is a real number and
  `(z - M) - log (∑ exp (z - M)) = z - log (∑ exp z)`.
-/
import proofs.«404700_j7164005449845_3_alg».proof.Proof.RefRead
import proofs.«404700_j7164005449845_3_alg».proof.Proof.Spec

noncomputable section

namespace Cert.RefValue

open Idealize.ShloMosaic Cert.ReferenceIdeal Cert.ReferenceIdeal.Gen

namespace Logp

open Idealize.ShloMosaic.ValueIdx Cert.ReferenceIdeal.ReadP

/-- The coercion of the reals into the extended reals goes through a finite sum. -/
theorem sum_coe {ι : Type} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The maximum, from −∞, of a nonempty finite family of reals is a real. -/
theorem fold_max_real {ι : Type} (s : Finset ι) (hs : s.Nonempty) (g : ι → EReal)
    (hg : ∀ k, ∃ r : ℝ, g k = ((r : ℝ) : EReal)) : ∃ r : ℝ, s.fold max ⊥ g = ((r : ℝ) : EReal) := by
  have h1 : s.fold max ⊥ g < ⊤ :=
    (Finset.fold_max_lt ⊤).2 ⟨bot_lt_top, fun k _ => by obtain ⟨r, hr⟩ := hg k; rw [hr]; exact EReal.coe_lt_top r⟩
  have h2 : ⊥ < s.fold max ⊥ g := by
    obtain ⟨k, hk⟩ := hs
    obtain ⟨r, hr⟩ := hg k
    exact (Finset.lt_fold_max ⊥).2 (Or.inr ⟨k, hk, by rw [hr]; exact EReal.bot_lt_coe r⟩)
  exact ⟨_, (EReal.coe_toReal (ne_of_lt h1) (ne_of_gt h2)).symm⟩

/-- The value a row maximum starts from denotes −∞. -/
theorem ninf : Ideal.ofBits .f32 0xFF800000#32 = ⊥ := by simp [Ideal.ofBits, Ideal.ieee]

/-- The index over row `b` with column `k` inserted on the reduced axis is `(b, k)`. -/
theorem lift_row (h : S256x100000.Reduces [1] S256) (b : Fin 256) (k : Fin 100000) :
    h.lift (ix1 b) k = ix2 b k :=
  funext fun c => Fin.ext (by match c with | ⟨0, _⟩ => rfl | ⟨1, _⟩ => rfl)

/-- The maximum of a row of real logits is a real number. -/
theorem rowMax_real (X0 : (⟨S256x2048, .f32⟩ : BufTy).Contents (Elt Ideal)) (X3 : (⟨S2048x100000, .f32⟩ : BufTy).Contents (Elt Ideal))
    (z : Fin 100000 → ℝ) (b : Fin 256)
    (hz : ∀ j, val_main_v7 (F := Ideal) X0 X3 (ix2 b j) = ((z j : ℝ) : EReal)) :
    ∃ r : ℝ, val_main_call1_v2 (F := Ideal) X0 X3 (ix1 b) = ((r : ℝ) : EReal) := by
  rw [val_main_call1_v2_apply, val_main_call1_v1_apply, val_main_call1_cst_0_apply]
  unfold val_main_call1_v0
  generalize val_main_v7 (F := Ideal) X0 X3 = Z at hz ⊢
  have hred : S256x100000.Reduces [1] S256 := by decide
  rw [Host.reduce_eq_fold_single (FloatOps.maximumf (F := Ideal) (φ := .f32)) Z _ reducesTo_S256x100000_S256_d1 hred h_S_ (ix1 b)]
  show ∃ r : ℝ, max (Ideal.ofBits .f32 0xFF800000#32)
    ((Finset.univ : Finset (Fin 100000)).fold max (Ideal.ofBits .f32 0xFF800000#32) (Z ∘ hred.lift (ix1 b))) = ((r : ℝ) : EReal)
  rw [ninf, max_eq_right bot_le]
  refine fold_max_real Finset.univ ⟨⟨0, by norm_num⟩, Finset.mem_univ _⟩ _ fun k => ⟨z k, ?_⟩
  exact (congrArg Z (lift_row hred b k)).trans (hz k)

end Logp

open Idealize.ShloMosaic.ValueIdx Cert.ReferenceIdeal.ReadP in
/-- The stage holding the log-probabilities, given that the logits' stage holds the real logits. -/
theorem logp_apply (X0 : (⟨S256x2048, .f32⟩ : BufTy).Contents (Elt Ideal)) (X3 : (⟨S2048x100000, .f32⟩ : BufTy).Contents (Elt Ideal))
    (x : Fin 256 → Fin 2048 → ℝ) (f : Fin 2048 → Fin 100000 → ℝ)
    (hz : ∀ b j, Cert.ReferenceIdeal.ReadP.val_main_v7 (F := Ideal) X0 X3 (ValueIdx.ix2 b j) = ((Cert.Spec.logit x f b j : ℝ) : EReal))
    (b : Fin 256) (j : Fin 100000) :
    Cert.ReferenceIdeal.ReadP.val_main_v8 (F := Ideal) X0 X3 (ValueIdx.ix2 b j)
      = ((Cert.Spec.logit x f b j - Cert.Spec.lse x f b : ℝ) : EReal) := by
  -- the row's maximum is a real `r`
  obtain ⟨r, hr⟩ := Logp.rowMax_real X0 X3 (fun j => Cert.Spec.logit x f b j) b (fun j => hz b j)
  -- the shifted logits of the row
  have h5 : ∀ k : Fin 100000, val_main_call1_v5 (F := Ideal) X0 X3 (ix2 b k)
      = ((Cert.Spec.logit x f b k - r : ℝ) : EReal) := by
    intro k
    rw [val_main_call1_v5_apply, val_main_call1_v4_apply, val_main_call1_v3_apply, hz b k,
      show idx_main_call1_v3 (idx_main_call1_v4 (ix2 b k)) = ix1 b from
        funext fun a => match a with | ⟨0, _⟩ => rfl,
      hr]
    show ((Cert.Spec.logit x f b k : ℝ) : EReal) - ((r : ℝ) : EReal) = _
    rw [← EReal.coe_sub]
  -- the row's sum of their exponentials
  have h7 : val_main_call1_v7 (F := Ideal) X0 X3 (ix1 b)
      = ((∑ k : Fin 100000, Real.exp (Cert.Spec.logit x f b k - r) : ℝ) : EReal) := by
    rw [val_main_call1_v7_apply, val_main_call1_cst_1_apply]
    show Ideal.ofBits .f32 0x00000000#32 + _ = _
    rw [Ideal.ofBits_zero_f32, zero_add, ← Logp.sum_coe]
    refine Finset.sum_congr rfl fun k _ => ?_
    rw [val_main_call1_v6_apply,
      show idx_main_call1_v7 (ix1 b) k = ix2 b k from
        funext fun a => match a with | ⟨0, _⟩ => rfl | ⟨1, _⟩ => rfl,
      h5 k]
    rfl
  have hS : 0 < ∑ k : Fin 100000, Real.exp (Cert.Spec.logit x f b k - r) :=
    Finset.sum_pos (fun k _ => Real.exp_pos _) ⟨⟨0, by norm_num⟩, Finset.mem_univ _⟩
  have hS' : 0 < ∑ k : Fin 100000, Real.exp (Cert.Spec.logit x f b k) :=
    Finset.sum_pos (fun k _ => Real.exp_pos _) ⟨⟨0, by norm_num⟩, Finset.mem_univ _⟩
  rw [val_main_v8_apply, h5 j, val_main_call1_v10_apply, val_main_call1_v9_apply, val_main_call1_v8_apply,
    show idx_main_call1_v8 (idx_main_call1_v10 (ix2 b j)) = ix1 b from
      funext fun a => match a with | ⟨0, _⟩ => rfl,
    h7]
  show ((Cert.Spec.logit x f b j - r : ℝ) : EReal)
    - Ideal.log ((∑ k : Fin 100000, Real.exp (Cert.Spec.logit x f b k - r) : ℝ) : EReal) = _
  rw [Ideal.log_coe, if_neg (not_le.2 hS), ← EReal.coe_sub]
  -- over the reals: `(z - r) - log (∑ exp (z - r)) = z - log (∑ exp z)`
  have hsum : ∑ k : Fin 100000, Real.exp (Cert.Spec.logit x f b k - r)
      = (∑ k : Fin 100000, Real.exp (Cert.Spec.logit x f b k)) / Real.exp r := by
    rw [Finset.sum_div]
    exact Finset.sum_congr rfl fun k _ => Real.exp_sub _ _
  rw [hsum, Real.log_div (ne_of_gt hS') (ne_of_gt (Real.exp_pos r)), Real.log_exp]
  unfold Cert.Spec.lse
  rw [sub_sub_sub_cancel_right]

end Cert.RefValue

end
-- ==== Proof.RefValue.lean ====
/-
  The reference's result is the mean cross entropy `Cert.Spec.loss`: read one operation at a time, its program
  scales each row of `x` to unit length, multiplies into `f`, divides by the temperature, subtracts from each
  logit the row's log-sum-exp (computed after subtracting the row's maximum), picks the target column and negates
  the mean.  Over finite inputs and targets inside the table every step is real arithmetic, and
  `(z - M) - log (∑ exp (z - M)) = z - log (∑ exp z)`.
-/
import proofs.«404700_j7164005449845_3_alg».proof.Proof.RefRead
import proofs.«404700_j7164005449845_3_alg».proof.Proof.RefLogits
import proofs.«404700_j7164005449845_3_alg».proof.Proof.RefLogp
import proofs.«404700_j7164005449845_3_alg».proof.Proof.Spec
import Idealize.ShloMosaic.Lib.StableHlo.Predicate

noncomputable section

namespace Cert.RefValue

open Idealize.ShloMosaic Cert.ReferenceIdeal Cert.ReferenceIdeal.Gen
open Idealize.ShloMosaic.ValueIdx
open Cert.ReferenceIdeal.ReadP

namespace Mean

/-! ## The target column picked from each row

The program reads the targets as a column, adds the table's width to a negative one (none is), checks each against
the table's bounds (all pass) and gathers, per row, the log-probability at the row's target. -/

section Pick

variable (X2 : (⟨S256, .i32⟩ : BufTy).Contents (Elt Ideal)) (tg : Fin 256 → Fin 100000)
  (ht : ∀ b, X2 (ix1 b) = BitVec.ofNat 32 (tg b).val)

/-- A target as a 32-bit word reads back as itself, below `2 ^ 31`. -/
theorem tg_toNat (b : Fin 256) : (BitVec.ofNat 32 (tg b).val).toNat = (tg b).val := by
  rw [BitVec.toNat_ofNat]
  exact Nat.mod_eq_of_lt (by have := (tg b).isLt; omega)

include ht in
/-- The targets as a column. -/
theorem v9_apply (b : Fin 256) : val_main_v9 (F := Ideal) X2 (ix2 b 0) = BitVec.ofNat 32 (tg b).val := by
  rw [val_main_v9_apply]
  have e : idx_main_v9 (ix2 b (0 : Fin 1)) = ix1 b := funext fun a => by
    match a with
    | ⟨0, _⟩ => rfl
  rw [e, ht]

include ht in
/-- No target is negative, so the normalised index is the target. -/
theorem v4_apply (b : Fin 256) : val_main_call2_v4 (F := Ideal) X2 (ix2 b 0) = BitVec.ofNat 32 (tg b).val := by
  rw [val_main_call2_v4_apply, val_main_call2_v1_apply, v9_apply X2 tg ht b, val_main_call2_v0_apply, val_main_call2_c_apply]
  have h0 : IntOp.cmpi .slt (BitVec.ofNat 32 (tg b).val) 0#32 = 0#1 := by
    refine eq_zero_of_ne_one fun e => ?_
    have := (StableHlo.Predicate.slt_iff_toNat (by rw [tg_toNat]; have := (tg b).isLt; omega) (by decide)).1 e
    simp at this
  rw [h0, select_zero]

include ht in
/-- The same at every index of the reshaped column. -/
theorem v5_apply (b : Fin 256) (p q : Fin 1) :
    val_main_call2_v5 (F := Ideal) X2 (ix3 b p q) = BitVec.ofNat 32 (tg b).val := by
  rw [val_main_call2_v5_apply]
  have e : idx_main_call2_v5 (ix3 b p q) = ix2 b (0 : Fin 1) := funext fun a => Fin.ext (by
    match a with
    | ⟨0, _⟩ =>
      have h1 : p.val < 1 := p.isLt
      have h2 : q.val < 1 := q.isLt
      show ((b.val * 1 + p.val) * 1 + q.val) / 1 = b.val
      omega
    | ⟨1, _⟩ => rfl)
  rw [e, v4_apply X2 tg ht]

include ht in
/-- Every target lies inside the table: the bounds check passes everywhere. -/
theorem v11_apply (i : S256x1x1.Idx) : val_main_call2_v11 (F := Ideal) X2 i = 1#1 := by
  obtain ⟨b, p, q, rfl⟩ : ∃ b p q, i = ix3 b p q := ⟨i 0, i 1, i 2, eq_ix3 i⟩
  rw [val_main_call2_v11_apply, val_main_call2_v7_apply, val_main_call2_v10_apply, v5_apply X2 tg ht b p q,
    val_main_call2_v6_apply, val_main_call2_c_2_apply, val_main_call2_v9_apply, val_main_call2_v8_apply,
    val_main_call2_c_1_apply]
  have hlt := (tg b).isLt
  have h1 : IntOp.cmpi .sge (BitVec.ofNat 32 (tg b).val) 0#32 = 1#1 :=
    (StableHlo.Predicate.sge_iff_toNat (by rw [tg_toNat]; omega) (by decide)).2 (by simp)
  have h2 : IntOp.cmpi .sle (BitVec.ofNat 32 (tg b).val) 99999#32 = 1#1 :=
    (StableHlo.Predicate.sle_iff_toNat (by rw [tg_toNat]; omega) (by decide)).2 (by
      rw [tg_toNat]; show (tg b).val ≤ 99999; omega)
  rw [h1, h2]
  rfl

/-- A fold of `and` from 1 over words that are all 1 is 1. -/
theorem fold_andi_one {ι : Type} (s : Finset ι) (g : ι → BitVec 1) (hg : ∀ i, g i = 1#1) :
    s.fold IntOp.andi 1#1 g = 1#1 := by
  classical
  refine Finset.induction_on s ?_ ?_
  · rfl
  · intro a s ha ih
    rw [Finset.fold_insert ha, hg a, ih]
    rfl

include ht in
/-- The check reduced over its last axis: 1 at every row. -/
theorem v12_apply (i : S256x1.Idx) : val_main_call2_v12 (F := Ideal) X2 i = 1#1 := by
  unfold val_main_call2_v12
  rw [Host.reduce_eq_fold_single IntOp.andi _ _ reducesTo_S256x1x1_S256x1_d2 (by decide) h_S_ i]
  exact fold_andi_one _ _ fun k => v11_apply X2 tg ht _

end Pick

/-! ## The gather -/

section Gather

variable {α : Type}

/-- The gather at row `b`: the operand at row `b` and the column the row's start index names, for a start index
    inside the table.  On the row axis, a batching axis, the start is zero and the row comes from the result's
    index; on the column axis, a collapsed one, the start is the index read signed and clamped to the table. -/
theorem gather_apply (x : S256x100000.Idx → α) (idx : IVec S256x1x1 32) (b : Fin 256) (t : Fin 100000)
    (hidx : idx (ix3 b (0 : Fin 1) (0 : Fin 1)) = BitVec.ofNat 32 t.val) :
    Host.gather gather_S256x100000_S256x1x1_S256x1_n_1_0_0_1_2_11 x idx (ix2 b (0 : Fin 1)) = x (ix2 b t) := by
  unfold Host.gather
  congr 1
  funext a
  refine Fin.ext ?_
  match a with
  | ⟨0, _⟩ =>
    show gather_S256x100000_S256x1x1_S256x1_n_1_0_0_1_2_11.start (ix2 b (0 : Fin 1)) idx 0
      + gather_S256x100000_S256x1x1_S256x1_n_1_0_0_1_2_11.batchCoord (ix2 b (0 : Fin 1)) 0
      + gather_S256x100000_S256x1x1_S256x1_n_1_0_0_1_2_11.offCoord (ix2 b (0 : Fin 1)) 0 = b.val
    have hb : (0 : Fin S256x100000.rank) ∈ gather_S256x100000_S256x1x1_S256x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb]
    simp only [Nat.zero_add, Nat.add_zero]
    rfl
  | ⟨1, _⟩ =>
    show gather_S256x100000_S256x1x1_S256x1_n_1_0_0_1_2_11.start (ix2 b (0 : Fin 1)) idx 1
      + gather_S256x100000_S256x1x1_S256x1_n_1_0_0_1_2_11.batchCoord (ix2 b (0 : Fin 1)) 1
      + gather_S256x100000_S256x1x1_S256x1_n_1_0_0_1_2_11.offCoord (ix2 b (0 : Fin 1)) 1 = t.val
    have hc : (1 : Fin S256x100000.rank) ∈ gather_S256x100000_S256x1x1_S256x1_n_1_0_0_1_2_11.collapsedSliceDims :=
      List.mem_singleton.mpr rfl
    have hm : (1 : Fin S256x100000.rank) ∈ gather_S256x100000_S256x1x1_S256x1_n_1_0_0_1_2_11.startIndexMap :=
      List.mem_singleton.mpr rfl
    rw [GatherDims.batchCoord_eq_zero _ _ _ (by decide),
      GatherDims.offCoord_eq_zero _ _ _ (fun h => ((GatherDims.mem_sKept _ _).mp h).1 hc)]
    simp only [Nat.add_zero]
    unfold GatherDims.start
    rw [dif_pos hm]
    have hsi : gather_S256x100000_S256x1x1_S256x1_n_1_0_0_1_2_11.siIdx (ix2 b (0 : Fin 1))
        ⟨List.idxOf (1 : Fin S256x100000.rank) gather_S256x100000_S256x1x1_S256x1_n_1_0_0_1_2_11.startIndexMap,
          List.idxOf_lt_length_iff.2 hm⟩ = ix3 b (0 : Fin 1) (0 : Fin 1) := by
      funext c; refine Fin.ext ?_
      match c with
      | ⟨0, _⟩ => rfl
      | ⟨1, _⟩ => rfl
      | ⟨2, _⟩ => rfl
    rw [hsi, hidx]
    have ht := t.isLt
    have e : (BitVec.ofNat 32 t.val).toInt.toNat = t.val := by
      have h1 : (BitVec.ofNat 32 t.val).toNat = t.val := by
        rw [BitVec.toNat_ofNat]; exact Nat.mod_eq_of_lt (by omega)
      have h2 := BitVec.toInt_eq_toNat_cond (BitVec.ofNat 32 t.val)
      rw [h1] at h2
      omega
    rw [e]
    show min t.val (100000 - 1) = t.val
    omega

end Gather

/-! ## The mean -/

/-- The coercion of the reals into the extended reals goes through a finite sum. -/
theorem coe_sum {ι : Type} (s : Finset ι) (g : ι → ℝ) : ((∑ i ∈ s, g i : ℝ) : EReal) = ∑ i ∈ s, ((g i : ℝ) : EReal) := by
  classical
  refine Finset.induction_on s ?_ ?_
  · simp
  · intro a s ha ih
    rw [Finset.sum_insert ha, Finset.sum_insert ha, EReal.coe_add, ih]

/-- The single-precision word `0x43800000` denotes 256. -/
theorem ofBits_256 : Ideal.ofBits .f32 0x43800000#32 = ((256 : ℝ) : EReal) := by
  simp [Ideal.ofBits, Ideal.ieee, -EReal.coe_mul]; norm_num

section Value

variable (X0 : (⟨S256x2048, .f32⟩ : BufTy).Contents (Elt Ideal)) (X2 : (⟨S256, .i32⟩ : BufTy).Contents (Elt Ideal))
  (X3 : (⟨S2048x100000, .f32⟩ : BufTy).Contents (Elt Ideal))
  (x : Fin 256 → Fin 2048 → ℝ) (f : Fin 2048 → Fin 100000 → ℝ) (tg : Fin 256 → Fin 100000)
  (hx : ∀ b k, X0 (ix2 b k) = ((x b k : ℝ) : EReal))
  (hf : ∀ k j, X3 (ix2 k j) = ((f k j : ℝ) : EReal))
  (ht : ∀ b, X2 (ix1 b) = BitVec.ofNat 32 (tg b).val)

include hx hf ht in
/-- The picked log-probability of row `b`: its target's logit less the row's log-sum-exp. -/
theorem v10_apply (b : Fin 256) (q : Fin 1) :
    val_main_v10 (F := Ideal) X0 X2 X3 (ix2 b q)
      = ((Cert.Spec.logit x f b (tg b) - Cert.Spec.lse x f b : ℝ) : EReal) := by
  obtain rfl : q = 0 := Subsingleton.elim _ _
  rw [val_main_v10_apply, v12_apply X2 tg ht, select_one]
  unfold val_main_call2_v13
  rw [gather_apply _ _ b (tg b) (v5_apply X2 tg ht b 0 0)]
  exact logp_apply X0 X3 x f (logits_apply X0 X3 x f hx hf) b (tg b)

end Value

end Mean

open Mean in
/-- The reference's last stage, at finite inputs `x`, `f` and targets `tg` inside the table, is the loss. -/
theorem ref_value (X0 : (⟨S256x2048, .f32⟩ : BufTy).Contents (Elt Ideal)) (X2 : (⟨S256, .i32⟩ : BufTy).Contents (Elt Ideal))
    (X3 : (⟨S2048x100000, .f32⟩ : BufTy).Contents (Elt Ideal))
    (x : Fin 256 → Fin 2048 → ℝ) (f : Fin 2048 → Fin 100000 → ℝ) (tg : Fin 256 → Fin 100000)
    (hx : ∀ b k, X0 (ValueIdx.ix2 b k) = ((x b k : ℝ) : EReal))
    (hf : ∀ k j, X3 (ValueIdx.ix2 k j) = ((f k j : ℝ) : EReal))
    (ht : ∀ b, X2 (ValueIdx.ix1 b) = BitVec.ofNat 32 (tg b).val) :
    Cert.ReferenceIdeal.ReadP.val_main_v13 (F := Ideal) X0 X2 X3 = fun _ => ((Cert.Spec.loss x f tg : ℝ) : EReal) := by
  funext i
  rw [val_main_v13_apply, val_main_v12_apply, val_main_v11_apply, val_main_cst_2_apply, val_main_cst_1_apply, sum_idx2]
  have hs : ∀ b : Fin 256, ∑ q : Fin 1, val_main_v10 (F := Ideal) X0 X2 X3 (ix2 b q)
      = ((Cert.Spec.logit x f b (tg b) - Cert.Spec.lse x f b : ℝ) : EReal) := fun b => by
    rw [Fin.sum_univ_one]
    exact v10_apply X0 X2 X3 x f tg hx hf ht b 0
  rw [Finset.sum_congr rfl fun b _ => hs b, ← coe_sum]
  show -(Ideal.div (Ideal.ofBits .f32 0x00000000#32
      + ((∑ b : Fin 256, (Cert.Spec.logit x f b (tg b) - Cert.Spec.lse x f b) : ℝ) : EReal))
      (Ideal.ofBits .f32 0x43800000#32)) = _
  rw [Ideal.ofBits_zero_f32, zero_add, ofBits_256, Ideal.div_coe (by norm_num), ← EReal.coe_mul, ← EReal.coe_neg]
  refine congrArg _ ?_
  unfold Cert.Spec.loss
  have e : ∑ b : Fin 256, (Cert.Spec.lse x f b - Cert.Spec.logit x f b (tg b))
      = -∑ b : Fin 256, (Cert.Spec.logit x f b (tg b) - Cert.Spec.lse x f b) := by
    rw [← Finset.sum_neg_distrib]
    exact Finset.sum_congr rfl fun b _ => by ring
  rw [e]
  ring

end Cert.RefValue

end
-- ==== Proof.PreFacts.lean ====
/-
  What the precondition says of the argument arrays: every entry of the two float matrices the programs read is a
  real number, and every target is the index of a column of the table.
-/
import proofs.«404700_j7164005449845_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Cert.Pre_finite_inputs

/-- The scalar shape has one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value `max x (-x)` compares strictly below +∞ is neither infinity,
    so it is the image of its real part. -/
theorem real_of_abs_lt_inf (x : EReal)
    (h : Ideal.cmp .olt (max x (-x)) (Ideal.ofBits .f32 0x7F800000#32) = 1#1) :
    x = ((x.toReal : ℝ) : EReal) := by
  rw [ofBits_inf] at h
  simp only [Ideal.cmp, StableHlo.Predicate.ofBool_eq_one_iff, decide_eq_true_eq] at h
  induction x using EReal.rec with
  | bot => simp at h
  | top => simp at h
  | coe r => simp

/-- A 32-bit word that reads, signed, at least 0 and below 100000 has an unsigned value below 100000. -/
theorem toNat_lt_of_signed_range (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide, BitVec.toInt_pos_iff] at h0
  rw [IntOp.cmpi_slt, show (100000#32 : BitVec 32).toInt = 100000 from by decide,
    StableHlo.Predicate.toInt_eq_toNat_of_lt (by omega)] at h1
  omega

/-- From the printed predicate holding (all ones) at the extended reals: real matrices `x`, `f` that the first and
    fourth arguments are the images of, and targets `tg` below 100000 whose 32-bit words the third argument holds. -/
theorem decode (X0 X1 : FVec Ideal S256x2048 .f32) (X2 : IVec S256 32) (X3 : FVec Ideal S2048x100000 .f32)
    (h : Cert.Pre_finite_inputs.fn (F := Ideal) X0 X1 X2 X3 = fun _ => 1#1) :
    ∃ (x : Fin 256 → Fin 2048 → ℝ) (f : Fin 2048 → Fin 100000 → ℝ) (tg : Fin 256 → Fin 100000),
      (∀ b k, X0 (ValueIdx.ix2 b k) = ((x b k : ℝ) : EReal)) ∧
      (∀ k j, X3 (ValueIdx.ix2 k j) = ((f k j : ℝ) : EReal)) ∧
      (∀ b, X2 (ValueIdx.ix1 b) = BitVec.ofNat 32 (tg b).val) := by
  -- the predicate at its one index, unfolded to the conjunction of five all-reductions
  have h0 := congrFun h ValueIdx.ix0
  dsimp only [Cert.Pre_finite_inputs.fn, Cert.Pre_finite_inputs.fn_part1] at h0
  simp only [andi, IntOp.andi_eq_one] at h0
  obtain ⟨⟨⟨⟨hX0, -⟩, hX3⟩, hge⟩, hlt⟩ := h0
  -- each all-reduction read at an element
  have e0 : ∀ b k, X0 (ValueIdx.ix2 b k) = (((X0 (ValueIdx.ix2 b k)).toReal : ℝ) : EReal) := fun b k =>
    real_of_abs_lt_inf _ (Host.reduce_andi_all _ _ _ _ _ hX0 (ValueIdx.ix2 b k))
  have e3 : ∀ k j, X3 (ValueIdx.ix2 k j) = (((X3 (ValueIdx.ix2 k j)).toReal : ℝ) : EReal) := fun k j =>
    real_of_abs_lt_inf _ (Host.reduce_andi_all _ _ _ _ _ hX3 (ValueIdx.ix2 k j))
  have e2 : ∀ b, (X2 (ValueIdx.ix1 b)).toNat < 100000 := fun b =>
    toNat_lt_of_signed_range _ (Host.reduce_andi_all _ _ _ _ _ hge (ValueIdx.ix1 b))
      (Host.reduce_andi_all _ _ _ _ _ hlt (ValueIdx.ix1 b))
  refine ⟨fun b k => (X0 (ValueIdx.ix2 b k)).toReal, fun k j => (X3 (ValueIdx.ix2 k j)).toReal,
    fun b => ⟨(X2 (ValueIdx.ix1 b)).toNat, e2 b⟩, e0, e3, fun b => ?_⟩
  show X2 (ValueIdx.ix1 b) = BitVec.ofNat 32 (X2 (ValueIdx.ix1 b)).toNat
  apply BitVec.eq_of_toNat_eq
  rw [BitVec.toNat_ofNat]
  exact (Nat.mod_eq_of_lt (X2 (ValueIdx.ix1 b)).isLt).symm

end Cert.PreFacts

end
-- ==== Proof.lean ====
/-
  The five claims.  Both programs compute the mean cross entropy of the soft-max of `(x̂ · f) / T` against integer
  targets, `x̂` the rows of `x` scaled to unit length: the reference by one whole matrix product, a row-wise
  log-soft-max and a gather; the kernel by an online soft-max swept over 72 tiles of 1408 columns on two cores, each
  keeping per row a running maximum `m`, a running sum `l = ∑ exp (z - m)` and the target's logit, the two cores'
  `m + log l` joined afterwards by `log (exp a + exp b)`.  Over the reals `m + log (∑ exp (z - m)) = log (∑ exp z)` for
  every real `m`, so the stand-in maximum the kernel starts from and the order of the columns do not matter; the
  kernel multiplies by the constant the temperature's reciprocal rounds to, read here as that reciprocal exactly, so
  the two scalings agree.  The precondition keeps the inputs real and the targets inside the table.
-/
import proofs.«404700_j7164005449845_3_alg».proof.Defs
import proofs.«404700_j7164005449845_3_alg».proof.Proof.Gen.Kernel
import proofs.«404700_j7164005449845_3_alg».proof.Proof.Gen.KernelIdeal
import proofs.«404700_j7164005449845_3_alg».proof.Proof.Gen.ReferenceIdeal
import proofs.«404700_j7164005449845_3_alg».proof.Proof.Gen.Pre_finite_inputs
import proofs.«404700_j7164005449845_3_alg».proof.Proof.BFrame
import proofs.«404700_j7164005449845_3_alg».proof.Proof.KFrame
import proofs.«404700_j7164005449845_3_alg».proof.Proof.RefRun
import proofs.«404700_j7164005449845_3_alg».proof.Proof.RefRead
import proofs.«404700_j7164005449845_3_alg».proof.Proof.RefValue
import proofs.«404700_j7164005449845_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.RunP.run (F := Ideal) m ρ)

/-- The one rewrite of the idealization: the kernel's scale `20.0` read as the exact reciprocal of the temperature's
    single-precision value. -/
theorem preserves : Cert.preserves_Kernel_KernelIdeal :=
  IdealRules.named_const.statement Cert.KernelIdeal.κ "inv_temp" .f32 0x41A00000#32 ((268435456 / 13421773 : ℝ) : EReal) rfl

/-- Both programs end with the mean cross entropy of the real inputs the precondition provides. -/
theorem algebraic : Cert.algebraic_KernelIdeal_ReferenceIdeal := by
  intro m ρ m' ρ' hpre hagree
  choose x f tg hx hf ht using fun c => Cert.PreFacts.decode _ _ _ _ (hpre c)
  refine ⟨fun c _ => ((Cert.Spec.loss (x c) (f c) (tg c) : ℝ) : EReal), ?_, ?_⟩
  · refine (θ_run Cert.KernelIdeal.defs _ _).mono (fun _ h c => ⟨((h c).1).trans ?_, (h c).2⟩)
      (Cert.KernelIdeal.Body.run_value m ρ)
    exact Cert.KernelIdeal.Body.result_eq m c (x c) (f c) (tg c) (hx c) (hf c) (ht c)
  · refine (θ_run Cert.ReferenceIdeal.defs _ _).mono (fun _ h c => ⟨((h c).1).trans ?_, (h c).2⟩)
      (Cert.ReferenceIdeal.RunP.run (F := Ideal) m' ρ')
    rw [Cert.ReferenceIdeal.ReadP.val_main_v13_eq, (hagree c).1, (hagree c).2.2.1, (hagree c).2.2.2]
    exact Cert.RefValue.ref_value _ _ _ (x c) (f c) (tg c) (hx c) (hf c) (ht c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
